-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x784x1152 : Shape := ⟨3, ![16, 784, 1152]⟩
abbrev S16x784x768 : Shape := ⟨3, ![16, 784, 768]⟩
abbrev S10x4096x1152 : Shape := ⟨3, ![10, 4096, 1152]⟩
abbrev S10x4096x768 : Shape := ⟨3, ![10, 4096, 768]⟩
abbrev S10x128x1152 : Shape := ⟨3, ![10, 128, 1152]⟩
abbrev S10x128x768 : Shape := ⟨3, ![10, 128, 768]⟩
abbrev S16 : Shape := ⟨1, ![16]⟩
abbrev S16x784 : Shape := ⟨2, ![16, 784]⟩
abbrev S_ : Shape := ⟨0, ![]⟩

class Facts : Prop where
  bcast_S_S16x784x1152 : S_.BroadcastsInDim S16x784x1152 (![] : Fin 0 → Fin S16x784x1152.rank)
  reducesTo_S16x784x1152_S_d0_1_2 : S16x784x1152.ReducesTo [0, 1, 2] S_
  h_S_ : 0 < S_.numel
  bcast_S_S16x784x768 : S_.BroadcastsInDim S16x784x768 (![] : Fin 0 → Fin S16x784x768.rank)
  reducesTo_S16x784x768_S_d0_1_2 : S16x784x768.ReducesTo [0, 1, 2] S_
  bcast_S_S10x4096x1152 : S_.BroadcastsInDim S10x4096x1152 (![] : Fin 0 → Fin S10x4096x1152.rank)
  reducesTo_S10x4096x1152_S_d0_1_2 : S10x4096x1152.ReducesTo [0, 1, 2] S_
  bcast_S_S10x4096x768 : S_.BroadcastsInDim S10x4096x768 (![] : Fin 0 → Fin S10x4096x768.rank)
  reducesTo_S10x4096x768_S_d0_1_2 : S10x4096x768.ReducesTo [0, 1, 2] S_
  bcast_S_S10x128x1152 : S_.BroadcastsInDim S10x128x1152 (![] : Fin 0 → Fin S10x128x1152.rank)
  reducesTo_S10x128x1152_S_d0_1_2 : S10x128x1152.ReducesTo [0, 1, 2] S_
  bcast_S_S10x128x768 : S_.BroadcastsInDim S10x128x768 (![] : Fin 0 → Fin S10x128x768.rank)
  reducesTo_S10x128x768_S_d0_1_2 : S10x128x768.ReducesTo [0, 1, 2] S_
  bcast_S_S16 : S_.BroadcastsInDim S16 (![] : Fin 0 → Fin S16.rank)
  reducesTo_S16_S_d0 : S16.ReducesTo [0] S_

variable [Facts]

def fn_part2 {F : FTy → Type} [FloatOps F] (main_v28 : IVec S_ 1) (main_v33 : IVec S16 1) : IVec S_ 1 :=
  let main_c_12 : IVec S_ 1 := constantI S_ 1 1#1
  let main_v34 : IVec S_ 1 := (fun x v => Host.reduce IntOp.andi x v reducesTo_S16_S_d0 h_S_) main_v33 main_c_12
  let main_v35 : IVec S_ 1 := andi main_v28 main_v34
  main_v35

def fn_part1 {F : FTy → Type} [FloatOps F] (main_arg4 : FVec F S10x128x1152 .f32) (main_arg5 : FVec F S10x128x768 .f32) (main_arg6 : IVec S16 32) (main_v13 : IVec S_ 1) (main_v16 : IVec S10x4096x768 1) : IVec S_ 1 :=
  let main_c_5 : IVec S_ 1 := constantI S_ 1 1#1
  let main_v17 : IVec S_ 1 := (fun x v => Host.reduce IntOp.andi x v reducesTo_S10x4096x768_S_d0_1_2 h_S_) main_v16 main_c_5
  let main_v18 : IVec S_ 1 := andi main_v13 main_v17
  let main_v19 : FVec F S10x128x1152 .f32 := Host.absf main_arg4
  let main_cst_6 : FVec F S_ .f32 := constant S_ .f32 0x7F800000#32
  let main_v20 : FVec F S10x128x1152 .f32 := broadcastInDim S10x128x1152 ![] bcast_S_S10x128x1152 main_cst_6
  let main_v21 : IVec S10x128x1152 1 := cmpf .olt main_v19 main_v20
  let main_c_7 : IVec S_ 1 := constantI S_ 1 1#1
  let main_v22 : IVec S_ 1 := (fun x v => Host.reduce IntOp.andi x v reducesTo_S10x128x1152_S_d0_1_2 h_S_) main_v21 main_c_7
  let main_v23 : IVec S_ 1 := andi main_v18 main_v22
  let main_v24 : FVec F S10x128x768 .f32 := Host.absf main_arg5
  let main_cst_8 : FVec F S_ .f32 := constant S_ .f32 0x7F800000#32
  let main_v25 : FVec F S10x128x768 .f32 := broadcastInDim S10x128x768 ![] bcast_S_S10x128x768 main_cst_8
  let main_v26 : IVec S10x128x768 1 := cmpf .olt main_v24 main_v25
  let main_c_9 : IVec S_ 1 := constantI S_ 1 1#1
  let main_v27 : IVec S_ 1 := (fun x v => Host.reduce IntOp.andi x v reducesTo_S10x128x768_S_d0_1_2 h_S_) main_v26 main_c_9
  let main_v28 : IVec S_ 1 := andi main_v23 main_v27
  let main_c_10 : IVec S_ 32 := constantI S_ 32 0#32
  let main_v29 : IVec S16 32 := broadcastInDim S16 ![] bcast_S_S16 main_c_10
  let main_v30 : IVec S16 1 := cmpi .sge main_arg6 main_v29
  let main_c_11 : IVec S_ 32 := constantI S_ 32 10#32
  let main_v31 : IVec S16 32 := broadcastInDim S16 ![] bcast_S_S16 main_c_11
  let main_v32 : IVec S16 1 := cmpi .slt main_arg6 main_v31
  let main_v33 : IVec S16 1 := andi main_v30 main_v32
  fn_part2 (F := F) main_v28 main_v33

def fn {F : FTy → Type} [FloatOps F] (main_arg0 : FVec F S16x784x1152 .f32) (main_arg1 : FVec F S16x784x768 .f32) (main_arg2 : FVec F S10x4096x1152 .f32) (main_arg3 : FVec F S10x4096x768 .f32) (main_arg4 : FVec F S10x128x1152 .f32) (main_arg5 : FVec F S10x128x768 .f32) (main_arg6 : IVec S16 32) (main_arg7 : IVec S16x784 32) : IVec S_ 1 :=
  let main_v0 : FVec F S16x784x1152 .f32 := Host.absf main_arg0
  let main_cst : FVec F S_ .f32 := constant S_ .f32 0x7F800000#32
  let main_v1 : FVec F S16x784x1152 .f32 := broadcastInDim S16x784x1152 ![] bcast_S_S16x784x1152 main_cst
  let main_v2 : IVec S16x784x1152 1 := cmpf .olt main_v0 main_v1
  let main_c : IVec S_ 1 := constantI S_ 1 1#1
  let main_v3 : IVec S_ 1 := (fun x v => Host.reduce IntOp.andi x v reducesTo_S16x784x1152_S_d0_1_2 h_S_) main_v2 main_c
  let main_v4 : FVec F S16x784x768 .f32 := Host.absf main_arg1
  let main_cst_0 : FVec F S_ .f32 := constant S_ .f32 0x7F800000#32
  let main_v5 : FVec F S16x784x768 .f32 := broadcastInDim S16x784x768 ![] bcast_S_S16x784x768 main_cst_0
  let main_v6 : IVec S16x784x768 1 := cmpf .olt main_v4 main_v5
  let main_c_1 : IVec S_ 1 := constantI S_ 1 1#1
  let main_v7 : IVec S_ 1 := (fun x v => Host.reduce IntOp.andi x v reducesTo_S16x784x768_S_d0_1_2 h_S_) main_v6 main_c_1
  let main_v8 : IVec S_ 1 := andi main_v3 main_v7
  let main_v9 : FVec F S10x4096x1152 .f32 := Host.absf main_arg2
  let main_cst_2 : FVec F S_ .f32 := constant S_ .f32 0x7F800000#32
  let main_v10 : FVec F S10x4096x1152 .f32 := broadcastInDim S10x4096x1152 ![] bcast_S_S10x4096x1152 main_cst_2
  let main_v11 : IVec S10x4096x1152 1 := cmpf .olt main_v9 main_v10
  let main_c_3 : IVec S_ 1 := constantI S_ 1 1#1
  let main_v12 : IVec S_ 1 := (fun x v => Host.reduce IntOp.andi x v reducesTo_S10x4096x1152_S_d0_1_2 h_S_) main_v11 main_c_3
  let main_v13 : IVec S_ 1 := andi main_v8 main_v12
  let main_v14 : FVec F S10x4096x768 .f32 := Host.absf main_arg3
  let main_cst_4 : FVec F S_ .f32 := constant S_ .f32 0x7F800000#32
  let main_v15 : FVec F S10x4096x768 .f32 := broadcastInDim S10x4096x768 ![] bcast_S_S10x4096x768 main_cst_4
  let main_v16 : IVec S10x4096x768 1 := cmpf .olt main_v14 main_v15
  fn_part1 (F := F) main_arg4 main_arg5 main_arg6 main_v13 main_v16
-- ==== Kernel.lean ====
abbrev S16x784x1152 : Shape := ⟨3, ![16, 784, 1152]⟩
abbrev S16x784x768 : Shape := ⟨3, ![16, 784, 768]⟩
abbrev S10x4096x1152 : Shape := ⟨3, ![10, 4096, 1152]⟩
abbrev S10x4096x768 : Shape := ⟨3, ![10, 4096, 768]⟩
abbrev S10x128x1152 : Shape := ⟨3, ![10, 128, 1152]⟩
abbrev S10x128x768 : Shape := ⟨3, ![10, 128, 768]⟩
abbrev S16 : Shape := ⟨1, ![16]⟩
abbrev S16x784 : Shape := ⟨2, ![16, 784]⟩
abbrev S_ : Shape := ⟨0, ![]⟩
abbrev S16x1x784 : Shape := ⟨3, ![16, 1, 784]⟩
abbrev S1x784x1152 : Shape := ⟨3, ![1, 784, 1152]⟩
abbrev S1x1024x1152 : Shape := ⟨3, ![1, 1024, 1152]⟩
abbrev S1 : Shape := ⟨1, ![1]⟩
abbrev S1x1x784 : Shape := ⟨3, ![1, 1, 784]⟩
abbrev S1x784 : Shape := ⟨2, ![1, 784]⟩
abbrev S784x1152 : Shape := ⟨2, ![784, 1152]⟩
abbrev S784 : Shape := ⟨1, ![784]⟩
abbrev S1024x1152 : Shape := ⟨2, ![1024, 1152]⟩
abbrev S1024 : Shape := ⟨1, ![1024]⟩
abbrev S1024x1 : Shape := ⟨2, ![1024, 1]⟩
abbrev S1024x784 : Shape := ⟨2, ![1024, 784]⟩
abbrev S1x784x768 : Shape := ⟨3, ![1, 784, 768]⟩
abbrev S1x1024x768 : Shape := ⟨3, ![1, 1024, 768]⟩
abbrev S784x768 : Shape := ⟨2, ![784, 768]⟩
abbrev S1024x768 : Shape := ⟨2, ![1024, 768]⟩
abbrev S16x784x1 : Shape := ⟨3, ![16, 784, 1]⟩
abbrev S16x768 : Shape := ⟨2, ![16, 768]⟩
abbrev S16x1 : Shape := ⟨2, ![16, 1]⟩
abbrev S16x1152 : Shape := ⟨2, ![16, 1152]⟩
abbrev S16x128x768 : Shape := ⟨3, ![16, 128, 768]⟩
abbrev S16x128x1152 : Shape := ⟨3, ![16, 128, 1152]⟩
abbrev S16x1x768 : Shape := ⟨3, ![16, 1, 768]⟩
abbrev S16x1x1 : Shape := ⟨3, ![16, 1, 1]⟩
abbrev S16x128 : Shape := ⟨2, ![16, 128]⟩
abbrev S16x1x128 : Shape := ⟨3, ![16, 1, 128]⟩
abbrev S16x768x128 : Shape := ⟨3, ![16, 768, 128]⟩
abbrev S16x1x1152 : Shape := ⟨3, ![16, 1, 1152]⟩
abbrev S16x1152x128 : Shape := ⟨3, ![16, 1152, 128]⟩

abbrev nBuf : Space → Nat
  | .hbm => 127
  | .vmem => 16
  | .smem => 1
  | _ => 0

abbrev bufTy : (tb : Table) → Fin (tcTables nBuf tb) → BufTy
  | .hbm, ⟨0, _⟩ => ⟨S16x784x1152, .f32⟩
  | .hbm, ⟨1, _⟩ => ⟨S16x784x768, .f32⟩
  | .hbm, ⟨2, _⟩ => ⟨S10x4096x1152, .f32⟩
  | .hbm, ⟨3, _⟩ => ⟨S10x4096x768, .f32⟩
  | .hbm, ⟨4, _⟩ => ⟨S10x128x1152, .f32⟩
  | .hbm, ⟨5, _⟩ => ⟨S10x128x768, .f32⟩
  | .hbm, ⟨6, _⟩ => ⟨S16x784, .i32⟩
  | .hbm, ⟨7, _⟩ => ⟨S16x784, .f32⟩
  | .hbm, ⟨8, _⟩ => ⟨S_, .f32⟩
  | .hbm, ⟨9, _⟩ => ⟨S16, .f32⟩
  | .hbm, ⟨10, _⟩ => ⟨S16x1x784, .f32⟩
  | .hbm, ⟨11, _⟩ => ⟨S16x784, .f32⟩
  | .hbm, ⟨12, _⟩ => ⟨S16x784, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1x784, .f32⟩
  | .hbm, ⟨17, _⟩ => ⟨S16x784, .f32⟩
  | .hbm, ⟨18, _⟩ => ⟨S_, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16x784x1, .f32⟩
  | .hbm, ⟨24, _⟩ => ⟨S16x784x768, .f32⟩
  | .hbm, ⟨25, _⟩ => ⟨S16x784x768, .f32⟩
  | .hbm, ⟨26, _⟩ => ⟨S_, .f32⟩
  | .hbm, ⟨27, _⟩ => ⟨S16x768, .f32⟩
  | .hbm, ⟨28, _⟩ => ⟨S16x1, .f32⟩
  | .hbm, ⟨29, _⟩ => ⟨S16x768, .f32⟩
  | .hbm, ⟨30, _⟩ => ⟨S16x768, .f32⟩
  | .hbm, ⟨31, _⟩ => ⟨S16x784x1, .f32⟩
  | .hbm, ⟨32, _⟩ => ⟨S16x784x1152, .f32⟩
  | .hbm, ⟨33, _⟩ => ⟨S16x784x1152, .f32⟩
  | .hbm, ⟨34, _⟩ => ⟨S_, .f32⟩
  | .hbm, ⟨35, _⟩ => ⟨S16x1152, .f32⟩
  | .hbm, ⟨36, _⟩ => ⟨S16x1, .f32⟩
  | .hbm, ⟨37, _⟩ => ⟨S16x1152, .f32⟩
  | .hbm, ⟨38, _⟩ => ⟨S16x1152, .f32⟩
  | .hbm, ⟨39, _⟩ => ⟨S_, .i32⟩
  | .hbm, ⟨40, _⟩ => ⟨S16, .i32⟩
  | .hbm, ⟨41, _⟩ => ⟨S16, .i1⟩
  | .hbm, ⟨42, _⟩ => ⟨S_, .i32⟩
  | .hbm, ⟨43, _⟩ => ⟨S16, .i32⟩
  | .hbm, ⟨44, _⟩ => ⟨S16, .i32⟩
  | .hbm, ⟨45, _⟩ => ⟨S16, .i32⟩
  | .hbm, ⟨46, _⟩ => ⟨S16x1, .i32⟩
  | .hbm, ⟨47, _⟩ => ⟨S16x128x768, .f32⟩
  | .hbm, ⟨48, _⟩ => ⟨S_, .i32⟩
  | .hbm, ⟨49, _⟩ => ⟨S16, .i32⟩
  | .hbm, ⟨50, _⟩ => ⟨S16, .i1⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S16, .i32⟩
  | .hbm, ⟨55, _⟩ => ⟨S16x1, .i32⟩
  | .hbm, ⟨56, _⟩ => ⟨S16x128x1152, .f32⟩
  | .hbm, ⟨57, _⟩ => ⟨S16x1x768, .f32⟩
  | .hbm, ⟨58, _⟩ => ⟨S16x1x768, .f32⟩
  | .hbm, ⟨59, _⟩ => ⟨S_, .f32⟩
  | .hbm, ⟨60, _⟩ => ⟨S16x1, .f32⟩
  | .hbm, ⟨61, _⟩ => ⟨S16x1x1, .f32⟩
  | .hbm, ⟨62, _⟩ => ⟨S16x128x768, .f32⟩
  | .hbm, ⟨63, _⟩ => ⟨S_, .f32⟩
  | .hbm, ⟨64, _⟩ => ⟨S16x128, .f32⟩
  | .hbm, ⟨65, _⟩ => ⟨S16x1x128, .f32⟩
  | .hbm, ⟨66, _⟩ => ⟨S16x1x128, .f32⟩
  | .hbm, ⟨67, _⟩ => ⟨S16x1x128, .f32⟩
  | .hbm, ⟨68, _⟩ => ⟨S16x768x128, .f32⟩
  | .hbm, ⟨69, _⟩ => ⟨S16x1x128, .f32⟩
  | .hbm, ⟨70, _⟩ => ⟨S_, .f32⟩
  | .hbm, ⟨71, _⟩ => ⟨S16x1x128, .f32⟩
  | .hbm, ⟨72, _⟩ => ⟨S16x1x128, .f32⟩
  | .hbm, ⟨73, _⟩ => ⟨S16x1x128, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S16x1x128, .f32⟩
  | .hbm, ⟨78, _⟩ => ⟨S16x1x128, .f32⟩
  | .hbm, ⟨79, _⟩ => ⟨S_, .f32⟩
  | .hbm, ⟨80, _⟩ => ⟨S16x1x128, .f32⟩
  | .hbm, ⟨81, _⟩ => ⟨S16x1x128, .f32⟩
  | .hbm, ⟨82, _⟩ => ⟨S16x1x128, .f32⟩
  | .hbm, ⟨83, _⟩ => ⟨S_, .f32⟩
  | .hbm, ⟨84, _⟩ => ⟨S16x1, .f32⟩
  | .hbm, ⟨85, _⟩ => ⟨S16, .f32⟩
  | .hbm, ⟨86, _⟩ => ⟨S16x1x1152, .f32⟩
  | .hbm, ⟨87, _⟩ => ⟨S16x1x1152, .f32⟩
  | .hbm, ⟨88, _⟩ => ⟨S_, .f32⟩
  | .hbm, ⟨89, _⟩ => ⟨S16x1, .f32⟩
  | .hbm, ⟨90, _⟩ => ⟨S16x1x1, .f32⟩
  | .hbm, ⟨91, _⟩ => ⟨S16x128x1152, .f32⟩
  | .hbm, ⟨92, _⟩ => ⟨S_, .f32⟩
  | .hbm, ⟨93, _⟩ => ⟨S16x128, .f32⟩
  | .hbm, ⟨94, _⟩ => ⟨S16x1x128, .f32⟩
  | .hbm, ⟨95, _⟩ => ⟨S16x1x128, .f32⟩
  | .hbm, ⟨96, _⟩ => ⟨S16x1x128, .f32⟩
  | .hbm, ⟨97, _⟩ => ⟨S16x1152x128, .f32⟩
  | .hbm, ⟨98, _⟩ => ⟨S16x1x128, .f32⟩
  | .hbm, ⟨99, _⟩ => ⟨S_, .f32⟩
  | .hbm, ⟨100, _⟩ => ⟨S16x1x128, .f32⟩
  | .hbm, ⟨101, _⟩ => ⟨S16x1x128, .f32⟩
  | .hbm, ⟨102, _⟩ => ⟨S16x1x128, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S16x1x128, .f32⟩
  | .hbm, ⟨107, _⟩ => ⟨S16x1x128, .f32⟩
  | .hbm, ⟨108, _⟩ => ⟨S_, .f32⟩
  | .hbm, ⟨109, _⟩ => ⟨S16x1x128, .f32⟩
  | .hbm, ⟨110, _⟩ => ⟨S16x1x128, .f32⟩
  | .hbm, ⟨111, _⟩ => ⟨S16x1x128, .f32⟩
  | .hbm, ⟨112, _⟩ => ⟨S_, .f32⟩
  | .hbm, ⟨113, _⟩ => ⟨S16x1, .f32⟩
  | .hbm, ⟨114, _⟩ => ⟨S16, .f32⟩
  | .hbm, ⟨115, _⟩ => ⟨S16, .f32⟩
  | .hbm, ⟨116, _⟩ => ⟨S16, .f32⟩
  | .hbm, ⟨117, _⟩ => ⟨S_, .f32⟩
  | .hbm, ⟨118, _⟩ => ⟨S16, .f32⟩
  | .hbm, ⟨119, _⟩ => ⟨S16, .f32⟩
  | .hbm, ⟨120, _⟩ => ⟨S16, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .local _ .vmem, ⟨0, _⟩ => ⟨S1x784x1152, .f32⟩
  | .local _ .vmem, ⟨1, _⟩ => ⟨S1x784x1152, .f32⟩
  | .local _ .vmem, ⟨2, _⟩ => ⟨S1x1024x1152, .f32⟩
  | .local _ .vmem, ⟨3, _⟩ => ⟨S1x1024x1152, .f32⟩
  | .local _ .vmem, ⟨4, _⟩ => ⟨S1x1x784, .f32⟩
  | .local _ .vmem, ⟨5, _⟩ => ⟨S1x1x784, .f32⟩
  | .local _ .vmem, ⟨6, _⟩ => ⟨S1x784, .f32⟩
  | .local _ .vmem, ⟨7, _⟩ => ⟨S1x784, .f32⟩
  | .local _ .vmem, ⟨8, _⟩ => ⟨S1x784x768, .f32⟩
  | .local _ .vmem, ⟨9, _⟩ => ⟨S1x784x768, .f32⟩
  | .local _ .vmem, ⟨10, _⟩ => ⟨S1x1024x768, .f32⟩
  | .local _ .vmem, ⟨11, _⟩ => ⟨S1x1024x768, .f32⟩
  | .local _ .vmem, ⟨12, _⟩ => ⟨S1x1x784, .f32⟩
  | .local _ .vmem, ⟨13, _⟩ => ⟨S1x1x784, .f32⟩
  | .local _ .vmem, ⟨14, _⟩ => ⟨S1x784, .f32⟩
  | .local _ .vmem, ⟨15, _⟩ => ⟨S1x784, .f32⟩
  | .local _ .smem, ⟨0, _⟩ => ⟨S16, .i32⟩
  | _, _ => ⟨S16x784x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_cst_12 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_17 : Ref sig .tc := ⟨.hbm, 103, rfl⟩
abbrev main_cst_18 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v72 : Ref sig .tc := ⟨.hbm, 110, rfl⟩
abbrev main_v73 : Ref sig .tc := ⟨.hbm, 111, rfl⟩
abbrev main_cst_19 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_20 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_21 : Ref sig .tc := ⟨.hbm, 121, rfl⟩
abbrev main_v81 : Ref sig .tc := ⟨.hbm, 122, rfl⟩
abbrev main_cst_22 : Ref sig .tc := ⟨.hbm, 123, rfl⟩
abbrev main_v82 : Ref sig .tc := ⟨.hbm, 124, rfl⟩
abbrev main_cst_23 : Ref sig .tc := ⟨.hbm, 125, rfl⟩
abbrev main_v83 : Ref sig .tc := ⟨.hbm, 126, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_17 : BitVec 32 := 0#32
  let v34 : BitVec 1 := Scalar.cmpi .ne v33 c0_i32_17
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x784x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

abbrev pre1 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (i : grid1.Coords) : BitVec 1 :=
  let arg1 : BitVec 32 := BitVec.ofNat 32 (i 1).val
  let c3_i32 : BitVec 32 := 3#32
  let v32 : BitVec 1 := Scalar.cmpi .eq arg1 c3_i32
  let v33 : BitVec 32 := Scalar.extui v32
  let c0_i32_17 : BitVec 32 := 0#32
  let v34 : BitVec 1 := Scalar.cmpi .ne v33 c0_i32_17
  v34

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (k1_off1_inb : ∀ i : grid1.Coords, ∀ a, (k1_off1 i) a + S1.size a ≤ S16.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k1_off1_inb i)) numel1_S1
  let c0_i32 : BitVec 32 := 0#32
  let c0_i32_0 : BitVec 32 := 0#32
  ![v1.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x784x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x784 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  reducesTo_S16x784_S16_d1 : S16x784.ReducesTo [1] S16
  h_S_ : 0 < S_.numel
  numel1_S1 : S1.numel = 1
  inb_S1x784x1152_S1x784x1152_0_0_0 : ∀ a, (![0, 0, 0] : Fin 3 → Nat) a + S1x784x1152.size a ≤ S1x784x1152.size a
  h_S1x784x1152 : 0 < S1x784x1152.numel
  shapeCasts_S1x784x1152_S784x1152 : S1x784x1152.ShapeCasts S784x1152
  inb_S1x784_S1x784_0_0 : ∀ a, (![0, 0] : Fin 2 → Nat) a + S1x784.size a ≤ S1x784.size a
  h_S1x784 : 0 < S1x784.numel
  shapeCasts_S1x784_S1x784 : S1x784.ShapeCasts S1x784
  reduces_S784x1152_S784 : S784x1152.Reduces [1] S784
  shapeCasts_S784_S1x784 : S784.ShapeCasts S1x784
  inb_S1x1024x1152_S1x1024x1152_0_0_0 : ∀ a, (![0, 0, 0] : Fin 3 → Nat) a + S1x1024x1152.size a ≤ S1x1024x1152.size a
  h_S1x1024x1152 : 0 < S1x1024x1152.numel
  shapeCasts_S1x1024x1152_S1024x1152 : S1x1024x1152.ShapeCasts S1024x1152
  bitsLt_bf16_f32 : FTy.bits .bf16 < FTy.bits .f32
  reduces_S1024x1152_S1024 : S1024x1152.Reduces [1] S1024
  shapeCasts_S1024_S1024x1 : S1024.ShapeCasts S1024x1
  broadcasts_S1024x1_S1024x784 : S1024x1.Broadcasts S1024x784
  broadcasts_S1x784_S1024x784 : S1x784.Broadcasts S1024x784
  reduces_S1024x784_S784 : S1024x784.Reduces [0] S784
  inb_S1x1x784_S1x1x784_0_0_0 : ∀ a, (![0, 0, 0] : Fin 3 → Nat) a + S1x1x784.size a ≤ S1x1x784.size a
  h_S1x1x784 : 0 < S1x1x784.numel
  shapeCasts_S1x1x784_S1x784 : S1x1x784.ShapeCasts S1x784
  shapeCasts_S1x784_S1x1x784 : S1x784.ShapeCasts S1x1x784
  shapeCasts_S16x1x784_S16x784 : S16x1x784.ShapeCasts S16x784
  inb_S1x784x768_S1x784x768_0_0_0 : ∀ a, (![0, 0, 0] : Fin 3 → Nat) a + S1x784x768.size a ≤ S1x784x768.size a
  h_S1x784x768 : 0 < S1x784x768.numel
  shapeCasts_S1x784x768_S784x768 : S1x784x768.ShapeCasts S784x768
  reduces_S784x768_S784 : S784x768.Reduces [1] S784
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x768_S1024 : S1024x768.Reduces [1] S1024
  bcast_S_S16 : S_.BroadcastsInDim S16 (![] : Fin 0 → Fin S16.rank)
  bcast_S16x784_S16x784x1_0_1 : S16x784.BroadcastsInDim S16x784x1 (![0, 1] : Fin 2 → Fin S16x784x1.rank)
  bcast_S16x784x1_S16x784x768_0_1_2 : S16x784x1.BroadcastsInDim S16x784x768 (![0, 1, 2] : Fin 3 → Fin S16x784x768.rank)
  reducesTo_S16x784x768_S16x768_d1 : S16x784x768.ReducesTo [1] S16x768
  bcast_S16_S16x1_0 : S16.BroadcastsInDim S16x1 (![0] : Fin 1 → Fin S16x1.rank)
  bcast_S16x1_S16x768_0_1 : S16x1.BroadcastsInDim S16x768 (![0, 1] : Fin 2 → Fin S16x768.rank)
  bcast_S16x784x1_S16x784x1152_0_1_2 : S16x784x1.BroadcastsInDim S16x784x1152 (![0, 1, 2] : Fin 3 → Fin S16x784x1152.rank)
  reducesTo_S16x784x1152_S16x1152_d1 : S16x784x1152.ReducesTo [1] S16x1152
  bcast_S16x1_S16x1152_0_1 : S16x1.BroadcastsInDim S16x1152 (![0, 1] : Fin 2 → Fin S16x1152.rank)
  bcast_S16x768_S16x1x768_0_2 : S16x768.BroadcastsInDim S16x1x768 (![0, 2] : Fin 2 → Fin S16x1x768.rank)
  reducesTo_S16x1x768_S16x1_d2 : S16x1x768.ReducesTo [2] S16x1
  bcast_S16x1_S16x1x1_0_1 : S16x1.BroadcastsInDim S16x1x1 (![0, 1] : Fin 2 → Fin S16x1x1.rank)
  reducesTo_S16x128x768_S16x128_d2 : S16x128x768.ReducesTo [2] S16x128
  bcast_S16x128_S16x1x128_0_2 : S16x128.BroadcastsInDim S16x1x128 (![0, 2] : Fin 2 → Fin S16x1x128.rank)
  bcast_S16x1x1_S16x1x128_0_1_2 : S16x1x1.BroadcastsInDim S16x1x128 (![0, 1, 2] : Fin 3 → Fin S16x1x128.rank)
  transposes_S16x128x768_S16x768x128_0_2_1 : S16x128x768.Transposes [0, 2, 1] S16x768x128
  bcast_S_S16x1x128 : S_.BroadcastsInDim S16x1x128 (![] : Fin 0 → Fin S16x1x128.rank)
  reducesTo_S16x1x128_S16x1_d2 : S16x1x128.ReducesTo [2] S16x1
  shapeCasts_S16x1_S16 : S16x1.ShapeCasts S16
  bcast_S16x1152_S16x1x1152_0_2 : S16x1152.BroadcastsInDim S16x1x1152 (![0, 2] : Fin 2 → Fin S16x1x1152.rank)
  reducesTo_S16x1x1152_S16x1_d2 : S16x1x1152.ReducesTo [2] S16x1
  reducesTo_S16x128x1152_S16x128_d2 : S16x128x1152.ReducesTo [2] S16x128
  transposes_S16x128x1152_S16x1152x128_0_2_1 : S16x128x1152.Transposes [0, 2, 1] S16x1152x128
  reducesTo_S16_S_d0 : S16.ReducesTo [0] S_
  dot_S1024x1152_S784x1152_S1024x784_1_1_0_0_n_n_wf : DotDims.WF S1024x1152 S784x1152 S1024x784 [1] [1] [0] [0] [] []
  dot_S1024x768_S784x768_S1024x784_1_1_0_0_n_n_wf : DotDims.WF S1024x768 S784x768 S1024x784 [1] [1] [0] [0] [] []
  gather_S10x128x768_S16x1_S16x128x768_12_0_n_n_0_1_1128768_wf : GatherDims.WF S10x128x768 S16x1 S16x128x768 [1, 2] [0] [] [0] [] 1 ![1, 128, 768]
  gather_S10x128x1152_S16x1_S16x128x1152_12_0_n_n_0_1_11281152_wf : GatherDims.WF S10x128x1152 S16x1 S16x128x1152 [1, 2] [0] [] [0] [] 1 ![1, 128, 1152]
  dot_S16x1x768_S16x768x128_S16x1x128_2_1_1_2_0_0_wf : DotDims.WF S16x1x768 S16x768x128 S16x1x128 [2] [1] [1] [2] [0] [0]
  dot_S16x1x1152_S16x1152x128_S16x1x128_2_1_1_2_0_0_wf : DotDims.WF S16x1x1152 S16x1152x128 S16x1x128 [2] [1] [1] [2] [0] [0]
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x784x1152.size a ≤ S16x784x1152.size a
  hwx0_0 : ∀ i : grid0.Coords, EltTy.bits .f32 = 32 ∨ (Rect.block (s := S16x784x1152) S1x784x1152.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x784.size a ≤ S16x1x784.size a
  hwx0_2 : ∀ i : grid0.Coords, EltTy.bits .f32 = 32 ∨ (Rect.block (s := S16x1x784) S1x1x784.size (cc0_transform_2 i) (hinb0_2 i)).WholeWords (EltTy.packing .f32)
  hrank1 : 0 < grid1.rank
  k1_off1_inb : ∀ i : grid1.Coords, ∀ a, (k1_off1 i) a + S1.size a ≤ S16.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x784x768.size a ≤ S16x784x768.size a
  hwx1_0 : ∀ i : grid1.Coords, EltTy.bits .f32 = 32 ∨ (Rect.block (s := S16x784x768) S1x784x768.size (cc1_transform_0 i) (hinb1_0 i)).WholeWords (EltTy.packing .f32)
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x784.size a ≤ S16x1x784.size a
  hwx1_2 : ∀ i : grid1.Coords, EltTy.bits .f32 = 32 ∨ (Rect.block (s := S16x1x784) S1x1x784.size (cc1_transform_2 i) (hinb1_2 i)).WholeWords (EltTy.packing .f32)

variable [Facts₀]

def dot_S1024x1152_S784x1152_S1024x784_1_1_0_0_n_n : DotDims S1024x1152 S784x1152 S1024x784 where
  lhsContracting := [1]
  rhsContracting := [1]
  lhsNonContracting := [0]
  rhsNonContracting := [0]
  lhsBatch := []
  rhsBatch := []
  wf := dot_S1024x1152_S784x1152_S1024x784_1_1_0_0_n_n_wf
def dot_S1024x768_S784x768_S1024x784_1_1_0_0_n_n : DotDims S1024x768 S784x768 S1024x784 where
  lhsContracting := [1]
  rhsContracting := [1]
  lhsNonContracting := [0]
  rhsNonContracting := [0]
  lhsBatch := []
  rhsBatch := []
  wf := dot_S1024x768_S784x768_S1024x784_1_1_0_0_n_n_wf
def gather_S10x128x768_S16x1_S16x128x768_12_0_n_n_0_1_1128768 : GatherDims S10x128x768 S16x1 S16x128x768 where
  offsetDims := [1, 2]
  collapsedSliceDims := [0]
  operandBatchingDims := []
  startIndicesBatchingDims := []
  startIndexMap := [0]
  indexVectorDim := 1
  sliceSizes := ![1, 128, 768]
  wf := gather_S10x128x768_S16x1_S16x128x768_12_0_n_n_0_1_1128768_wf
def gather_S10x128x1152_S16x1_S16x128x1152_12_0_n_n_0_1_11281152 : GatherDims S10x128x1152 S16x1 S16x128x1152 where
  offsetDims := [1, 2]
  collapsedSliceDims := [0]
  operandBatchingDims := []
  startIndicesBatchingDims := []
  startIndexMap := [0]
  indexVectorDim := 1
  sliceSizes := ![1, 128, 1152]
  wf := gather_S10x128x1152_S16x1_S16x128x1152_12_0_n_n_0_1_11281152_wf
def dot_S16x1x768_S16x768x128_S16x1x128_2_1_1_2_0_0 : DotDims S16x1x768 S16x768x128 S16x1x128 where
  lhsContracting := [2]
  rhsContracting := [1]
  lhsNonContracting := [1]
  rhsNonContracting := [2]
  lhsBatch := [0]
  rhsBatch := [0]
  wf := dot_S16x1x768_S16x768x128_S16x1x128_2_1_1_2_0_0_wf
def dot_S16x1x1152_S16x1152x128_S16x1x128_2_1_1_2_0_0 : DotDims S16x1x1152 S16x1152x128 S16x1x128 where
  lhsContracting := [2]
  rhsContracting := [1]
  lhsNonContracting := [1]
  rhsNonContracting := [2]
  lhsBatch := [0]
  rhsBatch := [0]
  wf := dot_S16x1x1152_S16x1152x128_S16x1x128_2_1_1_2_0_0_wf

abbrev spec0_0 : Pipeline.WinSpec sig grid0.rank :=
  Pipeline.WinSpec.ofSpec (Memref.whole main_arg0) S1x784x1152.size reads0_0 false false 2 stage0_0 sem0_0 nbuf0_0 hstage0_0

abbrev spec0_1 : Pipeline.WinSpec sig grid0.rank :=
  Pipeline.WinSpec.ofSpec (Memref.whole main_arg2) S1x1024x1152.size reads0_1 false false 2 stage0_1 sem0_1 nbuf0_1 hstage0_1

abbrev spec0_2 : Pipeline.WinSpec sig grid0.rank :=
  Pipeline.WinSpec.ofSpec (Memref.whole main_v2) S1x1x784.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1152.size a ≤ S10x4096x1152.size a), EltTy.bits .f32 = 32 ∨ (Rect.block (s := S10x4096x1152) S1x1024x1152.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev spec1_0 : Pipeline.WinSpec sig grid1.rank :=
  Pipeline.WinSpec.ofSpec (Memref.whole main_arg1) S1x784x768.size reads1_0 false false 2 stage1_0 sem1_0 nbuf1_0 hstage1_0

abbrev spec1_1 : Pipeline.WinSpec sig grid1.rank :=
  Pipeline.WinSpec.ofSpec (Memref.whole main_arg3) S1x1024x768.size reads1_1 false false 2 stage1_1 sem1_1 nbuf1_1 hstage1_1

abbrev spec1_2 : Pipeline.WinSpec sig grid1.rank :=
  Pipeline.WinSpec.ofSpec (Memref.whole main_v7) S1x1x784.size reads1_2 true false 2 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_1 k1_off1_inb numel1_S1 pf i a + 1) * S1x1024x768.size a ≤ S10x4096x768.size a), EltTy.bits .f32 = 32 ∨ (Rect.block (s := S10x4096x768) S1x1024x768.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => hinb1_0 | 1 => fun i a => (hok i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => hwx1_0 | 1 => fun i => (hok i).elim fun _ h => h | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S16x784x1152 : Shape := ⟨3, ![16, 784, 1152]⟩
abbrev S16x784x768 : Shape := ⟨3, ![16, 784, 768]⟩
abbrev S10x4096x1152 : Shape := ⟨3, ![10, 4096, 1152]⟩
abbrev S10x4096x768 : Shape := ⟨3, ![10, 4096, 768]⟩
abbrev S10x128x1152 : Shape := ⟨3, ![10, 128, 1152]⟩
abbrev S10x128x768 : Shape := ⟨3, ![10, 128, 768]⟩
abbrev S16 : Shape := ⟨1, ![16]⟩
abbrev S16x784 : Shape := ⟨2, ![16, 784]⟩
abbrev S_ : Shape := ⟨0, ![]⟩
abbrev S16x1 : Shape := ⟨2, ![16, 1]⟩
abbrev S16x4096x1152 : Shape := ⟨3, ![16, 4096, 1152]⟩
abbrev S16x4096x768 : Shape := ⟨3, ![16, 4096, 768]⟩
abbrev S16x128x1152 : Shape := ⟨3, ![16, 128, 1152]⟩
abbrev S16x128x768 : Shape := ⟨3, ![16, 128, 768]⟩
abbrev S16x784x1 : Shape := ⟨3, ![16, 784, 1]⟩
abbrev S16x4096 : Shape := ⟨2, ![16, 4096]⟩
abbrev S16x1x4096 : Shape := ⟨3, ![16, 1, 4096]⟩
abbrev S16x784x4096 : Shape := ⟨3, ![16, 784, 4096]⟩
abbrev S16x1152x4096 : Shape := ⟨3, ![16, 1152, 4096]⟩
abbrev S16x768x4096 : Shape := ⟨3, ![16, 768, 4096]⟩
abbrev S16x768 : Shape := ⟨2, ![16, 768]⟩
abbrev S16x1152 : Shape := ⟨2, ![16, 1152]⟩
abbrev S16x1x768 : Shape := ⟨3, ![16, 1, 768]⟩
abbrev S16x1x1 : Shape := ⟨3, ![16, 1, 1]⟩
abbrev S16x128 : Shape := ⟨2, ![16, 128]⟩
abbrev S16x1x128 : Shape := ⟨3, ![16, 1, 128]⟩
abbrev S16x768x128 : Shape := ⟨3, ![16, 768, 128]⟩
abbrev S16x1x1152 : Shape := ⟨3, ![16, 1, 1152]⟩
abbrev S16x1152x128 : Shape := ⟨3, ![16, 1152, 128]⟩

abbrev nBuf : Space → Nat
  | .hbm => 198
  | .vmem => 0
  | .smem => 0
  | _ => 0

abbrev hbmTy0_0 (i : Nat) : BufTy := match i % 128 with
  | 0 => ⟨S16x784x1152, .f32⟩
  | 1 => ⟨S16x784x768, .f32⟩
  | 2 => ⟨S10x4096x1152, .f32⟩
  | 3 => ⟨S10x4096x768, .f32⟩
  | 4 => ⟨S10x128x1152, .f32⟩
  | 5 => ⟨S10x128x768, .f32⟩
  | 6 => ⟨S16, .i32⟩
  | 7 => ⟨S16x784, .i32⟩
  | 8 => ⟨S16x784, .f32⟩
  | 9 => ⟨S_, .f32⟩
  | 10 => ⟨S16, .f32⟩
  | 11 => ⟨S_, .i32⟩
  | 12 => ⟨S16, .i32⟩
  | 13 => ⟨S16, .i1⟩
  | 14 => ⟨S_, .i32⟩
  | 15 => ⟨S16, .i32⟩
  | 16 => ⟨S16, .i32⟩
  | 17 => ⟨S16, .i32⟩
  | 18 => ⟨S16x1, .i32⟩
  | 19 => ⟨S16x4096x1152, .f32⟩
  | 20 => ⟨S_, .i32⟩
  | 21 => ⟨S16, .i32⟩
  | 22 => ⟨S16, .i1⟩
  | 23 => ⟨S_, .i32⟩
  | 24 => ⟨S16, .i32⟩
  | 25 => ⟨S16, .i32⟩
  | 26 => ⟨S16, .i32⟩
  | 27 => ⟨S16x1, .i32⟩
  | 28 => ⟨S16x4096x768, .f32⟩
  | 29 => ⟨S_, .i32⟩
  | 30 => ⟨S16, .i32⟩
  | 31 => ⟨S16, .i1⟩
  | 32 => ⟨S_, .i32⟩
  | 33 => ⟨S16, .i32⟩
  | 34 => ⟨S16, .i32⟩
  | 35 => ⟨S16, .i32⟩
  | 36 => ⟨S16x1, .i32⟩
  | 37 => ⟨S16x128x1152, .f32⟩
  | 38 => ⟨S_, .i32⟩
  | 39 => ⟨S16, .i32⟩
  | 40 => ⟨S16, .i1⟩
  | 41 => ⟨S_, .i32⟩
  | 42 => ⟨S16, .i32⟩
  | 43 => ⟨S16, .i32⟩
  | 44 => ⟨S16, .i32⟩
  | 45 => ⟨S16x1, .i32⟩
  | 46 => ⟨S16x128x768, .f32⟩
  | 47 => ⟨S16x784x1152, .f32⟩
  | 48 => ⟨S_, .f32⟩
  | 49 => ⟨S16x784, .f32⟩
  | 50 => ⟨S16x784x1, .f32⟩
  | 51 => ⟨S16x4096x1152, .f32⟩
  | 52 => ⟨S_, .f32⟩
  | 53 => ⟨S16x4096, .f32⟩
  | 54 => ⟨S16x1x4096, .f32⟩
  | 55 => ⟨S16x784x4096, .f32⟩
  | 56 => ⟨S16x784x4096, .f32⟩
  | 57 => ⟨S16x784x4096, .f32⟩
  | 58 => ⟨S16x1152x4096, .f32⟩
  | 59 => ⟨S16x784x4096, .f32⟩
  | 60 => ⟨S_, .f32⟩
  | 61 => ⟨S16x784x4096, .f32⟩
  | 62 => ⟨S16x784x4096, .f32⟩
  | 63 => ⟨S16x784x4096, .f32⟩
  | 64 => ⟨S_, .f32⟩
  | 65 => ⟨S_, .f32⟩
  | 66 => ⟨S_, .f32⟩
  | 67 => ⟨S16x784x4096, .f32⟩
  | 68 => ⟨S16x784x4096, .f32⟩
  | 69 => ⟨S_, .f32⟩
  | 70 => ⟨S16x784x4096, .f32⟩
  | 71 => ⟨S16x784x4096, .f32⟩
  | 72 => ⟨S16x784x4096, .f32⟩
  | 73 => ⟨S_, .f32⟩
  | 74 => ⟨S16x784, .f32⟩
  | 75 => ⟨S16x784, .f32⟩
  | 76 => ⟨S_, .f32⟩
  | 77 => ⟨S16, .f32⟩
  | 78 => ⟨S16, .f32⟩
  | 79 => ⟨S16x784x768, .f32⟩
  | 80 => ⟨S_, .f32⟩
  | 81 => ⟨S16x784, .f32⟩
  | 82 => ⟨S16x784x1, .f32⟩
  | 83 => ⟨S16x4096x768, .f32⟩
  | 84 => ⟨S_, .f32⟩
  | 85 => ⟨S16x4096, .f32⟩
  | 86 => ⟨S16x1x4096, .f32⟩
  | 87 => ⟨S16x784x4096, .f32⟩
  | 88 => ⟨S16x784x4096, .f32⟩
  | 89 => ⟨S16x784x4096, .f32⟩
  | 90 => ⟨S16x768x4096, .f32⟩
  | 91 => ⟨S16x784x4096, .f32⟩
  | 92 => ⟨S_, .f32⟩
  | 93 => ⟨S16x784x4096, .f32⟩
  | 94 => ⟨S16x784x4096, .f32⟩
  | 95 => ⟨S16x784x4096, .f32⟩
  | 96 => ⟨S_, .f32⟩
  | 97 => ⟨S_, .f32⟩
  | 98 => ⟨S_, .f32⟩
  | 99 => ⟨S16x784x4096, .f32⟩
  | 100 => ⟨S16x784x4096, .f32⟩
  | 101 => ⟨S_, .f32⟩
  | 102 => ⟨S16x784x4096, .f32⟩
  | 103 => ⟨S16x784x4096, .f32⟩
  | 104 => ⟨S16x784x4096, .f32⟩
  | 105 => ⟨S_, .f32⟩
  | 106 => ⟨S16x784, .f32⟩
  | 107 => ⟨S_, .f32⟩
  | 108 => ⟨S16, .f32⟩
  | 109 => ⟨S_, .f32⟩
  | 110 => ⟨S16, .f32⟩
  | 111 => ⟨S16, .f32⟩
  | 112 => ⟨S16x784x1, .f32⟩
  | 113 => ⟨S16x784x768, .f32⟩
  | 114 => ⟨S16x784x768, .f32⟩
  | 115 => ⟨S_, .f32⟩
  | 116 => ⟨S16x768, .f32⟩
  | 117 => ⟨S16x1, .f32⟩
  | 118 => ⟨S16x768, .f32⟩
  | 119 => ⟨S16x768, .f32⟩
  | 120 => ⟨S16x784x1, .f32⟩
  | 121 => ⟨S16x784x1152, .f32⟩
  | 122 => ⟨S16x784x1152, .f32⟩
  | 123 => ⟨S_, .f32⟩
  | 124 => ⟨S16x1152, .f32⟩
  | 125 => ⟨S16x1, .f32⟩
  | 126 => ⟨S16x1152, .f32⟩
  | 127 => ⟨S16x1152, .f32⟩
  | _ => ⟨S16x784x1152, .f32⟩

abbrev hbmTy0_1 (i : Nat) : BufTy := match i % 128 with
  | 0 => ⟨S16x1x768, .f32⟩
  | 1 => ⟨S16x1x768, .f32⟩
  | 2 => ⟨S_, .f32⟩
  | 3 => ⟨S16x1, .f32⟩
  | 4 => ⟨S16x1x1, .f32⟩
  | 5 => ⟨S16x128x768, .f32⟩
  | 6 => ⟨S_, .f32⟩
  | 7 => ⟨S16x128, .f32⟩
  | 8 => ⟨S16x1x128, .f32⟩
  | 9 => ⟨S16x1x128, .f32⟩
  | 10 => ⟨S16x1x128, .f32⟩
  | 11 => ⟨S16x768x128, .f32⟩
  | 12 => ⟨S16x1x128, .f32⟩
  | 13 => ⟨S_, .f32⟩
  | 14 => ⟨S16x1x128, .f32⟩
  | 15 => ⟨S16x1x128, .f32⟩
  | 16 => ⟨S16x1x128, .f32⟩
  | 17 => ⟨S_, .f32⟩
  | 18 => ⟨S_, .f32⟩
  | 19 => ⟨S_, .f32⟩
  | 20 => ⟨S16x1x128, .f32⟩
  | 21 => ⟨S16x1x128, .f32⟩
  | 22 => ⟨S_, .f32⟩
  | 23 => ⟨S16x1x128, .f32⟩
  | 24 => ⟨S16x1x128, .f32⟩
  | 25 => ⟨S16x1x128, .f32⟩
  | 26 => ⟨S_, .f32⟩
  | 27 => ⟨S16x1, .f32⟩
  | 28 => ⟨S16, .f32⟩
  | 29 => ⟨S16x1x1152, .f32⟩
  | 30 => ⟨S16x1x1152, .f32⟩
  | 31 => ⟨S_, .f32⟩
  | 32 => ⟨S16x1, .f32⟩
  | 33 => ⟨S16x1x1, .f32⟩
  | 34 => ⟨S16x128x1152, .f32⟩
  | 35 => ⟨S_, .f32⟩
  | 36 => ⟨S16x128, .f32⟩
  | 37 => ⟨S16x1x128, .f32⟩
  | 38 => ⟨S16x1x128, .f32⟩
  | 39 => ⟨S16x1x128, .f32⟩
  | 40 => ⟨S16x1152x128, .f32⟩
  | 41 => ⟨S16x1x128, .f32⟩
  | 42 => ⟨S_, .f32⟩
  | 43 => ⟨S16x1x128, .f32⟩
  | 44 => ⟨S16x1x128, .f32⟩
  | 45 => ⟨S16x1x128, .f32⟩
  | 46 => ⟨S_, .f32⟩
  | 47 => ⟨S_, .f32⟩
  | 48 => ⟨S_, .f32⟩
  | 49 => ⟨S16x1x128, .f32⟩
  | 50 => ⟨S16x1x128, .f32⟩
  | 51 => ⟨S_, .f32⟩
  | 52 => ⟨S16x1x128, .f32⟩
  | 53 => ⟨S16x1x128, .f32⟩
  | 54 => ⟨S16x1x128, .f32⟩
  | 55 => ⟨S_, .f32⟩
  | 56 => ⟨S16x1, .f32⟩
  | 57 => ⟨S16, .f32⟩
  | 58 => ⟨S16, .f32⟩
  | 59 => ⟨S16, .f32⟩
  | 60 => ⟨S_, .f32⟩
  | 61 => ⟨S16, .f32⟩
  | 62 => ⟨S16, .f32⟩
  | 63 => ⟨S16, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | _ => ⟨S16x784x1152, .f32⟩

abbrev hbmTy (i : Nat) : BufTy := match i / 128 with
  | 0 => hbmTy0_0 i
  | 1 => hbmTy0_1 i
  | _ => ⟨S16x784x1152, .f32⟩

abbrev bufTy : (tb : Table) → Fin (tcTables nBuf tb) → BufTy
  | .hbm, ⟨i, _⟩ => hbmTy i
  | _, _ => ⟨S16x784x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_cst_11 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_15 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_17 : Ref sig .tc := ⟨.hbm, 96, rfl⟩
abbrev main_cst_18 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_cst_20 : Ref sig .tc := ⟨.hbm, 107, rfl⟩
abbrev main_v67 : Ref sig .tc := ⟨.hbm, 108, rfl⟩
abbrev main_cst_21 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_22 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_23 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_24 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_25 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_26 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_27 : Ref sig .tc := ⟨.hbm, 145, rfl⟩
abbrev main_cst_28 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_v98 : Ref sig .tc := ⟨.hbm, 152, rfl⟩
abbrev main_v99 : Ref sig .tc := ⟨.hbm, 153, rfl⟩
abbrev main_cst_29 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_cst_30 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_31 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_32 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_33 : Ref sig .tc := ⟨.hbm, 174, rfl⟩
abbrev main_cst_34 : Ref sig .tc := ⟨.hbm, 175, rfl⟩
abbrev main_call3_v0 : Ref sig .tc := ⟨.hbm, 176, rfl⟩
abbrev main_call3_v1 : Ref sig .tc := ⟨.hbm, 177, rfl⟩
abbrev main_call3_v2 : Ref sig .tc := ⟨.hbm, 178, rfl⟩
abbrev main_call3_v3 : Ref sig .tc := ⟨.hbm, 179, rfl⟩
abbrev main_call3_v4 : Ref sig .tc := ⟨.hbm, 180, rfl⟩
abbrev main_v116 : Ref sig .tc := ⟨.hbm, 181, rfl⟩
abbrev main_v117 : Ref sig .tc := ⟨.hbm, 182, rfl⟩
abbrev main_cst_35 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_cst_36 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_cst_37 : Ref sig .tc := ⟨.hbm, 192, rfl⟩
abbrev main_v125 : Ref sig .tc := ⟨.hbm, 193, rfl⟩
abbrev main_cst_38 : Ref sig .tc := ⟨.hbm, 194, rfl⟩
abbrev main_v126 : Ref sig .tc := ⟨.hbm, 195, rfl⟩
abbrev main_cst_39 : Ref sig .tc := ⟨.hbm, 196, rfl⟩
abbrev main_v127 : Ref sig .tc := ⟨.hbm, 197, rfl⟩

abbrev nD : Nat := 1
abbrev τ : Topo := Topo.v7x

variable {F : FTy → Type} [FloatOps F]

class Facts₀ : Prop where
  reducesTo_S16x784_S16_d1 : S16x784.ReducesTo [1] S16
  h_S_ : 0 < S_.numel
  bcast_S_S16 : S_.BroadcastsInDim S16 (![] : Fin 0 → Fin S16.rank)
  bcast_S16_S16x1_0 : S16.BroadcastsInDim S16x1 (![0] : Fin 1 → Fin S16x1.rank)
  reducesTo_S16x784x1152_S16x784_d2 : S16x784x1152.ReducesTo [2] S16x784
  bcast_S16x784_S16x784x1_0_1 : S16x784.BroadcastsInDim S16x784x1 (![0, 1] : Fin 2 → Fin S16x784x1.rank)
  reducesTo_S16x4096x1152_S16x4096_d2 : S16x4096x1152.ReducesTo [2] S16x4096
  bcast_S16x4096_S16x1x4096_0_2 : S16x4096.BroadcastsInDim S16x1x4096 (![0, 2] : Fin 2 → Fin S16x1x4096.rank)
  bcast_S16x784x1_S16x784x4096_0_1_2 : S16x784x1.BroadcastsInDim S16x784x4096 (![0, 1, 2] : Fin 3 → Fin S16x784x4096.rank)
  bcast_S16x1x4096_S16x784x4096_0_1_2 : S16x1x4096.BroadcastsInDim S16x784x4096 (![0, 1, 2] : Fin 3 → Fin S16x784x4096.rank)
  transposes_S16x4096x1152_S16x1152x4096_0_2_1 : S16x4096x1152.Transposes [0, 2, 1] S16x1152x4096
  bcast_S_S16x784x4096 : S_.BroadcastsInDim S16x784x4096 (![] : Fin 0 → Fin S16x784x4096.rank)
  reducesTo_S16x784x4096_S16x784_d2 : S16x784x4096.ReducesTo [2] S16x784
  reducesTo_S16x784x768_S16x784_d2 : S16x784x768.ReducesTo [2] S16x784
  reducesTo_S16x4096x768_S16x4096_d2 : S16x4096x768.ReducesTo [2] S16x4096
  transposes_S16x4096x768_S16x768x4096_0_2_1 : S16x4096x768.Transposes [0, 2, 1] S16x768x4096
  bcast_S16x784x1_S16x784x768_0_1_2 : S16x784x1.BroadcastsInDim S16x784x768 (![0, 1, 2] : Fin 3 → Fin S16x784x768.rank)
  reducesTo_S16x784x768_S16x768_d1 : S16x784x768.ReducesTo [1] S16x768
  bcast_S16x1_S16x768_0_1 : S16x1.BroadcastsInDim S16x768 (![0, 1] : Fin 2 → Fin S16x768.rank)
  bcast_S16x784x1_S16x784x1152_0_1_2 : S16x784x1.BroadcastsInDim S16x784x1152 (![0, 1, 2] : Fin 3 → Fin S16x784x1152.rank)
  reducesTo_S16x784x1152_S16x1152_d1 : S16x784x1152.ReducesTo [1] S16x1152
  bcast_S16x1_S16x1152_0_1 : S16x1.BroadcastsInDim S16x1152 (![0, 1] : Fin 2 → Fin S16x1152.rank)
  bcast_S16x768_S16x1x768_0_2 : S16x768.BroadcastsInDim S16x1x768 (![0, 2] : Fin 2 → Fin S16x1x768.rank)
  reducesTo_S16x1x768_S16x1_d2 : S16x1x768.ReducesTo [2] S16x1
  bcast_S16x1_S16x1x1_0_1 : S16x1.BroadcastsInDim S16x1x1 (![0, 1] : Fin 2 → Fin S16x1x1.rank)
  reducesTo_S16x128x768_S16x128_d2 : S16x128x768.ReducesTo [2] S16x128
  bcast_S16x128_S16x1x128_0_2 : S16x128.BroadcastsInDim S16x1x128 (![0, 2] : Fin 2 → Fin S16x1x128.rank)
  bcast_S16x1x1_S16x1x128_0_1_2 : S16x1x1.BroadcastsInDim S16x1x128 (![0, 1, 2] : Fin 3 → Fin S16x1x128.rank)
  transposes_S16x128x768_S16x768x128_0_2_1 : S16x128x768.Transposes [0, 2, 1] S16x768x128
  bcast_S_S16x1x128 : S_.BroadcastsInDim S16x1x128 (![] : Fin 0 → Fin S16x1x128.rank)
  reducesTo_S16x1x128_S16x1_d2 : S16x1x128.ReducesTo [2] S16x1
  shapeCasts_S16x1_S16 : S16x1.ShapeCasts S16
  bcast_S16x1152_S16x1x1152_0_2 : S16x1152.BroadcastsInDim S16x1x1152 (![0, 2] : Fin 2 → Fin S16x1x1152.rank)
  reducesTo_S16x1x1152_S16x1_d2 : S16x1x1152.ReducesTo [2] S16x1
  reducesTo_S16x128x1152_S16x128_d2 : S16x128x1152.ReducesTo [2] S16x128
  transposes_S16x128x1152_S16x1152x128_0_2_1 : S16x128x1152.Transposes [0, 2, 1] S16x1152x128
  reducesTo_S16_S_d0 : S16.ReducesTo [0] S_
  gather_S10x4096x1152_S16x1_S16x4096x1152_12_0_n_n_0_1_140961152_wf : GatherDims.WF S10x4096x1152 S16x1 S16x4096x1152 [1, 2] [0] [] [0] [] 1 ![1, 4096, 1152]
  gather_S10x4096x768_S16x1_S16x4096x768_12_0_n_n_0_1_14096768_wf : GatherDims.WF S10x4096x768 S16x1 S16x4096x768 [1, 2] [0] [] [0] [] 1 ![1, 4096, 768]
  gather_S10x128x1152_S16x1_S16x128x1152_12_0_n_n_0_1_11281152_wf : GatherDims.WF S10x128x1152 S16x1 S16x128x1152 [1, 2] [0] [] [0] [] 1 ![1, 128, 1152]
  gather_S10x128x768_S16x1_S16x128x768_12_0_n_n_0_1_1128768_wf : GatherDims.WF S10x128x768 S16x1 S16x128x768 [1, 2] [0] [] [0] [] 1 ![1, 128, 768]
  dot_S16x784x1152_S16x1152x4096_S16x784x4096_2_1_1_2_0_0_wf : DotDims.WF S16x784x1152 S16x1152x4096 S16x784x4096 [2] [1] [1] [2] [0] [0]
  dot_S16x784x768_S16x768x4096_S16x784x4096_2_1_1_2_0_0_wf : DotDims.WF S16x784x768 S16x768x4096 S16x784x4096 [2] [1] [1] [2] [0] [0]
  dot_S16x1x768_S16x768x128_S16x1x128_2_1_1_2_0_0_wf : DotDims.WF S16x1x768 S16x768x128 S16x1x128 [2] [1] [1] [2] [0] [0]
  dot_S16x1x1152_S16x1152x128_S16x1x128_2_1_1_2_0_0_wf : DotDims.WF S16x1x1152 S16x1152x128 S16x1x128 [2] [1] [1] [2] [0] [0]

variable [Facts₀]

def gather_S10x4096x1152_S16x1_S16x4096x1152_12_0_n_n_0_1_140961152 : GatherDims S10x4096x1152 S16x1 S16x4096x1152 where
  offsetDims := [1, 2]
  collapsedSliceDims := [0]
  operandBatchingDims := []
  startIndicesBatchingDims := []
  startIndexMap := [0]
  indexVectorDim := 1
  sliceSizes := ![1, 4096, 1152]
  wf := gather_S10x4096x1152_S16x1_S16x4096x1152_12_0_n_n_0_1_140961152_wf
def gather_S10x4096x768_S16x1_S16x4096x768_12_0_n_n_0_1_14096768 : GatherDims S10x4096x768 S16x1 S16x4096x768 where
  offsetDims := [1, 2]
  collapsedSliceDims := [0]
  operandBatchingDims := []
  startIndicesBatchingDims := []
  startIndexMap := [0]
  indexVectorDim := 1
  sliceSizes := ![1, 4096, 768]
  wf := gather_S10x4096x768_S16x1_S16x4096x768_12_0_n_n_0_1_14096768_wf
def gather_S10x128x1152_S16x1_S16x128x1152_12_0_n_n_0_1_11281152 : GatherDims S10x128x1152 S16x1 S16x128x1152 where
  offsetDims := [1, 2]
  collapsedSliceDims := [0]
  operandBatchingDims := []
  startIndicesBatchingDims := []
  startIndexMap := [0]
  indexVectorDim := 1
  sliceSizes := ![1, 128, 1152]
  wf := gather_S10x128x1152_S16x1_S16x128x1152_12_0_n_n_0_1_11281152_wf
def gather_S10x128x768_S16x1_S16x128x768_12_0_n_n_0_1_1128768 : GatherDims S10x128x768 S16x1 S16x128x768 where
  offsetDims := [1, 2]
  collapsedSliceDims := [0]
  operandBatchingDims := []
  startIndicesBatchingDims := []
  startIndexMap := [0]
  indexVectorDim := 1
  sliceSizes := ![1, 128, 768]
  wf := gather_S10x128x768_S16x1_S16x128x768_12_0_n_n_0_1_1128768_wf
def dot_S16x784x1152_S16x1152x4096_S16x784x4096_2_1_1_2_0_0 : DotDims S16x784x1152 S16x1152x4096 S16x784x4096 where
  lhsContracting := [2]
  rhsContracting := [1]
  lhsNonContracting := [1]
  rhsNonContracting := [2]
  lhsBatch := [0]
  rhsBatch := [0]
  wf := dot_S16x784x1152_S16x1152x4096_S16x784x4096_2_1_1_2_0_0_wf
def dot_S16x784x768_S16x768x4096_S16x784x4096_2_1_1_2_0_0 : DotDims S16x784x768 S16x768x4096 S16x784x4096 where
  lhsContracting := [2]
  rhsContracting := [1]
  lhsNonContracting := [1]
  rhsNonContracting := [2]
  lhsBatch := [0]
  rhsBatch := [0]
  wf := dot_S16x784x768_S16x768x4096_S16x784x4096_2_1_1_2_0_0_wf
def dot_S16x1x768_S16x768x128_S16x1x128_2_1_1_2_0_0 : DotDims S16x1x768 S16x768x128 S16x1x128 where
  lhsContracting := [2]
  rhsContracting := [1]
  lhsNonContracting := [1]
  rhsNonContracting := [2]
  lhsBatch := [0]
  rhsBatch := [0]
  wf := dot_S16x1x768_S16x768x128_S16x1x128_2_1_1_2_0_0_wf
def dot_S16x1x1152_S16x1152x128_S16x1x128_2_1_1_2_0_0 : DotDims S16x1x1152 S16x1152x128 S16x1x128 where
  lhsContracting := [2]
  rhsContracting := [1]
  lhsNonContracting := [1]
  rhsNonContracting := [2]
  lhsBatch := [0]
  rhsBatch := [0]
  wf := dot_S16x1x1152_S16x1152x128_S16x1x128_2_1_1_2_0_0_wf

class Facts : Prop extends Facts₀ where

variable [Facts]
-- ==== Proof.Tbl.lean ====
/-
  The label table. Both regions' second window reads, at grid point (b, j), block (label b, j, 0) of its bank
  [10, 4096, D], label b being entry b of the prefetched table of 16 words. The pipeline's side condition asks that
  this block lie inside the bank at every point: label b < 10 unsigned. The precondition's last conjunct says
  0 ≤ label < 10 signed at every entry; a word in [0, 10) signed is below 10 unsigned. The table is read on
  device 0, the program's one device.
-/
import proofs.«428568_j19971597926436_3_alg».proof.Proof.Gen.KernelIdeal.Launch
import proofs.«428568_j19971597926436_3_alg».proof.Pre_finite_inputs
import proofs.«428568_j19971597926436_3_alg».proof.Proof.Gen.Pre_finite_inputs
import Idealize.ShloMosaic.Lib.StableHlo.Predicate
import Idealize.ShloMosaic.Lib.ReduceAll

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

section Table

variable (m : (ℓ : Loc nD τ sig) → Buf (Elt F) ℓ)

/-- Every label is a class index. -/
def InRange : Prop := ∀ x : S16.Idx, (m (((0 : Dev nD) : Thread nD τ).loc main_arg6) x).toNat < 10

/-- The table's contents as region 0 reads them at entry. -/
def tbl0 : pre0.Contents (Elt F) := fun k => m (((0 : Dev nD) : Thread nD τ).loc (pre0.ref k))
/-- The table's contents as region 1 reads them at entry. -/
def tbl1 : pre1.Contents (Elt F) := fun k => m (((0 : Dev nD) : Thread nD τ).loc (pre1.ref k))

end Table

/-- The entry the index map reads at grid point i: entry (i 0) of the table. -/
def lab (i : grid0.Coords) : S16.Idx := fun a => match a with | ⟨0, _⟩ => ⟨(i 0).val, (i 0).isLt⟩
/-- The same over region 1's grid. -/
def lab1 (i : grid1.Coords) : S16.Idx := fun a => match a with | ⟨0, _⟩ => ⟨(i 0).val, (i 0).isLt⟩

/-- A grid coordinate as a 32-bit word reads back as itself: the bounds are far below 2³². -/
theorem toNat_ofNat_coord (n b : Nat) (hn : n < b) (hb : b ≤ 4096) : (BitVec.ofNat 32 n).toNat = n := by
  rw [BitVec.toNat_ofNat]; exact Nat.mod_eq_of_lt (by omega)

/-- Two triples with equal entries are equal. -/
theorem vec3_congr {a b c a' b' c' : Nat} (ha : a = a') (hb : b = b') (hc : c = c') :
    (![a, b, c] : Fin 3 → Nat) = ![a', b', c'] := by subst ha hb hc; rfl

/-- Window 1's block index at point i, in closed form: (label (i 0), i 1, 0). -/
theorem transform1_0 (pf : pre0.Contents (Elt F)) (i : grid0.Coords) :
    cc0_transform_1 k0_off1_inb numel1_S1 pf i = ![(pf 0 (lab i)).toNat, (i 1).val, 0] := by
  have h0 : (BitVec.ofNat 32 (i 0).val).toNat = (i 0).val := toNat_ofNat_coord _ 16 (i 0).isLt (by decide)
  have h1 : (BitVec.ofNat 32 (i 1).val).toNat = (i 1).val := toNat_ofNat_coord _ 4 (i 1).isLt (by decide)
  have hw : pf.at 0 (Rect.unit (s := S16) ![(Scalar.indexCast (BitVec.ofNat 32 (i 0).val)).toNat] S1.size (k0_off1_inb i)) numel1_S1
      = pf 0 (lab i) := by
    refine congrArg (pf 0) (funext fun a => Fin.ext ?_)
    match a with
    | ⟨0, _⟩ =>
      show (BitVec.ofNat 32 (i 0).val).toNat + 1 * 0 = (i 0).val
      rw [Nat.mul_zero, Nat.add_zero]; exact h0
  exact vec3_congr (congrArg BitVec.toNat hw) h1 rfl

theorem transform1_1 (pf : pre1.Contents (Elt F)) (i : grid1.Coords) :
    cc1_transform_1 k1_off1_inb numel1_S1 pf i = ![(pf 0 (lab1 i)).toNat, (i 1).val, 0] := by
  have h0 : (BitVec.ofNat 32 (i 0).val).toNat = (i 0).val := toNat_ofNat_coord _ 16 (i 0).isLt (by decide)
  have h1 : (BitVec.ofNat 32 (i 1).val).toNat = (i 1).val := toNat_ofNat_coord _ 4 (i 1).isLt (by decide)
  have hw : pf.at 0 (Rect.unit (s := S16) ![(Scalar.indexCast (BitVec.ofNat 32 (i 0).val)).toNat] S1.size (k1_off1_inb i)) numel1_S1
      = pf 0 (lab1 i) := by
    refine congrArg (pf 0) (funext fun a => Fin.ext ?_)
    match a with
    | ⟨0, _⟩ =>
      show (BitVec.ofNat 32 (i 0).val).toNat + 1 * 0 = (i 0).val
      rw [Nat.mul_zero, Nat.add_zero]; exact h0
  exact vec3_congr (congrArg BitVec.toNat hw) h1 rfl

/-- Region 0's side condition: with every label below 10, block (label, j, 0) of [1, 1024, 1152] lies in [10, 4096, 1152]. -/
theorem ok0_of (pf : pre0.Contents (Elt F)) (h : ∀ x, (pf 0 x).toNat < 10) : ok0 pf := by
  intro i
  have hl := h (lab i)
  have hj : (i 1).val < 4 := (i 1).isLt
  refine ⟨fun a => ?_, Or.inl rfl⟩
  rw [transform1_0]
  fin_cases a <;> simp [S1x1024x1152, S10x4096x1152] <;> omega

/-- Region 1's side condition: the same over [10, 4096, 768]. -/
theorem ok1_of (pf : pre1.Contents (Elt F)) (h : ∀ x, (pf 0 x).toNat < 10) : ok1 pf := by
  intro i
  have hl := h (lab1 i)
  have hj : (i 1).val < 4 := (i 1).isLt
  refine ⟨fun a => ?_, Or.inl rfl⟩
  rw [transform1_1]
  fin_cases a <;> simp [S1x1024x768, S10x4096x768] <;> omega

section Adm

variable (m : (ℓ : Loc nD τ sig) → Buf (Elt F) ℓ)

/-- The table's contents as admissible contents of each region's pipeline. -/
def adm (h : InRange m) : (p : Fin 2) → (pcfgs (F := F) p).Adm
  | ⟨0, _⟩ => ⟨tbl0 m, ok0_of _ h⟩
  | ⟨1, _⟩ => ⟨tbl1 m, ok1_of _ h⟩

theorem adm_val0 (h : InRange m) : (adm m h 0).1 = tbl0 m := rfl
theorem adm_val1 (h : InRange m) : (adm m h 1).1 = tbl1 m := rfl

end Adm

/-- A word in [0, n) signed is below n unsigned: non-negative signed, its sign bit is clear, and below 2³¹ the signed
    and the unsigned orders agree. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have hm : w.msb = false := by
    cases hb : w.msb with
    | false => rfl
    | true =>
      exfalso
      have hs : (0#32).sle w = true := (StableHlo.Predicate.ofBool_eq_one_iff _).1 h0
      simp only [BitVec.sle, decide_eq_true_eq] at hs
      rw [BitVec.toInt_eq_msb_cond w, hb] at hs
      have := w.isLt
      simp at hs
      omega
  have hw : w.toNat < 2 ^ 31 := by have := BitVec.msb_eq_false_iff_two_mul_lt.mp hm; omega
  have hn' : (BitVec.ofNat 32 n).toNat = n := by rw [BitVec.toNat_ofNat]; exact Nat.mod_eq_of_lt (by omega)
  have := (StableHlo.Predicate.slt_iff_toNat hw (by omega)).1 h1
  omega

/-- The precondition gives the range: where the printed predicate is all ones, every entry of its label argument is
    below 10 unsigned. -/
theorem inRange_of_fn (x0 : FVec F Cert.Pre_finite_inputs.S16x784x1152 .f32) (x1 : FVec F Cert.Pre_finite_inputs.S16x784x768 .f32)
    (x2 : FVec F Cert.Pre_finite_inputs.S10x4096x1152 .f32) (x3 : FVec F Cert.Pre_finite_inputs.S10x4096x768 .f32)
    (x4 : FVec F Cert.Pre_finite_inputs.S10x128x1152 .f32) (x5 : FVec F Cert.Pre_finite_inputs.S10x128x768 .f32)
    (cl : IVec Cert.Pre_finite_inputs.S16 32) (vm : IVec Cert.Pre_finite_inputs.S16x784 32)
    (h : Cert.Pre_finite_inputs.fn (F := F) x0 x1 x2 x3 x4 x5 cl vm = fun _ => 1#1) :
    ∀ x : Cert.Pre_finite_inputs.S16.Idx, (cl x).toNat < 10 := by
  intro x
  -- the predicate's one result element
  have e := congrFun h (fun a => a.elim0 : Cert.Pre_finite_inputs.S_.Idx)
  dsimp only [Cert.Pre_finite_inputs.fn, Cert.Pre_finite_inputs.fn_part1, Cert.Pre_finite_inputs.fn_part2] at e
  -- its last conjunct is the reduction by and of the labels' mask
  obtain ⟨-, e2⟩ := IntOp.andi_eq_one.1 e
  haveI : Subsingleton Cert.Pre_finite_inputs.S_.Idx := ⟨fun a b => funext fun d => d.elim0⟩
  have e3 := Host.reduce_andi_all _ _ _ _ _ e2 x
  -- the mask at x: 0 ≤ label x and label x < 10, signed
  obtain ⟨hge, hlt⟩ := IntOp.andi_eq_one.1 e3
  exact toNat_lt_of_signed (cl x) 10 (by decide) hge hlt

end Cert.KernelIdeal.Hand

end
-- ==== Proof.TblK.lean ====
/-
  The label table. Both regions' second window reads, at grid point (b, j), block (label b, j, 0) of its bank
  [10, 4096, D], label b being entry b of the prefetched table of 16 words. The pipeline's side condition asks that
  this block lie inside the bank at every point: label b < 10 unsigned. The precondition's last conjunct says
  0 ≤ label < 10 signed at every entry; a word in [0, 10) signed is below 10 unsigned. The table is read on
  device 0, the program's one device.
-/
import proofs.«428568_j19971597926436_3_alg».proof.Proof.Gen.Kernel.Launch
import proofs.«428568_j19971597926436_3_alg».proof.Pre_finite_inputs
import proofs.«428568_j19971597926436_3_alg».proof.Proof.Gen.Pre_finite_inputs
import Idealize.ShloMosaic.Lib.StableHlo.Predicate
import Idealize.ShloMosaic.Lib.ReduceAll

set_option maxRecDepth 16384

noncomputable section

namespace Cert.Kernel.Hand

open Cert.Kernel Cert.Kernel.Gen
open Idealize.ShloMosaic Idealize.ShloMosaic.TcCoe Idealize.SL.Sem

variable {F : FTy → Type} [FloatOps F]

section Table

variable (m : (ℓ : Loc nD τ sig) → Buf (Elt F) ℓ)

/-- Every label is a class index. -/
def InRange : Prop := ∀ x : S16.Idx, (m (((0 : Dev nD) : Thread nD τ).loc main_arg6) x).toNat < 10

/-- The table's contents as region 0 reads them at entry. -/
def tbl0 : pre0.Contents (Elt F) := fun k => m (((0 : Dev nD) : Thread nD τ).loc (pre0.ref k))
/-- The table's contents as region 1 reads them at entry. -/
def tbl1 : pre1.Contents (Elt F) := fun k => m (((0 : Dev nD) : Thread nD τ).loc (pre1.ref k))

end Table

/-- The entry the index map reads at grid point i: entry (i 0) of the table. -/
def lab (i : grid0.Coords) : S16.Idx := fun a => match a with | ⟨0, _⟩ => ⟨(i 0).val, (i 0).isLt⟩
/-- The same over region 1's grid. -/
def lab1 (i : grid1.Coords) : S16.Idx := fun a => match a with | ⟨0, _⟩ => ⟨(i 0).val, (i 0).isLt⟩

/-- A grid coordinate as a 32-bit word reads back as itself: the bounds are far below 2³². -/
theorem toNat_ofNat_coord (n b : Nat) (hn : n < b) (hb : b ≤ 4096) : (BitVec.ofNat 32 n).toNat = n := by
  rw [BitVec.toNat_ofNat]; exact Nat.mod_eq_of_lt (by omega)

/-- Two triples with equal entries are equal. -/
theorem vec3_congr {a b c a' b' c' : Nat} (ha : a = a') (hb : b = b') (hc : c = c') :
    (![a, b, c] : Fin 3 → Nat) = ![a', b', c'] := by subst ha hb hc; rfl

/-- Window 1's block index at point i, in closed form: (label (i 0), i 1, 0). -/
theorem transform1_0 (pf : pre0.Contents (Elt F)) (i : grid0.Coords) :
    cc0_transform_1 k0_off1_inb numel1_S1 pf i = ![(pf 0 (lab i)).toNat, (i 1).val, 0] := by
  have h0 : (BitVec.ofNat 32 (i 0).val).toNat = (i 0).val := toNat_ofNat_coord _ 16 (i 0).isLt (by decide)
  have h1 : (BitVec.ofNat 32 (i 1).val).toNat = (i 1).val := toNat_ofNat_coord _ 4 (i 1).isLt (by decide)
  have hw : pf.at 0 (Rect.unit (s := S16) ![(Scalar.indexCast (BitVec.ofNat 32 (i 0).val)).toNat] S1.size (k0_off1_inb i)) numel1_S1
      = pf 0 (lab i) := by
    refine congrArg (pf 0) (funext fun a => Fin.ext ?_)
    match a with
    | ⟨0, _⟩ =>
      show (BitVec.ofNat 32 (i 0).val).toNat + 1 * 0 = (i 0).val
      rw [Nat.mul_zero, Nat.add_zero]; exact h0
  exact vec3_congr (congrArg BitVec.toNat hw) h1 rfl

theorem transform1_1 (pf : pre1.Contents (Elt F)) (i : grid1.Coords) :
    cc1_transform_1 k1_off1_inb numel1_S1 pf i = ![(pf 0 (lab1 i)).toNat, (i 1).val, 0] := by
  have h0 : (BitVec.ofNat 32 (i 0).val).toNat = (i 0).val := toNat_ofNat_coord _ 16 (i 0).isLt (by decide)
  have h1 : (BitVec.ofNat 32 (i 1).val).toNat = (i 1).val := toNat_ofNat_coord _ 4 (i 1).isLt (by decide)
  have hw : pf.at 0 (Rect.unit (s := S16) ![(Scalar.indexCast (BitVec.ofNat 32 (i 0).val)).toNat] S1.size (k1_off1_inb i)) numel1_S1
      = pf 0 (lab1 i) := by
    refine congrArg (pf 0) (funext fun a => Fin.ext ?_)
    match a with
    | ⟨0, _⟩ =>
      show (BitVec.ofNat 32 (i 0).val).toNat + 1 * 0 = (i 0).val
      rw [Nat.mul_zero, Nat.add_zero]; exact h0
  exact vec3_congr (congrArg BitVec.toNat hw) h1 rfl

/-- Region 0's side condition: with every label below 10, block (label, j, 0) of [1, 1024, 1152] lies in [10, 4096, 1152]. -/
theorem ok0_of (pf : pre0.Contents (Elt F)) (h : ∀ x, (pf 0 x).toNat < 10) : ok0 pf := by
  intro i
  have hl := h (lab i)
  have hj : (i 1).val < 4 := (i 1).isLt
  refine ⟨fun a => ?_, Or.inl rfl⟩
  rw [transform1_0]
  fin_cases a <;> simp [S1x1024x1152, S10x4096x1152] <;> omega

/-- Region 1's side condition: the same over [10, 4096, 768]. -/
theorem ok1_of (pf : pre1.Contents (Elt F)) (h : ∀ x, (pf 0 x).toNat < 10) : ok1 pf := by
  intro i
  have hl := h (lab1 i)
  have hj : (i 1).val < 4 := (i 1).isLt
  refine ⟨fun a => ?_, Or.inl rfl⟩
  rw [transform1_1]
  fin_cases a <;> simp [S1x1024x768, S10x4096x768] <;> omega

section Adm

variable (m : (ℓ : Loc nD τ sig) → Buf (Elt F) ℓ)

/-- The table's contents as admissible contents of each region's pipeline. -/
def adm (h : InRange m) : (p : Fin 2) → (pcfgs (F := F) p).Adm
  | ⟨0, _⟩ => ⟨tbl0 m, ok0_of _ h⟩
  | ⟨1, _⟩ => ⟨tbl1 m, ok1_of _ h⟩

theorem adm_val0 (h : InRange m) : (adm m h 0).1 = tbl0 m := rfl
theorem adm_val1 (h : InRange m) : (adm m h 1).1 = tbl1 m := rfl

end Adm

/-- A word in [0, n) signed is below n unsigned: non-negative signed, its sign bit is clear, and below 2³¹ the signed
    and the unsigned orders agree. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have hm : w.msb = false := by
    cases hb : w.msb with
    | false => rfl
    | true =>
      exfalso
      have hs : (0#32).sle w = true := (StableHlo.Predicate.ofBool_eq_one_iff _).1 h0
      simp only [BitVec.sle, decide_eq_true_eq] at hs
      rw [BitVec.toInt_eq_msb_cond w, hb] at hs
      have := w.isLt
      simp at hs
      omega
  have hw : w.toNat < 2 ^ 31 := by have := BitVec.msb_eq_false_iff_two_mul_lt.mp hm; omega
  have hn' : (BitVec.ofNat 32 n).toNat = n := by rw [BitVec.toNat_ofNat]; exact Nat.mod_eq_of_lt (by omega)
  have := (StableHlo.Predicate.slt_iff_toNat hw (by omega)).1 h1
  omega

/-- The precondition gives the range: where the printed predicate is all ones, every entry of its label argument is
    below 10 unsigned. -/
theorem inRange_of_fn (x0 : FVec F Cert.Pre_finite_inputs.S16x784x1152 .f32) (x1 : FVec F Cert.Pre_finite_inputs.S16x784x768 .f32)
    (x2 : FVec F Cert.Pre_finite_inputs.S10x4096x1152 .f32) (x3 : FVec F Cert.Pre_finite_inputs.S10x4096x768 .f32)
    (x4 : FVec F Cert.Pre_finite_inputs.S10x128x1152 .f32) (x5 : FVec F Cert.Pre_finite_inputs.S10x128x768 .f32)
    (cl : IVec Cert.Pre_finite_inputs.S16 32) (vm : IVec Cert.Pre_finite_inputs.S16x784 32)
    (h : Cert.Pre_finite_inputs.fn (F := F) x0 x1 x2 x3 x4 x5 cl vm = fun _ => 1#1) :
    ∀ x : Cert.Pre_finite_inputs.S16.Idx, (cl x).toNat < 10 := by
  intro x
  -- the predicate's one result element
  have e := congrFun h (fun a => a.elim0 : Cert.Pre_finite_inputs.S_.Idx)
  dsimp only [Cert.Pre_finite_inputs.fn, Cert.Pre_finite_inputs.fn_part1, Cert.Pre_finite_inputs.fn_part2] at e
  -- its last conjunct is the reduction by and of the labels' mask
  obtain ⟨-, e2⟩ := IntOp.andi_eq_one.1 e
  haveI : Subsingleton Cert.Pre_finite_inputs.S_.Idx := ⟨fun a b => funext fun d => d.elim0⟩
  have e3 := Host.reduce_andi_all _ _ _ _ _ e2 x
  -- the mask at x: 0 ≤ label x and label x < 10, signed
  obtain ⟨hge, hlt⟩ := IntOp.andi_eq_one.1 e3
  exact toNat_lt_of_signed (cl x) 10 (by decide) hge hlt

end Cert.Kernel.Hand

end
-- ==== Proof.Spec.lean ====
/-
  What both programs compute per sample and patch, as one function over the extended reals: the smallest
  clipped Euclidean distance from a feature row to the rows of the bank the sample's label names.
  For rows x, y of length D: d²(x, y) = (Σ x² + Σ y²) − 2 · Σ x·y, clipped to [lo, hi], then the square root;
  the minimum runs over all rows of the bank, starting from +∞. The four float literals are the words both
  programs carry; they are never evaluated.
-/
import Idealize.ShloMosaic.PureOps.Ideal
import Idealize.ShloMosaic.PureOps.Ideal.Laws

noncomputable section

namespace Cert.Spec

open Idealize.ShloMosaic

/-- The literal 2.0. -/
abbrev two : EReal := Ideal.ofBits .f32 0x40000000#32
/-- The lower clip bound (the word of 1e-12). -/
abbrev lo : EReal := Ideal.ofBits .f32 0x2B8CBCCC#32
/-- The upper clip bound 50.0. -/
abbrev hi : EReal := Ideal.ofBits .f32 0x42480000#32
/-- The word of +∞, the minimum's start. -/
abbrev pinf : EReal := Ideal.ofBits .f32 0x7F800000#32

/-- Σ x². -/
def sq {D : Nat} (x : Fin D → EReal) : EReal := ∑ d, x d * x d

/-- The squared distance, in the arrangement (Σx² + Σy²) − 2·Σxy. -/
def dist2 {D : Nat} (x y : Fin D → EReal) : EReal := (sq x + sq y) - two * ∑ d, x d * y d

/-- The clipped distance. -/
def cdist {D : Nat} (x y : Fin D → EReal) : EReal := Ideal.sqrt (min hi (max lo (dist2 x y)))

/-- The smallest clipped distance from x to the rows of a bank, from +∞. -/
def minDist {D M : Nat} (x : Fin D → EReal) (bank : Fin M → Fin D → EReal) : EReal :=
  (Finset.univ : Finset (Fin M)).fold min pinf fun j => cdist x (bank j)

/-- Per sample b and patch p: the smallest clipped distance from feature row (b, p) to the rows of bank (cls b). -/
def G {B P C M D : Nat} (xs : Fin B → Fin P → Fin D → EReal) (banks : Fin C → Fin M → Fin D → EReal)
    (cls : Fin B → Fin C) (b : Fin B) (p : Fin P) : EReal :=
  minDist (xs b p) (banks (cls b))

end Cert.Spec

end
-- ==== Proof.Body0.lean ====
/-
  Region 0 (the point branch): at grid point t = 4b + j the body reads sample b's feature block [784, 1152] and
  tile j (1024 rows) of the bank row the label table names, keeps in two scratch rows [1, 784] the running
  minimum over the tiles seen so far and the features' squared norms, both reset at j = 0, and stores the
  running minimum into the output block at j = 3. The proof data names what the two scratch rows hold after
  each point by recursion on the point, and the output block at j = 3 as the running minimum after it.
-/
import proofs.«428568_j19971597926436_3_alg».proof.Proof.Gen.KernelIdeal.Launch
import proofs.«428568_j19971597926436_3_alg».proof.Proof.Gen.KernelIdeal.Skeleton
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body's function, case by case

The body's two conditions read the second grid coordinate j only: the first holds at j = 0 (both scratch rows are
made afresh), the second at j = 3 (the running minimum is stored into the output block). On any whole memrefs, from
the feature block v0, the bank tile v5, the scratch rows acc and xx and the output block d, the function leaves the
inputs as they were and
  * at j = 0 the norms row at the squared norms of v0 and the minimum row at the update of the reset row by the tile;
  * at j = 1, 2 the norms row as it was and the minimum row updated by the tile;
  * at j = 3 the same, and the output block at the updated minimum row, reshaped. -/

/-- The body's first condition, as its text computes it from the second grid coordinate. -/
abbrev k0_cond1 (i : grid0.Coords) : BitVec 1 :=
  Scalar.cmpi .ne (Scalar.extui (Scalar.cmpi .eq (BitVec.ofNat 32 (i 1).val) 0#32)) 0#32

theorem k0_zeros2 : (![0, 0] : Fin 2 → Nat) = fun _ => 0 := by funext a; fin_cases a <;> rfl
theorem k0_zeros3 : (![0, 0, 0] : Fin 3 → Nat) = fun _ => 0 := by funext a; fin_cases a <;> rfl

section Whole
variable {sg : RefSig} {κ : Kind} {sp : Space} {S : Shape} {e : EltTy} {Val : EltTy → Type}

/-- A load of the whole buffer, through the rectangle at zero offsets of the buffer's own sizes, reads the contents. -/
theorem k0_readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- A store of the whole buffer, made last, leaves its payload whatever was stored before. -/
theorem k0_read_writes_whole [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w]
end Whole

section Triples
/-- j = 1, 2: neither condition holds. -/
theorem sound_kernel0_mid (c : Dev nD) (E : Set ℕ) (i : grid0.Coords)
    (hc1 : ¬ k0_cond1 i = 1#1) (hc2 : ¬ k0_cond2 i = 1#1)
    (arg2 : Memref sig .tc .smem S16 .i32) (harg2 : arg2.IsWhole)
    (arg3 : Memref sig .tc .vmem S1x784x1152 .f32) (harg3 : arg3.IsWhole)
    (arg4 : Memref sig .tc .vmem S1x1024x1152 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x1152 .f32) (v5 : Vec F S1x1024x1152 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k0_pay5 v0 v5 xx acc) ∗ owns (c : Thread nD τ) arg7 fullShare xx) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k0_read_writes_whole _ _ k0_zeros2, k0_readAt_whole _ _ k0_zeros3, k0_readAt_whole _ _ k0_zeros3, k0_readAt_whole _ _ k0_zeros2, k0_readAt_whole _ _ k0_zeros2]
  iexists f7; isplitr; · ipureintro; rfl
  iexact H7

/-- j = 0: the first condition holds, the second does not. -/
theorem sound_kernel0_first (c : Dev nD) (E : Set ℕ) (i : grid0.Coords)
    (hc1 : k0_cond1 i = 1#1) (hc2 : ¬ k0_cond2 i = 1#1)
    (arg2 : Memref sig .tc .smem S16 .i32) (harg2 : arg2.IsWhole)
    (arg3 : Memref sig .tc .vmem S1x784x1152 .f32) (harg3 : arg3.IsWhole)
    (arg4 : Memref sig .tc .vmem S1x1024x1152 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x1152 .f32) (v5 : Vec F S1x1024x1152 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k0_pay5 v0 v5 (k0_pay4 v0) k0_pay3) ∗ owns (c : Thread nD τ) arg7 fullShare (k0_pay4 v0)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k0_read_writes_whole _ _ k0_zeros2]
    sl_unfold_words
    rw [View.readCov_unit_zero _ k0_zeros2, View.readCov_unit_zero _ k0_zeros2, k0_readAt_whole _ _ k0_zeros3, k0_readAt_whole _ _ k0_zeros3]
  iexists _; isplitr
  swap; · iexact H7
  ipureintro
  sl_unfold_words
  rw [k0_read_writes_whole _ _ k0_zeros2, k0_readAt_whole _ _ k0_zeros3]

/-- j = 3: the second condition holds, the first does not. -/
theorem sound_kernel0_last (c : Dev nD) (E : Set ℕ) (i : grid0.Coords)
    (hc1 : ¬ k0_cond1 i = 1#1) (hc2 : k0_cond2 i = 1#1)
    (arg2 : Memref sig .tc .smem S16 .i32) (harg2 : arg2.IsWhole)
    (arg3 : Memref sig .tc .vmem S1x784x1152 .f32) (harg3 : arg3.IsWhole)
    (arg4 : Memref sig .tc .vmem S1x1024x1152 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x1152 .f32) (v5 : Vec F S1x1024x1152 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare (k0_pay1 (k0_pay5 v0 v5 xx acc))
            ∗ owns (c : Thread nD τ) arg6 fullShare (k0_pay5 v0 v5 xx acc) ∗ owns (c : Thread nD τ) arg7 fullShare xx) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [k0_read_writes_whole (S := S1x1x784) _ _ k0_zeros3]
    sl_unfold_words
    rw [View.readCov_unit_zero _ k0_zeros2, k0_readAt_whole _ _ k0_zeros3, k0_readAt_whole _ _ k0_zeros3, k0_readAt_whole _ _ k0_zeros2, k0_readAt_whole _ _ k0_zeros2]
  isplitl [H6]
  · iexists _; isplitr
    swap; · iexact H6
    ipureintro
    sl_unfold_words
    rw [k0_read_writes_whole _ _ k0_zeros2, k0_readAt_whole _ _ k0_zeros3, k0_readAt_whole _ _ k0_zeros3, k0_readAt_whole _ _ k0_zeros2, k0_readAt_whole _ _ k0_zeros2]
  iexists f7; isplitr; · ipureintro; rfl
  iexact H7

end Triples

section Region0

variable (a : (pcfg0 (F := F)).Adm)
variable (V : (c : Dev nD) → (b : Ref sig .tc) → Buf (Elt F) ((c : Thread nD τ).loc b))

/-- Window w's block at point t, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The grid has a first point. -/
theorem N0_pos : 0 < (cfg0 a).N := by
  show 0 < grid0.N
  rw [N_0]; exact Nat.succ_pos _

/-- The feature block and the bank tile at the point numbered t (numbers past the grid wrap; never read there). -/
def feat0 (c : Dev nD) (t : Nat) : Vec F S1x784x1152 .f32 := iblk0 a V c 0 ⟨t % (cfg0 a).N, Nat.mod_lt _ (N0_pos a)⟩
def tile0 (c : Dev nD) (t : Nat) : Vec F S1x1024x1152 .f32 := iblk0 a V c 1 ⟨t % (cfg0 a).N, Nat.mod_lt _ (N0_pos a)⟩

/-- What the two scratch rows (running minimum, squared norms) hold AFTER the point numbered t: at a point with
    j = 0 both are made afresh from the point's blocks, elsewhere the minimum is updated and the norms kept. -/
def sa0 (c : Dev nD) : Nat → Vec F S1x784 .f32 × Vec F S1x784 .f32
  | 0 => (k0_pay5 (feat0 a V c 0) (tile0 a V c 0) (k0_pay4 (feat0 a V c 0)) k0_pay3, k0_pay4 (feat0 a V c 0))
  | t + 1 =>
    if (t + 1) % 4 = 0 then
      (k0_pay5 (feat0 a V c (t + 1)) (tile0 a V c (t + 1)) (k0_pay4 (feat0 a V c (t + 1))) k0_pay3, k0_pay4 (feat0 a V c (t + 1)))
    else
      (k0_pay5 (feat0 a V c (t + 1)) (tile0 a V c (t + 1)) (sa0 c t).2 (sa0 c t).1, (sa0 c t).2)

/-- The scratch rows before point t: anything before the first point, else what the point before left. -/
def scr0 (c : Dev nD) (t : Fin ((cfg0 a).N + 1)) : sProp 𝕄 :=
  iprop(∃ (acc xx : Vec F S1x784 .f32),
    owns (c : Thread nD τ) (Memref.whole cc0_scratch0) fullShare acc ∗ owns (c : Thread nD τ) (Memref.whole cc0_scratch1) fullShare xx
      ∗ ⌜0 < t.val → acc = (sa0 a V c (t.val - 1)).1 ∧ xx = (sa0 a V c (t.val - 1)).2⌝)

/-- The region's invariant: the two scratch rows, every other scoped buffer that is no staging buffer of this
    call at some contents, the generator register, and the label table held whole at the admitted contents. -/
def Phi0 (c : Dev nD) (t : Fin ((cfg0 a).N + 1)) : sProp 𝕄 :=
  iprop(scr0 a V c t
    ∗ Pipeline.scopedRestBut (Ix := Unit) (Name := ℕ) (U := UR sig nD τ) (Lvl := ℕ) (Val := Elt F) spec0 c [cc0_scratch0, cc0_scratch1]
    ∗ (∃ r, prngReg c r)
    ∗ Pipeline.prefHeld (Ix := Unit) (Name := ℕ) (U := UR sig nD τ) (Lvl := ℕ) pre0 c (fun _ => fullShare) a.1)

/-- The proof data of pipeline 0 on core c. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => k0_pay1 (sa0 a V c t.val).1
  Φ t := Phi0 a V c t
  q _ := fullShare
  owed _ := 0

theorem A_eq0 (c : Dev nD) (w : Fin (cfg0 a).W) : (dat0 a V c).A w = V c (Pipeline.arrRef spec0 w) := by
  dsimp only [dat0]

/-! ### The schedule and the conditions over the grid's points

Point t = 4b + j has j = t mod 4. The output window's block index reads b only, so the block is written back
exactly at j = 3; the two conditions of the body are j = 0 and j = 3. -/

/-- The output window's write-backs are those of its index map, whatever the table holds. -/
theorem flush0_2 (t : Fin (cfg0 a).N) : ((cfg0 a).win 2).flush t = Pipeline.Window.flushOf grid0 true cc0_transform_2 t := rfl

theorem flushOf0_2 : ∀ t : Fin grid0.N, Pipeline.Window.flushOf grid0 true cc0_transform_2 t = decide (t.val % 4 = 3) := by decide

theorem k0_cond1_iff : ∀ t : Fin grid0.N, (k0_cond1 (grid0.coords t) = 1#1) ↔ t.val % 4 = 0 := by decide

theorem k0_cond2_iff : ∀ t : Fin grid0.N, (k0_cond2 (grid0.coords t) = 1#1) ↔ t.val % 4 = 3 := by decide

/-! ### What the input windows' buffers hold

The body leaves both input blocks in place, so each input's current buffer holds its block at every point, fetched
there or not: unfetched, the block index has not moved since the point before. -/

theorem before0_0 (c : Dev nD) (t : Fin (cfg0 a).N) (d) : (dat0 a V c).before 0 t d = iblk0 a V c 0 t :=
  ((dat0 a V c).before_in_eq_fetched 0 rfl (fun _ => rfl) (fun _ _ _ => rfl) (fun t => by dsimp only [dat0]; unfold Dat.blockOf iblk0; try rfl) t d).trans
    (by unfold Dat.fetched Dat.blockOf iblk0; try rfl)

theorem before0_1 (c : Dev nD) (t : Fin (cfg0 a).N) (d) : (dat0 a V c).before 1 t d = iblk0 a V c 1 t :=
  ((dat0 a V c).before_in_eq_fetched 1 rfl (fun _ => rfl) (fun _ _ _ => rfl) (fun t => by dsimp only [dat0]; unfold Dat.blockOf iblk0; try rfl) t d).trans
    (by unfold Dat.fetched Dat.blockOf iblk0; try rfl)

/-- At a point of the grid the numbered blocks are the point's. -/
theorem feat0_eq (c : Dev nD) (t : Fin (cfg0 a).N) : feat0 a V c t.val = (iblk0 a V c 0 t : Vec F S1x784x1152 .f32) := by
  have h : (⟨t.val % (cfg0 a).N, Nat.mod_lt _ (N0_pos a)⟩ : Fin (cfg0 a).N) = t := Fin.ext (Nat.mod_eq_of_lt t.isLt)
  unfold feat0; rw [h]

theorem tile0_eq (c : Dev nD) (t : Fin (cfg0 a).N) : tile0 a V c t.val = (iblk0 a V c 1 t : Vec F S1x1024x1152 .f32) := by
  have h : (⟨t.val % (cfg0 a).N, Nat.mod_lt _ (N0_pos a)⟩ : Fin (cfg0 a).N) = t := Fin.ext (Nat.mod_eq_of_lt t.isLt)
  unfold tile0; rw [h]

/-! ### The scratch rows, point by point -/

/-- After a point with j = 0 both rows are made afresh from the point's blocks. -/
theorem sa0_first (c : Dev nD) (n : Nat) (h : n % 4 = 0) :
    sa0 a V c n = (k0_pay5 (feat0 a V c n) (tile0 a V c n) (k0_pay4 (feat0 a V c n)) k0_pay3, k0_pay4 (feat0 a V c n)) := by
  cases n with
  | zero => rw [sa0]
  | succ m => rw [sa0, if_pos h]

/-- After a point with j ≠ 0 the minimum is updated by the point's tile and the norms are kept. -/
theorem sa0_next (c : Dev nD) (n : Nat) (h : n % 4 ≠ 0) :
    sa0 a V c n = (k0_pay5 (feat0 a V c n) (tile0 a V c n) (sa0 a V c (n - 1)).2 (sa0 a V c (n - 1)).1, (sa0 a V c (n - 1)).2) := by
  cases n with
  | zero => exact absurd rfl h
  | succ m => rw [sa0, if_neg h]; rfl

/-! ### The body at a point -/

/-- The current staging memref of each window at point t. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The kernel's function at point t, on what the pipeline calls it with. -/
abbrev bodyAt0 (t : Fin (cfg0 a).N) : Prog (TpuEff nD τ sig (Elt F) Λ₀ .tc) PUnit :=
  cc0_kernel (grid0.coords t) (Memref.whole main_arg6) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) (Memref.whole cc0_scratch1) (Memref.isWhole_whole _)

/-- What the body is called with at point t, -/
def bodyPre0 (c : Dev nD) (t : Fin (cfg0 a).N) : sProp 𝕄 :=
  iprop(Phi0 a V c t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d))
    ∗ (∃ d, owns (c : Thread nD τ) (st0_2 a t) fullShare ((dat0 a V c).before 2 t d)))

/-- and what it returns. -/
def bodyPost0 (c : Dev nD) (t : Fin (cfg0 a).N) : sProp 𝕄 :=
  iprop(Phi0 a V c t.succ ∗ (dat0 a V c).owesAt () t.succ
    ∗ owns (c : Thread nD τ) (st0_0 a t) fullShare ((dat0 a V c).after 0 t)
    ∗ owns (c : Thread nD τ) (st0_1 a t) fullShare ((dat0 a V c).after 1 t)
    ∗ (dat0 a V c).leavesExact 2 t)

/-- The scratch rows after a point with j ≠ 0, from what they held before it. -/
theorem scr0_step_next (c : Dev nD) (t : Fin (cfg0 a).N) (h0 : t.val % 4 ≠ 0) (acc xx : Vec F S1x784 .f32)
    (hpure : 0 < t.castSucc.val → acc = (sa0 a V c (t.castSucc.val - 1)).1 ∧ xx = (sa0 a V c (t.castSucc.val - 1)).2) :
    k0_pay5 (iblk0 a V c 0 t) (iblk0 a V c 1 t) xx acc = (sa0 a V c t.val).1 ∧ xx = (sa0 a V c t.val).2 := by
  have hpos : 0 < t.val := Nat.pos_of_ne_zero (fun h => h0 (by rw [h]))
  obtain ⟨ha, hx⟩ := hpure hpos
  rw [sa0_next a V c t.val h0, feat0_eq, tile0_eq]
  exact ⟨by rw [ha, hx]; rfl, hx⟩

/-- The scratch rows after a point with j = 0, whatever they held before it. -/
theorem scr0_step_first (c : Dev nD) (t : Fin (cfg0 a).N) (h0 : t.val % 4 = 0) :
    k0_pay5 (iblk0 a V c 0 t) (iblk0 a V c 1 t) (k0_pay4 (iblk0 a V c 0 t)) k0_pay3 = (sa0 a V c t.val).1
      ∧ k0_pay4 (iblk0 a V c 0 t) = (sa0 a V c t.val).2 := by
  rw [sa0_first a V c t.val h0, feat0_eq, tile0_eq]
  exact ⟨rfl, rfl⟩

theorem succ_pred0 (t : Fin (cfg0 a).N) : t.succ.val - 1 = t.val := by rw [Fin.val_succ]; omega

/-- j = 1, 2: the output window is idle and not written back; its buffer is handed back as found. -/
theorem sound_body0_mid (c : Dev nD) (t : Fin (cfg0 a).N) (h0 : t.val % 4 ≠ 0) (h3 : t.val % 4 ≠ 3) :
    bodyPre0 a V c t ⊢ wp frame (wpE (defs₀ (F := F)) Variants.none c none) Set.univ (bodyAt0 a t) (fun _ => bodyPost0 a V c t) := by
  have hc1 : ¬ k0_cond1 (grid0.coords t) = 1#1 := fun h => h0 ((k0_cond1_iff t).mp h)
  have hc2 : ¬ k0_cond2 (grid0.coords t) = 1#1 := fun h => h3 ((k0_cond2_iff t).mp h)
  have hidle : (cfg0 a).idle 2 ((cfg0 a).grid.coords t) = true := by
    show (!(k0_cond2 (grid0.coords t) == 1#1)) = true
    rw [Bool.not_eq_true', beq_eq_false_iff_ne]; exact hc2
  have hflush : ((cfg0 a).win 2).flush t = false := by
    rw [flush0_2, flushOf0_2]; exact decide_eq_false h3
  unfold bodyPre0 bodyPost0 bodyAt0 Phi0 scr0
  rw [Dat.leavesExact_idle _ 2 t hidle hflush]
  simp only [before0_0, before0_1]
  rw [show (dat0 a V c).owesAt () t.succ = (dat0 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr0_step_next a V c t h0 acc xx hpure
  iapply (sound_kernel0_mid c Set.univ (grid0.coords t) hc1 hc2 _ _ _ _ _ _ _ _ _ _ _ _ (iblk0 a V c 0 t) (iblk0 a V c 1 t) acc xx ((dat0 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred0]; exact hs
    isplitl [Hrest]; · iexact Hrest
    isplitl [Hprng]; · iexact Hprng
    iexact Hpref
  isplitl [Ho]; · iexact Ho
  isplitl [H0]; · dsimp only [dat0]; iexact H0
  isplitl [H1]; · dsimp only [dat0]; iexact H1
  iexists d2; iexact H2

/-- j = 0: as above, the scratch rows reset; what they held is not read. -/
theorem sound_body0_first (c : Dev nD) (t : Fin (cfg0 a).N) (h0 : t.val % 4 = 0) :
    bodyPre0 a V c t ⊢ wp frame (wpE (defs₀ (F := F)) Variants.none c none) Set.univ (bodyAt0 a t) (fun _ => bodyPost0 a V c t) := by
  have h3 : t.val % 4 ≠ 3 := by omega
  have hc1 : k0_cond1 (grid0.coords t) = 1#1 := (k0_cond1_iff t).mpr h0
  have hc2 : ¬ k0_cond2 (grid0.coords t) = 1#1 := fun h => h3 ((k0_cond2_iff t).mp h)
  have hidle : (cfg0 a).idle 2 ((cfg0 a).grid.coords t) = true := by
    show (!(k0_cond2 (grid0.coords t) == 1#1)) = true
    rw [Bool.not_eq_true', beq_eq_false_iff_ne]; exact hc2
  have hflush : ((cfg0 a).win 2).flush t = false := by
    rw [flush0_2, flushOf0_2]; exact decide_eq_false h3
  unfold bodyPre0 bodyPost0 bodyAt0 Phi0 scr0
  rw [Dat.leavesExact_idle _ 2 t hidle hflush]
  simp only [before0_0, before0_1]
  rw [show (dat0 a V c).owesAt () t.succ = (dat0 a V c).owesAt () t.castSucc from rfl]
  iintro ⟨⟨⟨%acc, %xx, Hacc, Hxx, -⟩, Hrest, Hprng, Hpref⟩, Ho, ⟨%d0, H0⟩, ⟨%d1, H1⟩, ⟨%d2, H2⟩⟩
  have hs := scr0_step_first a V c t h0
  iapply (sound_kernel0_first c Set.univ (grid0.coords t) hc1 hc2 _ _ _ _ _ _ _ _ _ _ _ _ (iblk0 a V c 0 t) (iblk0 a V c 1 t) acc xx ((dat0 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred0]; exact hs
    isplitl [Hrest]; · iexact Hrest
    isplitl [Hprng]; · iexact Hprng
    iexact Hpref
  isplitl [Ho]; · iexact Ho
  isplitl [H0]; · dsimp only [dat0]; iexact H0
  isplitl [H1]; · dsimp only [dat0]; iexact H1
  iexists d2; iexact H2

/-- j = 3: the output window is live; its buffer takes the running minimum after the point. -/
theorem sound_body0_last (c : Dev nD) (t : Fin (cfg0 a).N) (h3 : t.val % 4 = 3) :
    bodyPre0 a V c t ⊢ wp frame (wpE (defs₀ (F := F)) Variants.none c none) Set.univ (bodyAt0 a t) (fun _ => bodyPost0 a V c t) := by
  have h0 : t.val % 4 ≠ 0 := by omega
  have hc1 : ¬ k0_cond1 (grid0.coords t) = 1#1 := fun h => h0 ((k0_cond1_iff t).mp h)
  have hc2 : k0_cond2 (grid0.coords t) = 1#1 := (k0_cond2_iff t).mpr h3
  have hidle : (cfg0 a).idle 2 ((cfg0 a).grid.coords t) = false := by
    show (!(k0_cond2 (grid0.coords t) == 1#1)) = false
    rw [Bool.not_eq_false', beq_iff_eq]; exact hc2
  have hleaves : (dat0 a V c).leavesExact 2 t = owns (c : Thread nD τ) (st0_2 a t) fullShare ((dat0 a V c).after 2 t) := by
    unfold Dat.leavesExact; rw [hidle]
  unfold bodyPre0 bodyPost0 bodyAt0 Phi0 scr0
  rw [hleaves]
  simp only [before0_0, before0_1]
  rw [show (dat0 a V c).owesAt () t.succ = (dat0 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr0_step_next a V c t h0 acc xx hpure
  iapply (sound_kernel0_last c Set.univ (grid0.coords t) hc1 hc2 _ _ _ _ _ _ _ _ _ _ _ _ (iblk0 a V c 0 t) (iblk0 a V c 1 t) acc xx ((dat0 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred0]; exact hs
    isplitl [Hrest]; · iexact Hrest
    isplitl [Hprng]; · iexact Hprng
    iexact Hpref
  isplitl [Ho]; · iexact Ho
  isplitl [H0]; · dsimp only [dat0]; iexact H0
  isplitl [H1]; · dsimp only [dat0]; iexact H1
  dsimp only [dat0]; rw [← hs.1]; iexact H2

/-- The body at any point: by the three cases of j. -/
theorem sound_body0 (c : Dev nD) (t : Fin (cfg0 a).N) :
    bodyPre0 a V c t ⊢ wp frame (wpE (defs₀ (F := F)) Variants.none c none) Set.univ (bodyAt0 a t) (fun _ => bodyPost0 a V c t) := by
  by_cases h0 : t.val % 4 = 0
  · exact sound_body0_first a V c t h0
  · by_cases h3 : t.val % 4 = 3
    · exact sound_body0_last a V c t h3
    · exact sound_body0_mid a V c t h0 h3

/-- The library's body obligation, at every point. -/
theorem body_obligation0 (c : Dev nD) : BodyObligation (dat0 (F := F) a V c) (defs₀ (F := F)) Variants.none () Set.univ := fun t => by
  rw [bigSep_W0, bigSep_W0]
  exact sound_body0 a V c t

end Region0

end Cert.KernelIdeal.Hand

end
-- ==== Proof.Body1.lean ====
/-
  Region 1 (the rgb branch): at grid point t = 4b + j the body reads sample b's feature block [784, 768] and
  tile j (1024 rows) of the bank row the label table names, keeps in two scratch rows [1, 784] the running
  minimum over the tiles seen so far and the features' squared norms, both reset at j = 0, and stores the
  running minimum into the output block at j = 3. The proof data names what the two scratch rows hold after
  each point by recursion on the point, and the output block at j = 3 as the running minimum after it.
-/
import proofs.«428568_j19971597926436_3_alg».proof.Proof.Gen.KernelIdeal.Launch
import proofs.«428568_j19971597926436_3_alg».proof.Proof.Gen.KernelIdeal.Skeleton
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body's function, case by case

The body's two conditions read the second grid coordinate j only: the first holds at j = 0 (both scratch rows are
made afresh), the second at j = 3 (the running minimum is stored into the output block). On any whole memrefs, from
the feature block v0, the bank tile v5, the scratch rows acc and xx and the output block d, the function leaves the
inputs as they were and
  * at j = 0 the norms row at the squared norms of v0 and the minimum row at the update of the reset row by the tile;
  * at j = 1, 2 the norms row as it was and the minimum row updated by the tile;
  * at j = 3 the same, and the output block at the updated minimum row, reshaped. -/

/-- The body's first condition, as its text computes it from the second grid coordinate. -/
abbrev k1_cond1 (i : grid1.Coords) : BitVec 1 :=
  Scalar.cmpi .ne (Scalar.extui (Scalar.cmpi .eq (BitVec.ofNat 32 (i 1).val) 0#32)) 0#32

theorem k1_zeros2 : (![0, 0] : Fin 2 → Nat) = fun _ => 0 := by funext a; fin_cases a <;> rfl
theorem k1_zeros3 : (![0, 0, 0] : Fin 3 → Nat) = fun _ => 0 := by funext a; fin_cases a <;> rfl

section Whole
variable {sg : RefSig} {κ : Kind} {sp : Space} {S : Shape} {e : EltTy} {Val : EltTy → Type}

/-- A load of the whole buffer, through the rectangle at zero offsets of the buffer's own sizes, reads the contents. -/
theorem k1_readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- A store of the whole buffer, made last, leaves its payload whatever was stored before. -/
theorem k1_read_writes_whole [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w]
end Whole

section Triples
/-- j = 1, 2: neither condition holds. -/
theorem sound_kernel1_mid (c : Dev nD) (E : Set ℕ) (i : grid1.Coords)
    (hc1 : ¬ k1_cond1 i = 1#1) (hc2 : ¬ k1_cond2 i = 1#1)
    (arg2 : Memref sig .tc .smem S16 .i32) (harg2 : arg2.IsWhole)
    (arg3 : Memref sig .tc .vmem S1x784x768 .f32) (harg3 : arg3.IsWhole)
    (arg4 : Memref sig .tc .vmem S1x1024x768 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x768 .f32) (v5 : Vec F S1x1024x768 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k1_pay5 v0 v5 xx acc) ∗ owns (c : Thread nD τ) arg7 fullShare xx) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k1_read_writes_whole _ _ k1_zeros2, k1_readAt_whole _ _ k1_zeros3, k1_readAt_whole _ _ k1_zeros3, k1_readAt_whole _ _ k1_zeros2, k1_readAt_whole _ _ k1_zeros2]
  iexists f7; isplitr; · ipureintro; rfl
  iexact H7

/-- j = 0: the first condition holds, the second does not. -/
theorem sound_kernel1_first (c : Dev nD) (E : Set ℕ) (i : grid1.Coords)
    (hc1 : k1_cond1 i = 1#1) (hc2 : ¬ k1_cond2 i = 1#1)
    (arg2 : Memref sig .tc .smem S16 .i32) (harg2 : arg2.IsWhole)
    (arg3 : Memref sig .tc .vmem S1x784x768 .f32) (harg3 : arg3.IsWhole)
    (arg4 : Memref sig .tc .vmem S1x1024x768 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x768 .f32) (v5 : Vec F S1x1024x768 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k1_pay5 v0 v5 (k1_pay4 v0) k1_pay3) ∗ owns (c : Thread nD τ) arg7 fullShare (k1_pay4 v0)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k1_read_writes_whole _ _ k1_zeros2]
    sl_unfold_words
    rw [View.readCov_unit_zero _ k1_zeros2, View.readCov_unit_zero _ k1_zeros2, k1_readAt_whole _ _ k1_zeros3, k1_readAt_whole _ _ k1_zeros3]
  iexists _; isplitr
  swap; · iexact H7
  ipureintro
  sl_unfold_words
  rw [k1_read_writes_whole _ _ k1_zeros2, k1_readAt_whole _ _ k1_zeros3]

/-- j = 3: the second condition holds, the first does not. -/
theorem sound_kernel1_last (c : Dev nD) (E : Set ℕ) (i : grid1.Coords)
    (hc1 : ¬ k1_cond1 i = 1#1) (hc2 : k1_cond2 i = 1#1)
    (arg2 : Memref sig .tc .smem S16 .i32) (harg2 : arg2.IsWhole)
    (arg3 : Memref sig .tc .vmem S1x784x768 .f32) (harg3 : arg3.IsWhole)
    (arg4 : Memref sig .tc .vmem S1x1024x768 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x768 .f32) (v5 : Vec F S1x1024x768 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare (k1_pay1 (k1_pay5 v0 v5 xx acc))
            ∗ owns (c : Thread nD τ) arg6 fullShare (k1_pay5 v0 v5 xx acc) ∗ owns (c : Thread nD τ) arg7 fullShare xx) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [k1_read_writes_whole (S := S1x1x784) _ _ k1_zeros3]
    sl_unfold_words
    rw [View.readCov_unit_zero _ k1_zeros2, k1_readAt_whole _ _ k1_zeros3, k1_readAt_whole _ _ k1_zeros3, k1_readAt_whole _ _ k1_zeros2, k1_readAt_whole _ _ k1_zeros2]
  isplitl [H6]
  · iexists _; isplitr
    swap; · iexact H6
    ipureintro
    sl_unfold_words
    rw [k1_read_writes_whole _ _ k1_zeros2, k1_readAt_whole _ _ k1_zeros3, k1_readAt_whole _ _ k1_zeros3, k1_readAt_whole _ _ k1_zeros2, k1_readAt_whole _ _ k1_zeros2]
  iexists f7; isplitr; · ipureintro; rfl
  iexact H7

end Triples

section Region1

variable (a : (pcfg1 (F := F)).Adm)
variable (V : (c : Dev nD) → (b : Ref sig .tc) → Buf (Elt F) ((c : Thread nD τ).loc b))

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The grid has a first point. -/
theorem N1_pos : 0 < (cfg1 a).N := by
  show 0 < grid1.N
  rw [N_1]; exact Nat.succ_pos _

/-- The feature block and the bank tile at the point numbered t (numbers past the grid wrap; never read there). -/
def feat1 (c : Dev nD) (t : Nat) : Vec F S1x784x768 .f32 := iblk1 a V c 0 ⟨t % (cfg1 a).N, Nat.mod_lt _ (N1_pos a)⟩
def tile1 (c : Dev nD) (t : Nat) : Vec F S1x1024x768 .f32 := iblk1 a V c 1 ⟨t % (cfg1 a).N, Nat.mod_lt _ (N1_pos a)⟩

/-- What the two scratch rows (running minimum, squared norms) hold AFTER the point numbered t: at a point with
    j = 0 both are made afresh from the point's blocks, elsewhere the minimum is updated and the norms kept. -/
def sa1 (c : Dev nD) : Nat → Vec F S1x784 .f32 × Vec F S1x784 .f32
  | 0 => (k1_pay5 (feat1 a V c 0) (tile1 a V c 0) (k1_pay4 (feat1 a V c 0)) k1_pay3, k1_pay4 (feat1 a V c 0))
  | t + 1 =>
    if (t + 1) % 4 = 0 then
      (k1_pay5 (feat1 a V c (t + 1)) (tile1 a V c (t + 1)) (k1_pay4 (feat1 a V c (t + 1))) k1_pay3, k1_pay4 (feat1 a V c (t + 1)))
    else
      (k1_pay5 (feat1 a V c (t + 1)) (tile1 a V c (t + 1)) (sa1 c t).2 (sa1 c t).1, (sa1 c t).2)

/-- The scratch rows before point t: anything before the first point, else what the point before left. -/
def scr1 (c : Dev nD) (t : Fin ((cfg1 a).N + 1)) : sProp 𝕄 :=
  iprop(∃ (acc xx : Vec F S1x784 .f32),
    owns (c : Thread nD τ) (Memref.whole cc1_scratch0) fullShare acc ∗ owns (c : Thread nD τ) (Memref.whole cc1_scratch1) fullShare xx
      ∗ ⌜0 < t.val → acc = (sa1 a V c (t.val - 1)).1 ∧ xx = (sa1 a V c (t.val - 1)).2⌝)

/-- The region's invariant: the two scratch rows, every other scoped buffer that is no staging buffer of this
    call at some contents, the generator register, and the label table held whole at the admitted contents. -/
def Phi1 (c : Dev nD) (t : Fin ((cfg1 a).N + 1)) : sProp 𝕄 :=
  iprop(scr1 a V c t
    ∗ Pipeline.scopedRestBut (Ix := Unit) (Name := ℕ) (U := UR sig nD τ) (Lvl := ℕ) (Val := Elt F) spec1 c [cc1_scratch0, cc1_scratch1]
    ∗ (∃ r, prngReg c r)
    ∗ Pipeline.prefHeld (Ix := Unit) (Name := ℕ) (U := UR sig nD τ) (Lvl := ℕ) pre1 c (fun _ => fullShare) a.1)

/-- The proof data of pipeline 1 on core c. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => k1_pay1 (sa1 a V c t.val).1
  Φ t := Phi1 a V c t
  q _ := fullShare
  owed _ := 0

theorem A_eq1 (c : Dev nD) (w : Fin (cfg1 a).W) : (dat1 a V c).A w = V c (Pipeline.arrRef spec1 w) := by
  dsimp only [dat1]

/-! ### The schedule and the conditions over the grid's points

Point t = 4b + j has j = t mod 4. The output window's block index reads b only, so the block is written back
exactly at j = 3; the two conditions of the body are j = 0 and j = 3. -/

/-- The output window's write-backs are those of its index map, whatever the table holds. -/
theorem flush1_2 (t : Fin (cfg1 a).N) : ((cfg1 a).win 2).flush t = Pipeline.Window.flushOf grid1 true cc1_transform_2 t := rfl

theorem flushOf1_2 : ∀ t : Fin grid1.N, Pipeline.Window.flushOf grid1 true cc1_transform_2 t = decide (t.val % 4 = 3) := by decide

theorem k1_cond1_iff : ∀ t : Fin grid1.N, (k1_cond1 (grid1.coords t) = 1#1) ↔ t.val % 4 = 0 := by decide

theorem k1_cond2_iff : ∀ t : Fin grid1.N, (k1_cond2 (grid1.coords t) = 1#1) ↔ t.val % 4 = 3 := by decide

/-! ### What the input windows' buffers hold

The body leaves both input blocks in place, so each input's current buffer holds its block at every point, fetched
there or not: unfetched, the block index has not moved since the point before. -/

theorem before1_0 (c : Dev nD) (t : Fin (cfg1 a).N) (d) : (dat1 a V c).before 0 t d = iblk1 a V c 0 t :=
  ((dat1 a V c).before_in_eq_fetched 0 rfl (fun _ => rfl) (fun _ _ _ => rfl) (fun t => by dsimp only [dat1]; unfold Dat.blockOf iblk1; try rfl) t d).trans
    (by unfold Dat.fetched Dat.blockOf iblk1; try rfl)

theorem before1_1 (c : Dev nD) (t : Fin (cfg1 a).N) (d) : (dat1 a V c).before 1 t d = iblk1 a V c 1 t :=
  ((dat1 a V c).before_in_eq_fetched 1 rfl (fun _ => rfl) (fun _ _ _ => rfl) (fun t => by dsimp only [dat1]; unfold Dat.blockOf iblk1; try rfl) t d).trans
    (by unfold Dat.fetched Dat.blockOf iblk1; try rfl)

/-- At a point of the grid the numbered blocks are the point's. -/
theorem feat1_eq (c : Dev nD) (t : Fin (cfg1 a).N) : feat1 a V c t.val = (iblk1 a V c 0 t : Vec F S1x784x768 .f32) := by
  have h : (⟨t.val % (cfg1 a).N, Nat.mod_lt _ (N1_pos a)⟩ : Fin (cfg1 a).N) = t := Fin.ext (Nat.mod_eq_of_lt t.isLt)
  unfold feat1; rw [h]

theorem tile1_eq (c : Dev nD) (t : Fin (cfg1 a).N) : tile1 a V c t.val = (iblk1 a V c 1 t : Vec F S1x1024x768 .f32) := by
  have h : (⟨t.val % (cfg1 a).N, Nat.mod_lt _ (N1_pos a)⟩ : Fin (cfg1 a).N) = t := Fin.ext (Nat.mod_eq_of_lt t.isLt)
  unfold tile1; rw [h]

/-! ### The scratch rows, point by point -/

/-- After a point with j = 0 both rows are made afresh from the point's blocks. -/
theorem sa1_first (c : Dev nD) (n : Nat) (h : n % 4 = 0) :
    sa1 a V c n = (k1_pay5 (feat1 a V c n) (tile1 a V c n) (k1_pay4 (feat1 a V c n)) k1_pay3, k1_pay4 (feat1 a V c n)) := by
  cases n with
  | zero => rw [sa1]
  | succ m => rw [sa1, if_pos h]

/-- After a point with j ≠ 0 the minimum is updated by the point's tile and the norms are kept. -/
theorem sa1_next (c : Dev nD) (n : Nat) (h : n % 4 ≠ 0) :
    sa1 a V c n = (k1_pay5 (feat1 a V c n) (tile1 a V c n) (sa1 a V c (n - 1)).2 (sa1 a V c (n - 1)).1, (sa1 a V c (n - 1)).2) := by
  cases n with
  | zero => exact absurd rfl h
  | succ m => rw [sa1, if_neg h]; rfl

/-! ### The body at a point -/

/-- The current staging memref of each window at point t. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The kernel's function at point t, on what the pipeline calls it with. -/
abbrev bodyAt1 (t : Fin (cfg1 a).N) : Prog (TpuEff nD τ sig (Elt F) Λ₀ .tc) PUnit :=
  cc1_kernel (grid1.coords t) (Memref.whole main_arg6) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (Memref.whole cc1_scratch0) (Memref.isWhole_whole _) (Memref.whole cc1_scratch1) (Memref.isWhole_whole _)

/-- What the body is called with at point t, -/
def bodyPre1 (c : Dev nD) (t : Fin (cfg1 a).N) : sProp 𝕄 :=
  iprop(Phi1 a V c t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d))
    ∗ (∃ d, owns (c : Thread nD τ) (st1_2 a t) fullShare ((dat1 a V c).before 2 t d)))

/-- and what it returns. -/
def bodyPost1 (c : Dev nD) (t : Fin (cfg1 a).N) : sProp 𝕄 :=
  iprop(Phi1 a V c t.succ ∗ (dat1 a V c).owesAt () t.succ
    ∗ owns (c : Thread nD τ) (st1_0 a t) fullShare ((dat1 a V c).after 0 t)
    ∗ owns (c : Thread nD τ) (st1_1 a t) fullShare ((dat1 a V c).after 1 t)
    ∗ (dat1 a V c).leavesExact 2 t)

/-- The scratch rows after a point with j ≠ 0, from what they held before it. -/
theorem scr1_step_next (c : Dev nD) (t : Fin (cfg1 a).N) (h0 : t.val % 4 ≠ 0) (acc xx : Vec F S1x784 .f32)
    (hpure : 0 < t.castSucc.val → acc = (sa1 a V c (t.castSucc.val - 1)).1 ∧ xx = (sa1 a V c (t.castSucc.val - 1)).2) :
    k1_pay5 (iblk1 a V c 0 t) (iblk1 a V c 1 t) xx acc = (sa1 a V c t.val).1 ∧ xx = (sa1 a V c t.val).2 := by
  have hpos : 0 < t.val := Nat.pos_of_ne_zero (fun h => h0 (by rw [h]))
  obtain ⟨ha, hx⟩ := hpure hpos
  rw [sa1_next a V c t.val h0, feat1_eq, tile1_eq]
  exact ⟨by rw [ha, hx]; rfl, hx⟩

/-- The scratch rows after a point with j = 0, whatever they held before it. -/
theorem scr1_step_first (c : Dev nD) (t : Fin (cfg1 a).N) (h0 : t.val % 4 = 0) :
    k1_pay5 (iblk1 a V c 0 t) (iblk1 a V c 1 t) (k1_pay4 (iblk1 a V c 0 t)) k1_pay3 = (sa1 a V c t.val).1
      ∧ k1_pay4 (iblk1 a V c 0 t) = (sa1 a V c t.val).2 := by
  rw [sa1_first a V c t.val h0, feat1_eq, tile1_eq]
  exact ⟨rfl, rfl⟩

theorem succ_pred1 (t : Fin (cfg1 a).N) : t.succ.val - 1 = t.val := by rw [Fin.val_succ]; omega

/-- j = 1, 2: the output window is idle and not written back; its buffer is handed back as found. -/
theorem sound_body1_mid (c : Dev nD) (t : Fin (cfg1 a).N) (h0 : t.val % 4 ≠ 0) (h3 : t.val % 4 ≠ 3) :
    bodyPre1 a V c t ⊢ wp frame (wpE (defs₀ (F := F)) Variants.none c none) Set.univ (bodyAt1 a t) (fun _ => bodyPost1 a V c t) := by
  have hc1 : ¬ k1_cond1 (grid1.coords t) = 1#1 := fun h => h0 ((k1_cond1_iff t).mp h)
  have hc2 : ¬ k1_cond2 (grid1.coords t) = 1#1 := fun h => h3 ((k1_cond2_iff t).mp h)
  have hidle : (cfg1 a).idle 2 ((cfg1 a).grid.coords t) = true := by
    show (!(k1_cond2 (grid1.coords t) == 1#1)) = true
    rw [Bool.not_eq_true', beq_eq_false_iff_ne]; exact hc2
  have hflush : ((cfg1 a).win 2).flush t = false := by
    rw [flush1_2, flushOf1_2]; exact decide_eq_false h3
  unfold bodyPre1 bodyPost1 bodyAt1 Phi1 scr1
  rw [Dat.leavesExact_idle _ 2 t hidle hflush]
  simp only [before1_0, before1_1]
  rw [show (dat1 a V c).owesAt () t.succ = (dat1 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr1_step_next a V c t h0 acc xx hpure
  iapply (sound_kernel1_mid c Set.univ (grid1.coords t) hc1 hc2 _ _ _ _ _ _ _ _ _ _ _ _ (iblk1 a V c 0 t) (iblk1 a V c 1 t) acc xx ((dat1 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred1]; exact hs
    isplitl [Hrest]; · iexact Hrest
    isplitl [Hprng]; · iexact Hprng
    iexact Hpref
  isplitl [Ho]; · iexact Ho
  isplitl [H0]; · dsimp only [dat1]; iexact H0
  isplitl [H1]; · dsimp only [dat1]; iexact H1
  iexists d2; iexact H2

/-- j = 0: as above, the scratch rows reset; what they held is not read. -/
theorem sound_body1_first (c : Dev nD) (t : Fin (cfg1 a).N) (h0 : t.val % 4 = 0) :
    bodyPre1 a V c t ⊢ wp frame (wpE (defs₀ (F := F)) Variants.none c none) Set.univ (bodyAt1 a t) (fun _ => bodyPost1 a V c t) := by
  have h3 : t.val % 4 ≠ 3 := by omega
  have hc1 : k1_cond1 (grid1.coords t) = 1#1 := (k1_cond1_iff t).mpr h0
  have hc2 : ¬ k1_cond2 (grid1.coords t) = 1#1 := fun h => h3 ((k1_cond2_iff t).mp h)
  have hidle : (cfg1 a).idle 2 ((cfg1 a).grid.coords t) = true := by
    show (!(k1_cond2 (grid1.coords t) == 1#1)) = true
    rw [Bool.not_eq_true', beq_eq_false_iff_ne]; exact hc2
  have hflush : ((cfg1 a).win 2).flush t = false := by
    rw [flush1_2, flushOf1_2]; exact decide_eq_false h3
  unfold bodyPre1 bodyPost1 bodyAt1 Phi1 scr1
  rw [Dat.leavesExact_idle _ 2 t hidle hflush]
  simp only [before1_0, before1_1]
  rw [show (dat1 a V c).owesAt () t.succ = (dat1 a V c).owesAt () t.castSucc from rfl]
  iintro ⟨⟨⟨%acc, %xx, Hacc, Hxx, -⟩, Hrest, Hprng, Hpref⟩, Ho, ⟨%d0, H0⟩, ⟨%d1, H1⟩, ⟨%d2, H2⟩⟩
  have hs := scr1_step_first a V c t h0
  iapply (sound_kernel1_first c Set.univ (grid1.coords t) hc1 hc2 _ _ _ _ _ _ _ _ _ _ _ _ (iblk1 a V c 0 t) (iblk1 a V c 1 t) acc xx ((dat1 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred1]; exact hs
    isplitl [Hrest]; · iexact Hrest
    isplitl [Hprng]; · iexact Hprng
    iexact Hpref
  isplitl [Ho]; · iexact Ho
  isplitl [H0]; · dsimp only [dat1]; iexact H0
  isplitl [H1]; · dsimp only [dat1]; iexact H1
  iexists d2; iexact H2

/-- j = 3: the output window is live; its buffer takes the running minimum after the point. -/
theorem sound_body1_last (c : Dev nD) (t : Fin (cfg1 a).N) (h3 : t.val % 4 = 3) :
    bodyPre1 a V c t ⊢ wp frame (wpE (defs₀ (F := F)) Variants.none c none) Set.univ (bodyAt1 a t) (fun _ => bodyPost1 a V c t) := by
  have h0 : t.val % 4 ≠ 0 := by omega
  have hc1 : ¬ k1_cond1 (grid1.coords t) = 1#1 := fun h => h0 ((k1_cond1_iff t).mp h)
  have hc2 : k1_cond2 (grid1.coords t) = 1#1 := (k1_cond2_iff t).mpr h3
  have hidle : (cfg1 a).idle 2 ((cfg1 a).grid.coords t) = false := by
    show (!(k1_cond2 (grid1.coords t) == 1#1)) = false
    rw [Bool.not_eq_false', beq_iff_eq]; exact hc2
  have hleaves : (dat1 a V c).leavesExact 2 t = owns (c : Thread nD τ) (st1_2 a t) fullShare ((dat1 a V c).after 2 t) := by
    unfold Dat.leavesExact; rw [hidle]
  unfold bodyPre1 bodyPost1 bodyAt1 Phi1 scr1
  rw [hleaves]
  simp only [before1_0, before1_1]
  rw [show (dat1 a V c).owesAt () t.succ = (dat1 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr1_step_next a V c t h0 acc xx hpure
  iapply (sound_kernel1_last c Set.univ (grid1.coords t) hc1 hc2 _ _ _ _ _ _ _ _ _ _ _ _ (iblk1 a V c 0 t) (iblk1 a V c 1 t) acc xx ((dat1 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred1]; exact hs
    isplitl [Hrest]; · iexact Hrest
    isplitl [Hprng]; · iexact Hprng
    iexact Hpref
  isplitl [Ho]; · iexact Ho
  isplitl [H0]; · dsimp only [dat1]; iexact H0
  isplitl [H1]; · dsimp only [dat1]; iexact H1
  dsimp only [dat1]; rw [← hs.1]; iexact H2

/-- The body at any point: by the three cases of j. -/
theorem sound_body1 (c : Dev nD) (t : Fin (cfg1 a).N) :
    bodyPre1 a V c t ⊢ wp frame (wpE (defs₀ (F := F)) Variants.none c none) Set.univ (bodyAt1 a t) (fun _ => bodyPost1 a V c t) := by
  by_cases h0 : t.val % 4 = 0
  · exact sound_body1_first a V c t h0
  · by_cases h3 : t.val % 4 = 3
    · exact sound_body1_last a V c t h3
    · exact sound_body1_mid a V c t h0 h3

/-- The library's body obligation, at every point. -/
theorem body_obligation1 (c : Dev nD) : BodyObligation (dat1 (F := F) a V c) (defs₀ (F := F)) Variants.none () Set.univ := fun t => by
  rw [bigSep_W1, bigSep_W1]
  exact sound_body1 a V c t

end Region1

end Cert.KernelIdeal.Hand

end
-- ==== Proof.Run.lean ====
/-
  The run of @main. The program is nine items: a host stretch, the point branch's kernel call, a host stretch, the
  rgb branch's kernel call, and five host stretches. Between two items the core holds every unscoped buffer whole at
  a valuation: the launch memory, then what each host stretch computes, then, after a kernel call, the same with the
  call's output array replaced by what its output window's write-backs leave. Each call is entered by taking its three
  arrays and its label table out of the unscoped buffers, its two scratch rows out of the scoped ones, and is left by
  putting them back; the table is never written, so it goes back as it came.
-/
import proofs.«428568_j19971597926436_3_alg».proof.Proof.Body0
import proofs.«428568_j19971597926436_3_alg».proof.Proof.Body1
import proofs.«428568_j19971597926436_3_alg».proof.Proof.Tbl
import proofs.«428568_j19971597926436_3_alg».proof.Proof.Gen.KernelIdeal.Regions
import Idealize.ShloMosaic.Lib.Pipeline.Regions
import Idealize.ShloMosaic.Lib.Pipeline.RegionsLoop
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (hcl : InRange m)

/-- The first call's output array after its last point, everything else as launched. -/
def outs0 : Gen.Outs (F := F) := fun _ r c =>
  if h : r = main_v2 then
    h ▸ ((dat0 (adm m hcl 0) (fun c b => Gen.V1 m c b) c).arrAt 2 (cfg0 (adm m hcl 0)).N : Buf (Elt F) ((c : Thread nD τ).loc main_v2))
  else Gen.V0 m c r

/-- What the two regions leave in main_v2 and main_v7: the output window's array after the last point. -/
def outsOf : Gen.Outs (F := F) := fun J r c =>
  if h : r = main_v7 then
    h ▸ ((dat1 (adm m hcl 1) (fun c b => Gen.V3 m (outs0 m hcl) c b) c).arrAt 2 (cfg1 (adm m hcl 1)).N : Buf (Elt F) ((c : Thread nD τ).loc main_v7))
  else outs0 m hcl J r c

theorem outsOf_2 (c : Dev nD) : outsOf m hcl 2 main_v2 c = (dat0 (adm m hcl 0) (fun c b => Gen.V1 m c b) c).arrAt 2 (cfg0 (adm m hcl 0)).N := by
  unfold outsOf
  rw [dif_neg (by decide)]
  unfold outs0
  rw [dif_pos rfl]

/-- The second call's entry contents read of the first call's leavings only its output array. -/
theorem V3_outsOf (c : Dev nD) : Gen.V3 m (outsOf m hcl) c = Gen.V3 m (outs0 m hcl) c := by
  have h : outsOf m hcl 2 main_v2 c = outs0 m hcl 2 main_v2 c := by
    unfold outsOf; rw [dif_neg (by decide)]
  show StableHlo.after hostOps1 (Function.update (Gen.V1 m c) main_v2 (outsOf m hcl 2 main_v2 c))
    = StableHlo.after hostOps1 (Function.update (Gen.V1 m c) main_v2 (outs0 m hcl 2 main_v2 c))
  rw [h]

theorem outsOf_4 (c : Dev nD) : outsOf m hcl 4 main_v7 c = (dat1 (adm m hcl 1) (fun c b => Gen.V3 m (outsOf m hcl) c b) c).arrAt 2 (cfg1 (adm m hcl 1)).N := by
  have hV : (fun (c : Dev nD) (b : Ref sig .tc) => (Gen.V3 m (outsOf m hcl) c b : Buf (Elt F) ((c : Thread nD τ).loc b)))
      = fun (c : Dev nD) (b : Ref sig .tc) => (Gen.V3 m (outs0 m hcl) c b : Buf (Elt F) ((c : Thread nD τ).loc b)) :=
    funext fun c => by rw [V3_outsOf]
  rw [hV]
  unfold outsOf
  rw [dif_pos rfl]

/-- Every pipeline's proof data, each at its region's entry contents. -/
def pdats : (p : Fin 2) → (c : Dev nD) → Dat τ (Elt F) Unit ℕ (UR sig nD τ) ℕ (Pipeline.pin (pcfgs (F := F)) (adm m hcl) p) c
  | ⟨0, _⟩ => fun c => dat0 (adm m hcl 0) (fun c b => Gen.V1 m c b) c
  | ⟨1, _⟩ => fun c => dat1 (adm m hcl 1) (fun c b => Gen.V3 m (outsOf m hcl) c b) c

/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- The valuations around the two calls, read at the TensorCore's references. -/
abbrev T1 : (c : Dev nD) → (b : Ref sig .tc) → Buf (Elt F) ((c : Thread nD τ).loc b) := fun c b => Gen.V1 m c b
abbrev T2 : (c : Dev nD) → (b : Ref sig .tc) → Buf (Elt F) ((c : Thread nD τ).loc b) := fun c b => Gen.V2 m (outsOf m hcl) c b
abbrev T3 : (c : Dev nD) → (b : Ref sig .tc) → Buf (Elt F) ((c : Thread nD τ).loc b) := fun c b => Gen.V3 m (outsOf m hcl) c b
abbrev T4 : (c : Dev nD) → (b : Ref sig .tc) → Buf (Elt F) ((c : Thread nD τ).loc b) := fun c b => Gen.V4 m (outsOf m hcl) c b

/-- The label table as call 0 finds it: no item before the call writes it, so it is the launch memory's. -/
theorem tbl_entry0 (c : Dev nD) : (fun k => T1 m c (pre0.ref k)) = (adm m hcl 0).1 := by
  obtain rfl : c = 0 := Subsingleton.elim _ _
  rw [adm_val0]
  funext k
  match k with
  | ⟨0, _⟩ => exact Gen.V1_of m 0 main_arg6 (by decide)

/-- The label table as call 1 finds it: no item before the call writes it, so it is the launch memory's. -/
theorem tbl_entry1 (c : Dev nD) : (fun k => T3 m hcl c (pre1.ref k)) = (adm m hcl 1).1 := by
  obtain rfl : c = 0 := Subsingleton.elim _ _
  rw [adm_val1]
  funext k
  match k with
  | ⟨0, _⟩ => exact (Gen.V3_of m (outsOf m hcl) 0 main_arg6 (by decide)).trans <| (Gen.V2_of m (outsOf m hcl) 0 main_arg6 (by decide)).trans <| Gen.V1_of m 0 main_arg6 (by decide)

/-- The scoped buffers no window of call 0 stages, split at the call's two scratch rows, each whole at some contents. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- Call 0's two scratch rows come out of those buffers at whatever they hold: before the first point nothing is
    asked of their contents. -/
theorem scopedRest_scr0 (a : (pcfg0 (F := F)).Adm) (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec0 c : sProp 𝕄)
      ⊢ iprop(scr0 a V c 0 ∗ Pipeline.scopedRestBut (Ix := Unit) (Name := ℕ) (U := UR sig nD τ) (Lvl := ℕ) (Val := Elt F) spec0 c [cc0_scratch0, cc0_scratch1]) := by
  rw [scopedRest0_split]
  unfold scr0
  iintro ⟨⟨⟨%f0, H0⟩, ⟨%f1, H1⟩⟩, Hb⟩
  isplitl [H0 H1]
  · iexists f0; iexists f1
    rewrite [owns_whole, owns_whole]
    isplitl [H0]; · iexact H0
    isplitl [H1]; · iexact H1
    ipureintro
    intro h; exact absurd h (Nat.lt_irrefl 0)
  · iexact Hb

/-- and go back among them after any point, their contents forgotten. -/
theorem scr0_scopedRest (a : (pcfg0 (F := F)).Adm) (V : (c : Dev nD) → (b : Ref sig .tc) → Buf (Elt F) ((c : Thread nD τ).loc b)) (c : Dev nD)
    (t : Fin ((cfg0 a).N + 1)) :
    iprop(scr0 a V c t ∗ Pipeline.scopedRestBut (Ix := Unit) (Name := ℕ) (U := UR sig nD τ) (Lvl := ℕ) (Val := Elt F) spec0 c [cc0_scratch0, cc0_scratch1])
      ⊢ (Pipeline.scopedRest (Ix := Unit) (Name := ℕ) (U := UR sig nD τ) (Lvl := ℕ) (Val := Elt F) spec0 c : sProp 𝕄) := by
  rw [scopedRest0_split]
  unfold scr0
  simp only [owns_whole]
  iintro ⟨⟨%acc, %xx, H0, H1, -⟩, Hb⟩
  isplitl [H0 H1]
  · isplitl [H0]
    · iexists _; iexact H0
    · iexists _; iexact H1
  · iexact Hb

/-- The scoped buffers no window of call 1 stages, split at the call's two scratch rows, each whole at some contents. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- Call 1's two scratch rows come out of those buffers at whatever they hold: before the first point nothing is
    asked of their contents. -/
theorem scopedRest_scr1 (a : (pcfg1 (F := F)).Adm) (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec1 c : sProp 𝕄)
      ⊢ iprop(scr1 a V c 0 ∗ Pipeline.scopedRestBut (Ix := Unit) (Name := ℕ) (U := UR sig nD τ) (Lvl := ℕ) (Val := Elt F) spec1 c [cc1_scratch0, cc1_scratch1]) := by
  rw [scopedRest1_split]
  unfold scr1
  iintro ⟨⟨⟨%f0, H0⟩, ⟨%f1, H1⟩⟩, Hb⟩
  isplitl [H0 H1]
  · iexists f0; iexists f1
    rewrite [owns_whole, owns_whole]
    isplitl [H0]; · iexact H0
    isplitl [H1]; · iexact H1
    ipureintro
    intro h; exact absurd h (Nat.lt_irrefl 0)
  · iexact Hb

/-- and go back among them after any point, their contents forgotten. -/
theorem scr1_scopedRest (a : (pcfg1 (F := F)).Adm) (V : (c : Dev nD) → (b : Ref sig .tc) → Buf (Elt F) ((c : Thread nD τ).loc b)) (c : Dev nD)
    (t : Fin ((cfg1 a).N + 1)) :
    iprop(scr1 a V c t ∗ Pipeline.scopedRestBut (Ix := Unit) (Name := ℕ) (U := UR sig nD τ) (Lvl := ℕ) (Val := Elt F) spec1 c [cc1_scratch0, cc1_scratch1])
      ⊢ (Pipeline.scopedRest (Ix := Unit) (Name := ℕ) (U := UR sig nD τ) (Lvl := ℕ) (Val := Elt F) spec1 c : sProp 𝕄) := by
  rw [scopedRest1_split]
  unfold scr1
  simp only [owns_whole]
  iintro ⟨⟨%acc, %xx, H0, H1, -⟩, Hb⟩
  isplitl [H0 H1]
  · isplitl [H0]
    · iexists _; iexact H0
    · iexists _; iexact H1
  · iexact Hb

/-- At call 0's exit each of its arrays holds what the pipeline leaves: the two input arrays are never written and
    the valuation after the call keeps them, the output array is the valuation's new entry. -/
theorem hF0 (c : Dev nD) (w : Fin (cfg0 (adm m hcl 0)).W) :
    (dat0 (adm m hcl 0) (fun c b => Gen.V1 m c b) c).arrAt w (cfg0 (adm m hcl 0)).N = T2 m hcl c (Pipeline.arrRef spec0 w) := by
  match w with
  | ⟨0, _⟩ =>
    exact ((dat0 (adm m hcl 0) (fun c b => Gen.V1 m c b) c).arrAt_in 0 rfl _).trans
      ((A_eq0 (adm m hcl 0) (fun c b => Gen.V1 m c b) c 0).trans (Gen.V2_of m (outsOf m hcl) c main_arg0 (by decide)).symm)
  | ⟨1, _⟩ =>
    exact ((dat0 (adm m hcl 0) (fun c b => Gen.V1 m c b) c).arrAt_in 1 rfl _).trans
      ((A_eq0 (adm m hcl 0) (fun c b => Gen.V1 m c b) c 1).trans (Gen.V2_of m (outsOf m hcl) c main_arg2 (by decide)).symm)
  | ⟨2, _⟩ =>
    have h : Gen.V2 m (outsOf m hcl) c main_v2 = outsOf m hcl 2 main_v2 c := Function.update_self _ _ _
    exact (outsOf_2 m hcl c).symm.trans h.symm

/-- and every other buffer what it held at entry. -/
theorem hrest0 (c : Dev nD) : ∀ b, b ∉ Finset.univ.image (Pipeline.arrRef spec0) → T2 m hcl c b = T1 m c b :=
  fun b hb => Gen.V2_of m (outsOf m hcl) c b fun h => hb (Finset.mem_image.mpr ⟨2, Finset.mem_univ _, (List.mem_singleton.mp h).symm⟩)

/-- At call 1's exit each of its arrays holds what the pipeline leaves: the two input arrays are never written and
    the valuation after the call keeps them, the output array is the valuation's new entry. -/
theorem hF1 (c : Dev nD) (w : Fin (cfg1 (adm m hcl 1)).W) :
    (dat1 (adm m hcl 1) (fun c b => Gen.V3 m (outsOf m hcl) c b) c).arrAt w (cfg1 (adm m hcl 1)).N = T4 m hcl c (Pipeline.arrRef spec1 w) := by
  match w with
  | ⟨0, _⟩ =>
    exact ((dat1 (adm m hcl 1) (fun c b => Gen.V3 m (outsOf m hcl) c b) c).arrAt_in 0 rfl _).trans
      ((A_eq1 (adm m hcl 1) (fun c b => Gen.V3 m (outsOf m hcl) c b) c 0).trans (Gen.V4_of m (outsOf m hcl) c main_arg1 (by decide)).symm)
  | ⟨1, _⟩ =>
    exact ((dat1 (adm m hcl 1) (fun c b => Gen.V3 m (outsOf m hcl) c b) c).arrAt_in 1 rfl _).trans
      ((A_eq1 (adm m hcl 1) (fun c b => Gen.V3 m (outsOf m hcl) c b) c 1).trans (Gen.V4_of m (outsOf m hcl) c main_arg3 (by decide)).symm)
  | ⟨2, _⟩ =>
    have h : Gen.V4 m (outsOf m hcl) c main_v7 = outsOf m hcl 4 main_v7 c := Function.update_self _ _ _
    exact (outsOf_4 m hcl c).symm.trans h.symm

/-- and every other buffer what it held at entry. -/
theorem hrest1 (c : Dev nD) : ∀ b, b ∉ Finset.univ.image (Pipeline.arrRef spec1) → T4 m hcl c b = T3 m hcl c b :=
  fun b hb => Gen.V4_of m (outsOf m hcl) c b fun h => hb (Finset.mem_image.mpr ⟨2, Finset.mem_univ _, (List.mem_singleton.mp h).symm⟩)

set_option backward.isDefEq.respectTransparency.types false in
/-- REGION 0: entered from every unscoped buffer at the valuation before it, left at the valuation after it. -/
def reg0 : Pipeline.RegionSeg (pcfgs (F := F)) (adm m hcl) (pdats m hcl) () defs₀ Variants.none (fun _ => ∅) (fun _ _ => 0) 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm m hcl 0) (fun c b => Gen.V1 m c b) c).loose
  hwaits := Pipeline.hwaits_of_owed_zero _ _ _ _ (fun _ => ∅) (fun _ _ => 0) 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsOf m hcl) c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (adm m hcl 0).1)
  Z c := Pipeline.unscopedRestP (Ix := Unit) (Name := ℕ) (U := UR sig nD τ) (Lvl := ℕ) pre0 spec0 c (T1 m c)
  hentry c := by
    rw [Pipeline.ownSems0_none]
    have hsplit := Pipeline.arrays_of_unscopedBufs (p := 0) (pcfgs (F := F)) (adm m hcl) (pdats m hcl) (launch0 (F := F)).win (launch0 (F := F)).arr_whole c
      ((pdats m hcl 0 c).share_full fun _ => rfl) (T1 m c) fun _ => rfl
    rw [Pipeline.unscopedBufs_held, Pipeline.unscopedRest_split (win := (Pipeline.pin (pcfgs (F := F)) (adm m hcl) 0).spec) preFacts0 c (T1 m c), tbl_entry0 m hcl c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hcl 0 c).Φ 0 = Phi0 (adm m hcl 0) (fun c b => Gen.V1 m c b) c 0 from rfl]; unfold Phi0
    iintro ⟨Hp, Ht, Hr⟩
    ihave Hs := (scopedRest_scr0 (adm m hcl 0) (fun c b => Gen.V1 m c b) c) $$ Hr
    icases Hs with ⟨Hs, Hb⟩
    isplitl [Hs]; · iexact Hs
    isplitl [Hb]; · iexact Hb
    isplitl [Hp]; · iexact Hp
    iexact Ht
  hout c := by
    rw [Pipeline.ownSems0_none, show (pdats m hcl 0 c).Φ (Fin.last _) = Phi0 (adm m hcl 0) (fun c b => Gen.V1 m c b) c (Fin.last _) from rfl]; unfold Phi0
    iintro ⟨Hs, Hb, Hp, Ht⟩
    isplitl [Hp Ht]
    · isplitl [Hp]; · iexact Hp
      iexact Ht
    isplitr; · iempintro
    iapply (scr0_scopedRest (adm m hcl 0) (fun c b => Gen.V1 m c b) c (Fin.last _))
    isplitl [Hs]; · iexact Hs
    iexact Hb
  hexit c := by
    have hjoin := Pipeline.unscopedBufs_of_arrays (p := 0) (pcfgs (F := F)) (adm m hcl) (Ix := Unit) (Name := ℕ) (U := UR sig nD τ) (Lvl := ℕ)
      (launch0 (F := F)).win (launch0 (F := F)).arr_whole c (pdats m hcl) ((pdats m hcl 0 c).share_full fun _ => rfl)
      (T1 m c) (T2 m hcl c) ((pdats m hcl 0 c).arrAt · (cfg0 (adm m hcl 0)).N) (hF0 m hcl c) (hrest0 m hcl c)
    rw [Pipeline.unscopedBufs_held, Pipeline.unscopedRest_split (win := (Pipeline.pin (pcfgs (F := F)) (adm m hcl) 0).spec) preFacts0 c (T1 m c), tbl_entry0 m hcl c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- REGION 1: entered from every unscoped buffer at the valuation before it, left at the valuation after it. -/
def reg1 : Pipeline.RegionSeg (pcfgs (F := F)) (adm m hcl) (pdats m hcl) () defs₀ Variants.none (fun _ => ∅) (fun _ _ => 0) 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm m hcl 1) (fun c b => Gen.V3 m (outsOf m hcl) c b) c).loose
  hwaits := Pipeline.hwaits_of_owed_zero _ _ _ _ (fun _ => ∅) (fun _ _ => 0) 1 fun _ _ => rfl
  pre c := iprop(StableHlo.held (c : Thread nD τ) (Pipeline.ucRefs τ sig) (Gen.V3 m (outsOf m hcl) c) ∗ R c)
  post c := iprop(StableHlo.held (c : Thread nD τ) (Pipeline.ucRefs τ sig) (Gen.V4 m (outsOf m hcl) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm m hcl 1).1)
  Z c := Pipeline.unscopedRestP (Ix := Unit) (Name := ℕ) (U := UR sig nD τ) (Lvl := ℕ) pre1 spec1 c (T3 m hcl c)
  hentry c := by
    rw [Pipeline.ownSems0_none]
    have hsplit := Pipeline.arrays_of_unscopedBufs (p := 1) (pcfgs (F := F)) (adm m hcl) (pdats m hcl) (launch1 (F := F)).win (launch1 (F := F)).arr_whole c
      ((pdats m hcl 1 c).share_full fun _ => rfl) (T3 m hcl c) fun _ => rfl
    rw [Pipeline.unscopedBufs_held, Pipeline.unscopedRest_split (win := (Pipeline.pin (pcfgs (F := F)) (adm m hcl) 1).spec) preFacts1 c (T3 m hcl c), tbl_entry1 m hcl c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hcl 1 c).Φ 0 = Phi1 (adm m hcl 1) (fun c b => Gen.V3 m (outsOf m hcl) c b) c 0 from rfl]; unfold Phi1
    iintro ⟨Hp, Ht, Hr⟩
    ihave Hs := (scopedRest_scr1 (adm m hcl 1) (fun c b => Gen.V3 m (outsOf m hcl) c b) c) $$ Hr
    icases Hs with ⟨Hs, Hb⟩
    isplitl [Hs]; · iexact Hs
    isplitl [Hb]; · iexact Hb
    isplitl [Hp]; · iexact Hp
    iexact Ht
  hout c := by
    rw [Pipeline.ownSems0_none, show (pdats m hcl 1 c).Φ (Fin.last _) = Phi1 (adm m hcl 1) (fun c b => Gen.V3 m (outsOf m hcl) c b) c (Fin.last _) from rfl]; unfold Phi1
    iintro ⟨Hs, Hb, Hp, Ht⟩
    isplitl [Hp Ht]
    · isplitl [Hp]; · iexact Hp
      iexact Ht
    isplitr; · iempintro
    iapply (scr1_scopedRest (adm m hcl 1) (fun c b => Gen.V3 m (outsOf m hcl) c b) c (Fin.last _))
    isplitl [Hs]; · iexact Hs
    iexact Hb
  hexit c := by
    have hjoin := Pipeline.unscopedBufs_of_arrays (p := 1) (pcfgs (F := F)) (adm m hcl) (Ix := Unit) (Name := ℕ) (U := UR sig nD τ) (Lvl := ℕ)
      (launch1 (F := F)).win (launch1 (F := F)).arr_whole c (pdats m hcl) ((pdats m hcl 1 c).share_full fun _ => rfl)
      (T3 m hcl c) (T4 m hcl c) ((pdats m hcl 1 c).arrAt · (cfg1 (adm m hcl 1)).N) (hF1 m hcl c) (hrest1 m hcl c)
    rw [Pipeline.unscopedBufs_held, Pipeline.unscopedRest_split (win := (Pipeline.pin (pcfgs (F := F)) (adm m hcl) 1).spec) preFacts1 c (T3 m hcl c), tbl_entry1 m hcl c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- THE LAUNCH: every weakly fair execution of @main from m terminates and ends with every unscoped buffer at the
    last valuation. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Gen.V9 m (outsOf m hcl) c b) := by
  refine Pipeline.θ_run_regions_kit_dev (pcfgs (F := F)) (adm m hcl) (pdats m hcl) () (cellOf_inj (adm m hcl)) emb₁ defs₀ Variants.none (fun _ => ∅) (fun _ _ => 0) m ρ main
    (Gen.segs m (outsOf m hcl) Variants.none (fun _ => ∅) (fun _ _ => 0) (fun _ c => R c) () (adm m hcl) (pdats m hcl) (reg0 m hcl) (reg1 m hcl))
    (fun c Q => by
      rewrite [main_chain c, Pipeline.Seg.run_eq_chain,
        show (Gen.segs m (outsOf m hcl) Variants.none (fun _ => ∅) (fun _ _ => 0) (fun _ c => R c) () (adm m hcl) (pdats m hcl) (reg0 m hcl) (reg1 m hcl) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hcl)) (cellOf_inj (adm m hcl))) (Pipeline.launchToks (Pipeline.pin (pcfgs (F := F)) (adm m hcl)) (cellOf_inj (adm m hcl))))
    (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V9 m (outsOf m hcl) c))
    (hch := fun c => ⟨.rfl, .rfl, .rfl, .rfl, .rfl, .rfl, .rfl, .rfl, .rfl, sep_mono .rfl (by iintro ⟨-, H⟩; iexact H)⟩)
    (hinit := ?_)
    (QY := fun c s => ∀ b ∈ Pipeline.ucRefs τ sig, s.mem (((c : Thread nD τ)).1, b) = Gen.V9 m (outsOf m hcl) c b)
    (hfin := fun c s' => ?_) (hQ := fun _ h => h)
  · -- the launch element is the pipelines' own; no ghost resource beside it
    iintro Hu; imodintro
    isplitl [Hu]
    · iapply (show (ownU (initOf (Pipeline.cells (Pipeline.pin (pcfgs (F := F)) (adm m hcl)) (cellOf_inj (adm m hcl))) (Pipeline.launchToks (Pipeline.pin (pcfgs (F := F)) (adm m hcl)) (cellOf_inj (adm m hcl)))) : sProp 𝕄)
          ⊢ BI.own (emb₁ (initOf (Pipeline.cells (Pipeline.pin (pcfgs (F := F)) (adm m hcl)) (cellOf_inj (adm m hcl))) (Pipeline.launchToks (Pipeline.pin (pcfgs (F := F)) (adm m hcl)) (cellOf_inj (adm m hcl))))) from .rfl)
      iexact Hu
    iapply (show (BI.emp : sProp 𝕄) ⊢ bigSep Finset.univ (fun _ : Dev nD => (BI.emp : sProp 𝕄)) from by rw [BI.bigSep_emp_const])
    iempintro
  · -- the launch: every unscoped buffer at the launch memory, the generator register, the core owing nothing
    refine Pipeline.initEach (fun _ => ∅) (fun _ _ => 0) fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V9 m (outsOf m hcl) c) s')
    isplitl [Hh] <;> iassumption

end Run

end Cert.KernelIdeal.Hand

end
-- ==== Proof.Body0K.lean ====
/-
  Region 0 (the point branch): at grid point t = 4b + j the body reads sample b's feature block [784, 1152] and
  tile j (1024 rows) of the bank row the label table names, keeps in two scratch rows [1, 784] the running
  minimum over the tiles seen so far and the features' squared norms, both reset at j = 0, and stores the
  running minimum into the output block at j = 3. The proof data names what the two scratch rows hold after
  each point by recursion on the point, and the output block at j = 3 as the running minimum after it.
-/
import proofs.«428568_j19971597926436_3_alg».proof.Proof.Gen.Kernel.Launch
import proofs.«428568_j19971597926436_3_alg».proof.Proof.Gen.Kernel.Skeleton
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body's function, case by case

The body's two conditions read the second grid coordinate j only: the first holds at j = 0 (both scratch rows are
made afresh), the second at j = 3 (the running minimum is stored into the output block). On any whole memrefs, from
the feature block v0, the bank tile v5, the scratch rows acc and xx and the output block d, the function leaves the
inputs as they were and
  * at j = 0 the norms row at the squared norms of v0 and the minimum row at the update of the reset row by the tile;
  * at j = 1, 2 the norms row as it was and the minimum row updated by the tile;
  * at j = 3 the same, and the output block at the updated minimum row, reshaped. -/

/-- The body's first condition, as its text computes it from the second grid coordinate. -/
abbrev k0_cond1 (i : grid0.Coords) : BitVec 1 :=
  Scalar.cmpi .ne (Scalar.extui (Scalar.cmpi .eq (BitVec.ofNat 32 (i 1).val) 0#32)) 0#32

theorem k0_zeros2 : (![0, 0] : Fin 2 → Nat) = fun _ => 0 := by funext a; fin_cases a <;> rfl
theorem k0_zeros3 : (![0, 0, 0] : Fin 3 → Nat) = fun _ => 0 := by funext a; fin_cases a <;> rfl

section Whole
variable {sg : RefSig} {κ : Kind} {sp : Space} {S : Shape} {e : EltTy} {Val : EltTy → Type}

/-- A load of the whole buffer, through the rectangle at zero offsets of the buffer's own sizes, reads the contents. -/
theorem k0_readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- A store of the whole buffer, made last, leaves its payload whatever was stored before. -/
theorem k0_read_writes_whole [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w]
end Whole

section Triples
/-- j = 1, 2: neither condition holds. -/
theorem sound_kernel0_mid (c : Dev nD) (E : Set ℕ) (i : grid0.Coords)
    (hc1 : ¬ k0_cond1 i = 1#1) (hc2 : ¬ k0_cond2 i = 1#1)
    (arg2 : Memref sig .tc .smem S16 .i32) (harg2 : arg2.IsWhole)
    (arg3 : Memref sig .tc .vmem S1x784x1152 .f32) (harg3 : arg3.IsWhole)
    (arg4 : Memref sig .tc .vmem S1x1024x1152 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x1152 .f32) (v5 : Vec F S1x1024x1152 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k0_pay5 v0 v5 xx acc) ∗ owns (c : Thread nD τ) arg7 fullShare xx) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k0_read_writes_whole _ _ k0_zeros2, k0_readAt_whole _ _ k0_zeros3, k0_readAt_whole _ _ k0_zeros3, k0_readAt_whole _ _ k0_zeros2, k0_readAt_whole _ _ k0_zeros2]
  iexists f7; isplitr; · ipureintro; rfl
  iexact H7

/-- j = 0: the first condition holds, the second does not. -/
theorem sound_kernel0_first (c : Dev nD) (E : Set ℕ) (i : grid0.Coords)
    (hc1 : k0_cond1 i = 1#1) (hc2 : ¬ k0_cond2 i = 1#1)
    (arg2 : Memref sig .tc .smem S16 .i32) (harg2 : arg2.IsWhole)
    (arg3 : Memref sig .tc .vmem S1x784x1152 .f32) (harg3 : arg3.IsWhole)
    (arg4 : Memref sig .tc .vmem S1x1024x1152 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x1152 .f32) (v5 : Vec F S1x1024x1152 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k0_pay5 v0 v5 (k0_pay4 v0) k0_pay3) ∗ owns (c : Thread nD τ) arg7 fullShare (k0_pay4 v0)) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k0_read_writes_whole _ _ k0_zeros2]
    sl_unfold_words
    rw [View.readCov_unit_zero _ k0_zeros2, View.readCov_unit_zero _ k0_zeros2, k0_readAt_whole _ _ k0_zeros3, k0_readAt_whole _ _ k0_zeros3]
  iexists _; isplitr
  swap; · iexact H7
  ipureintro
  sl_unfold_words
  rw [k0_read_writes_whole _ _ k0_zeros2, k0_readAt_whole _ _ k0_zeros3]

/-- j = 3: the second condition holds, the first does not. -/
theorem sound_kernel0_last (c : Dev nD) (E : Set ℕ) (i : grid0.Coords)
    (hc1 : ¬ k0_cond1 i = 1#1) (hc2 : k0_cond2 i = 1#1)
    (arg2 : Memref sig .tc .smem S16 .i32) (harg2 : arg2.IsWhole)
    (arg3 : Memref sig .tc .vmem S1x784x1152 .f32) (harg3 : arg3.IsWhole)
    (arg4 : Memref sig .tc .vmem S1x1024x1152 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x1152 .f32) (v5 : Vec F S1x1024x1152 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare (k0_pay1 (k0_pay5 v0 v5 xx acc))
            ∗ owns (c : Thread nD τ) arg6 fullShare (k0_pay5 v0 v5 xx acc) ∗ owns (c : Thread nD τ) arg7 fullShare xx) -∗ K ⟨⟩))
      ⊢ wp frame (wpE (defs₀ (F := F)) Variants.none c none) E (cc0_kernel i arg2 harg2 arg3 harg3 arg4 harg4 arg5 harg5 arg6 harg6 arg7 harg7) K := by
  simp only [cc0_kernel_eq_skeleton]; unfold cc0_kernel_skel
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [k0_read_writes_whole (S := S1x1x784) _ _ k0_zeros3]
    sl_unfold_words
    rw [View.readCov_unit_zero _ k0_zeros2, k0_readAt_whole _ _ k0_zeros3, k0_readAt_whole _ _ k0_zeros3, k0_readAt_whole _ _ k0_zeros2, k0_readAt_whole _ _ k0_zeros2]
  isplitl [H6]
  · iexists _; isplitr
    swap; · iexact H6
    ipureintro
    sl_unfold_words
    rw [k0_read_writes_whole _ _ k0_zeros2, k0_readAt_whole _ _ k0_zeros3, k0_readAt_whole _ _ k0_zeros3, k0_readAt_whole _ _ k0_zeros2, k0_readAt_whole _ _ k0_zeros2]
  iexists f7; isplitr; · ipureintro; rfl
  iexact H7

end Triples

section Region0

variable (a : (pcfg0 (F := F)).Adm)
variable (V : (c : Dev nD) → (b : Ref sig .tc) → Buf (Elt F) ((c : Thread nD τ).loc b))

/-- Window w's block at point t, read off its array as the region finds it. -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- The grid has a first point. -/
theorem N0_pos : 0 < (cfg0 a).N := by
  show 0 < grid0.N
  rw [N_0]; exact Nat.succ_pos _

/-- The feature block and the bank tile at the point numbered t (numbers past the grid wrap; never read there). -/
def feat0 (c : Dev nD) (t : Nat) : Vec F S1x784x1152 .f32 := iblk0 a V c 0 ⟨t % (cfg0 a).N, Nat.mod_lt _ (N0_pos a)⟩
def tile0 (c : Dev nD) (t : Nat) : Vec F S1x1024x1152 .f32 := iblk0 a V c 1 ⟨t % (cfg0 a).N, Nat.mod_lt _ (N0_pos a)⟩

/-- What the two scratch rows (running minimum, squared norms) hold AFTER the point numbered t: at a point with
    j = 0 both are made afresh from the point's blocks, elsewhere the minimum is updated and the norms kept. -/
def sa0 (c : Dev nD) : Nat → Vec F S1x784 .f32 × Vec F S1x784 .f32
  | 0 => (k0_pay5 (feat0 a V c 0) (tile0 a V c 0) (k0_pay4 (feat0 a V c 0)) k0_pay3, k0_pay4 (feat0 a V c 0))
  | t + 1 =>
    if (t + 1) % 4 = 0 then
      (k0_pay5 (feat0 a V c (t + 1)) (tile0 a V c (t + 1)) (k0_pay4 (feat0 a V c (t + 1))) k0_pay3, k0_pay4 (feat0 a V c (t + 1)))
    else
      (k0_pay5 (feat0 a V c (t + 1)) (tile0 a V c (t + 1)) (sa0 c t).2 (sa0 c t).1, (sa0 c t).2)

/-- The scratch rows before point t: anything before the first point, else what the point before left. -/
def scr0 (c : Dev nD) (t : Fin ((cfg0 a).N + 1)) : sProp 𝕄 :=
  iprop(∃ (acc xx : Vec F S1x784 .f32),
    owns (c : Thread nD τ) (Memref.whole cc0_scratch0) fullShare acc ∗ owns (c : Thread nD τ) (Memref.whole cc0_scratch1) fullShare xx
      ∗ ⌜0 < t.val → acc = (sa0 a V c (t.val - 1)).1 ∧ xx = (sa0 a V c (t.val - 1)).2⌝)

/-- The region's invariant: the two scratch rows, every other scoped buffer that is no staging buffer of this
    call at some contents, the generator register, and the label table held whole at the admitted contents. -/
def Phi0 (c : Dev nD) (t : Fin ((cfg0 a).N + 1)) : sProp 𝕄 :=
  iprop(scr0 a V c t
    ∗ Pipeline.scopedRestBut (Ix := Unit) (Name := ℕ) (U := UR sig nD τ) (Lvl := ℕ) (Val := Elt F) spec0 c [cc0_scratch0, cc0_scratch1]
    ∗ (∃ r, prngReg c r)
    ∗ Pipeline.prefHeld (Ix := Unit) (Name := ℕ) (U := UR sig nD τ) (Lvl := ℕ) pre0 c (fun _ => fullShare) a.1)

/-- The proof data of pipeline 0 on core c. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => k0_pay1 (sa0 a V c t.val).1
  Φ t := Phi0 a V c t
  q _ := fullShare
  owed _ := 0

theorem A_eq0 (c : Dev nD) (w : Fin (cfg0 a).W) : (dat0 a V c).A w = V c (Pipeline.arrRef spec0 w) := by
  dsimp only [dat0]

/-! ### The schedule and the conditions over the grid's points

Point t = 4b + j has j = t mod 4. The output window's block index reads b only, so the block is written back
exactly at j = 3; the two conditions of the body are j = 0 and j = 3. -/

/-- The output window's write-backs are those of its index map, whatever the table holds. -/
theorem flush0_2 (t : Fin (cfg0 a).N) : ((cfg0 a).win 2).flush t = Pipeline.Window.flushOf grid0 true cc0_transform_2 t := rfl

theorem flushOf0_2 : ∀ t : Fin grid0.N, Pipeline.Window.flushOf grid0 true cc0_transform_2 t = decide (t.val % 4 = 3) := by decide

theorem k0_cond1_iff : ∀ t : Fin grid0.N, (k0_cond1 (grid0.coords t) = 1#1) ↔ t.val % 4 = 0 := by decide

theorem k0_cond2_iff : ∀ t : Fin grid0.N, (k0_cond2 (grid0.coords t) = 1#1) ↔ t.val % 4 = 3 := by decide

/-! ### What the input windows' buffers hold

The body leaves both input blocks in place, so each input's current buffer holds its block at every point, fetched
there or not: unfetched, the block index has not moved since the point before. -/

theorem before0_0 (c : Dev nD) (t : Fin (cfg0 a).N) (d) : (dat0 a V c).before 0 t d = iblk0 a V c 0 t :=
  ((dat0 a V c).before_in_eq_fetched 0 rfl (fun _ => rfl) (fun _ _ _ => rfl) (fun t => by dsimp only [dat0]; unfold Dat.blockOf iblk0; try rfl) t d).trans
    (by unfold Dat.fetched Dat.blockOf iblk0; try rfl)

theorem before0_1 (c : Dev nD) (t : Fin (cfg0 a).N) (d) : (dat0 a V c).before 1 t d = iblk0 a V c 1 t :=
  ((dat0 a V c).before_in_eq_fetched 1 rfl (fun _ => rfl) (fun _ _ _ => rfl) (fun t => by dsimp only [dat0]; unfold Dat.blockOf iblk0; try rfl) t d).trans
    (by unfold Dat.fetched Dat.blockOf iblk0; try rfl)

/-- At a point of the grid the numbered blocks are the point's. -/
theorem feat0_eq (c : Dev nD) (t : Fin (cfg0 a).N) : feat0 a V c t.val = (iblk0 a V c 0 t : Vec F S1x784x1152 .f32) := by
  have h : (⟨t.val % (cfg0 a).N, Nat.mod_lt _ (N0_pos a)⟩ : Fin (cfg0 a).N) = t := Fin.ext (Nat.mod_eq_of_lt t.isLt)
  unfold feat0; rw [h]

theorem tile0_eq (c : Dev nD) (t : Fin (cfg0 a).N) : tile0 a V c t.val = (iblk0 a V c 1 t : Vec F S1x1024x1152 .f32) := by
  have h : (⟨t.val % (cfg0 a).N, Nat.mod_lt _ (N0_pos a)⟩ : Fin (cfg0 a).N) = t := Fin.ext (Nat.mod_eq_of_lt t.isLt)
  unfold tile0; rw [h]

/-! ### The scratch rows, point by point -/

/-- After a point with j = 0 both rows are made afresh from the point's blocks. -/
theorem sa0_first (c : Dev nD) (n : Nat) (h : n % 4 = 0) :
    sa0 a V c n = (k0_pay5 (feat0 a V c n) (tile0 a V c n) (k0_pay4 (feat0 a V c n)) k0_pay3, k0_pay4 (feat0 a V c n)) := by
  cases n with
  | zero => rw [sa0]
  | succ m => rw [sa0, if_pos h]

/-- After a point with j ≠ 0 the minimum is updated by the point's tile and the norms are kept. -/
theorem sa0_next (c : Dev nD) (n : Nat) (h : n % 4 ≠ 0) :
    sa0 a V c n = (k0_pay5 (feat0 a V c n) (tile0 a V c n) (sa0 a V c (n - 1)).2 (sa0 a V c (n - 1)).1, (sa0 a V c (n - 1)).2) := by
  cases n with
  | zero => exact absurd rfl h
  | succ m => rw [sa0, if_neg h]; rfl

/-! ### The body at a point -/

/-- The current staging memref of each window at point t. -/
abbrev st0_0 (t : Fin (cfg0 a).N) := ((cfg0 a).win 0).stage ((cfg0 a).slots t 0)
abbrev st0_1 (t : Fin (cfg0 a).N) := ((cfg0 a).win 1).stage ((cfg0 a).slots t 1)
abbrev st0_2 (t : Fin (cfg0 a).N) := ((cfg0 a).win 2).stage ((cfg0 a).slots t 2)

/-- The kernel's function at point t, on what the pipeline calls it with. -/
abbrev bodyAt0 (t : Fin (cfg0 a).N) : Prog (TpuEff nD τ sig (Elt F) Λ₀ .tc) PUnit :=
  cc0_kernel (grid0.coords t) (Memref.whole main_arg6) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (Memref.whole cc0_scratch0) (Memref.isWhole_whole _) (Memref.whole cc0_scratch1) (Memref.isWhole_whole _)

/-- What the body is called with at point t, -/
def bodyPre0 (c : Dev nD) (t : Fin (cfg0 a).N) : sProp 𝕄 :=
  iprop(Phi0 a V c t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d))
    ∗ (∃ d, owns (c : Thread nD τ) (st0_2 a t) fullShare ((dat0 a V c).before 2 t d)))

/-- and what it returns. -/
def bodyPost0 (c : Dev nD) (t : Fin (cfg0 a).N) : sProp 𝕄 :=
  iprop(Phi0 a V c t.succ ∗ (dat0 a V c).owesAt () t.succ
    ∗ owns (c : Thread nD τ) (st0_0 a t) fullShare ((dat0 a V c).after 0 t)
    ∗ owns (c : Thread nD τ) (st0_1 a t) fullShare ((dat0 a V c).after 1 t)
    ∗ (dat0 a V c).leavesExact 2 t)

/-- The scratch rows after a point with j ≠ 0, from what they held before it. -/
theorem scr0_step_next (c : Dev nD) (t : Fin (cfg0 a).N) (h0 : t.val % 4 ≠ 0) (acc xx : Vec F S1x784 .f32)
    (hpure : 0 < t.castSucc.val → acc = (sa0 a V c (t.castSucc.val - 1)).1 ∧ xx = (sa0 a V c (t.castSucc.val - 1)).2) :
    k0_pay5 (iblk0 a V c 0 t) (iblk0 a V c 1 t) xx acc = (sa0 a V c t.val).1 ∧ xx = (sa0 a V c t.val).2 := by
  have hpos : 0 < t.val := Nat.pos_of_ne_zero (fun h => h0 (by rw [h]))
  obtain ⟨ha, hx⟩ := hpure hpos
  rw [sa0_next a V c t.val h0, feat0_eq, tile0_eq]
  exact ⟨by rw [ha, hx]; rfl, hx⟩

/-- The scratch rows after a point with j = 0, whatever they held before it. -/
theorem scr0_step_first (c : Dev nD) (t : Fin (cfg0 a).N) (h0 : t.val % 4 = 0) :
    k0_pay5 (iblk0 a V c 0 t) (iblk0 a V c 1 t) (k0_pay4 (iblk0 a V c 0 t)) k0_pay3 = (sa0 a V c t.val).1
      ∧ k0_pay4 (iblk0 a V c 0 t) = (sa0 a V c t.val).2 := by
  rw [sa0_first a V c t.val h0, feat0_eq, tile0_eq]
  exact ⟨rfl, rfl⟩

theorem succ_pred0 (t : Fin (cfg0 a).N) : t.succ.val - 1 = t.val := by rw [Fin.val_succ]; omega

/-- j = 1, 2: the output window is idle and not written back; its buffer is handed back as found. -/
theorem sound_body0_mid (c : Dev nD) (t : Fin (cfg0 a).N) (h0 : t.val % 4 ≠ 0) (h3 : t.val % 4 ≠ 3) :
    bodyPre0 a V c t ⊢ wp frame (wpE (defs₀ (F := F)) Variants.none c none) Set.univ (bodyAt0 a t) (fun _ => bodyPost0 a V c t) := by
  have hc1 : ¬ k0_cond1 (grid0.coords t) = 1#1 := fun h => h0 ((k0_cond1_iff t).mp h)
  have hc2 : ¬ k0_cond2 (grid0.coords t) = 1#1 := fun h => h3 ((k0_cond2_iff t).mp h)
  have hidle : (cfg0 a).idle 2 ((cfg0 a).grid.coords t) = true := by
    show (!(k0_cond2 (grid0.coords t) == 1#1)) = true
    rw [Bool.not_eq_true', beq_eq_false_iff_ne]; exact hc2
  have hflush : ((cfg0 a).win 2).flush t = false := by
    rw [flush0_2, flushOf0_2]; exact decide_eq_false h3
  unfold bodyPre0 bodyPost0 bodyAt0 Phi0 scr0
  rw [Dat.leavesExact_idle _ 2 t hidle hflush]
  simp only [before0_0, before0_1]
  rw [show (dat0 a V c).owesAt () t.succ = (dat0 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr0_step_next a V c t h0 acc xx hpure
  iapply (sound_kernel0_mid c Set.univ (grid0.coords t) hc1 hc2 _ _ _ _ _ _ _ _ _ _ _ _ (iblk0 a V c 0 t) (iblk0 a V c 1 t) acc xx ((dat0 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred0]; exact hs
    isplitl [Hrest]; · iexact Hrest
    isplitl [Hprng]; · iexact Hprng
    iexact Hpref
  isplitl [Ho]; · iexact Ho
  isplitl [H0]; · dsimp only [dat0]; iexact H0
  isplitl [H1]; · dsimp only [dat0]; iexact H1
  iexists d2; iexact H2

/-- j = 0: as above, the scratch rows reset; what they held is not read. -/
theorem sound_body0_first (c : Dev nD) (t : Fin (cfg0 a).N) (h0 : t.val % 4 = 0) :
    bodyPre0 a V c t ⊢ wp frame (wpE (defs₀ (F := F)) Variants.none c none) Set.univ (bodyAt0 a t) (fun _ => bodyPost0 a V c t) := by
  have h3 : t.val % 4 ≠ 3 := by omega
  have hc1 : k0_cond1 (grid0.coords t) = 1#1 := (k0_cond1_iff t).mpr h0
  have hc2 : ¬ k0_cond2 (grid0.coords t) = 1#1 := fun h => h3 ((k0_cond2_iff t).mp h)
  have hidle : (cfg0 a).idle 2 ((cfg0 a).grid.coords t) = true := by
    show (!(k0_cond2 (grid0.coords t) == 1#1)) = true
    rw [Bool.not_eq_true', beq_eq_false_iff_ne]; exact hc2
  have hflush : ((cfg0 a).win 2).flush t = false := by
    rw [flush0_2, flushOf0_2]; exact decide_eq_false h3
  unfold bodyPre0 bodyPost0 bodyAt0 Phi0 scr0
  rw [Dat.leavesExact_idle _ 2 t hidle hflush]
  simp only [before0_0, before0_1]
  rw [show (dat0 a V c).owesAt () t.succ = (dat0 a V c).owesAt () t.castSucc from rfl]
  iintro ⟨⟨⟨%acc, %xx, Hacc, Hxx, -⟩, Hrest, Hprng, Hpref⟩, Ho, ⟨%d0, H0⟩, ⟨%d1, H1⟩, ⟨%d2, H2⟩⟩
  have hs := scr0_step_first a V c t h0
  iapply (sound_kernel0_first c Set.univ (grid0.coords t) hc1 hc2 _ _ _ _ _ _ _ _ _ _ _ _ (iblk0 a V c 0 t) (iblk0 a V c 1 t) acc xx ((dat0 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred0]; exact hs
    isplitl [Hrest]; · iexact Hrest
    isplitl [Hprng]; · iexact Hprng
    iexact Hpref
  isplitl [Ho]; · iexact Ho
  isplitl [H0]; · dsimp only [dat0]; iexact H0
  isplitl [H1]; · dsimp only [dat0]; iexact H1
  iexists d2; iexact H2

/-- j = 3: the output window is live; its buffer takes the running minimum after the point. -/
theorem sound_body0_last (c : Dev nD) (t : Fin (cfg0 a).N) (h3 : t.val % 4 = 3) :
    bodyPre0 a V c t ⊢ wp frame (wpE (defs₀ (F := F)) Variants.none c none) Set.univ (bodyAt0 a t) (fun _ => bodyPost0 a V c t) := by
  have h0 : t.val % 4 ≠ 0 := by omega
  have hc1 : ¬ k0_cond1 (grid0.coords t) = 1#1 := fun h => h0 ((k0_cond1_iff t).mp h)
  have hc2 : k0_cond2 (grid0.coords t) = 1#1 := (k0_cond2_iff t).mpr h3
  have hidle : (cfg0 a).idle 2 ((cfg0 a).grid.coords t) = false := by
    show (!(k0_cond2 (grid0.coords t) == 1#1)) = false
    rw [Bool.not_eq_false', beq_iff_eq]; exact hc2
  have hleaves : (dat0 a V c).leavesExact 2 t = owns (c : Thread nD τ) (st0_2 a t) fullShare ((dat0 a V c).after 2 t) := by
    unfold Dat.leavesExact; rw [hidle]
  unfold bodyPre0 bodyPost0 bodyAt0 Phi0 scr0
  rw [hleaves]
  simp only [before0_0, before0_1]
  rw [show (dat0 a V c).owesAt () t.succ = (dat0 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr0_step_next a V c t h0 acc xx hpure
  iapply (sound_kernel0_last c Set.univ (grid0.coords t) hc1 hc2 _ _ _ _ _ _ _ _ _ _ _ _ (iblk0 a V c 0 t) (iblk0 a V c 1 t) acc xx ((dat0 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred0]; exact hs
    isplitl [Hrest]; · iexact Hrest
    isplitl [Hprng]; · iexact Hprng
    iexact Hpref
  isplitl [Ho]; · iexact Ho
  isplitl [H0]; · dsimp only [dat0]; iexact H0
  isplitl [H1]; · dsimp only [dat0]; iexact H1
  dsimp only [dat0]; rw [← hs.1]; iexact H2

/-- The body at any point: by the three cases of j. -/
theorem sound_body0 (c : Dev nD) (t : Fin (cfg0 a).N) :
    bodyPre0 a V c t ⊢ wp frame (wpE (defs₀ (F := F)) Variants.none c none) Set.univ (bodyAt0 a t) (fun _ => bodyPost0 a V c t) := by
  by_cases h0 : t.val % 4 = 0
  · exact sound_body0_first a V c t h0
  · by_cases h3 : t.val % 4 = 3
    · exact sound_body0_last a V c t h3
    · exact sound_body0_mid a V c t h0 h3

/-- The library's body obligation, at every point. -/
theorem body_obligation0 (c : Dev nD) : BodyObligation (dat0 (F := F) a V c) (defs₀ (F := F)) Variants.none () Set.univ := fun t => by
  rw [bigSep_W0, bigSep_W0]
  exact sound_body0 a V c t

end Region0

end Cert.Kernel.Hand

end
-- ==== Proof.Body1K.lean ====
/-
  Region 1 (the rgb branch): at grid point t = 4b + j the body reads sample b's feature block [784, 768] and
  tile j (1024 rows) of the bank row the label table names, keeps in two scratch rows [1, 784] the running
  minimum over the tiles seen so far and the features' squared norms, both reset at j = 0, and stores the
  running minimum into the output block at j = 3. The proof data names what the two scratch rows hold after
  each point by recursion on the point, and the output block at j = 3 as the running minimum after it.
-/
import proofs.«428568_j19971597926436_3_alg».proof.Proof.Gen.Kernel.Launch
import proofs.«428568_j19971597926436_3_alg».proof.Proof.Gen.Kernel.Skeleton
import Idealize.ShloMosaic.Lib.Pipeline.FrameBody
import Idealize.ShloMosaic.Lib.Pipeline.Regions
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The body's function, case by case

The body's two conditions read the second grid coordinate j only: the first holds at j = 0 (both scratch rows are
made afresh), the second at j = 3 (the running minimum is stored into the output block). On any whole memrefs, from
the feature block v0, the bank tile v5, the scratch rows acc and xx and the output block d, the function leaves the
inputs as they were and
  * at j = 0 the norms row at the squared norms of v0 and the minimum row at the update of the reset row by the tile;
  * at j = 1, 2 the norms row as it was and the minimum row updated by the tile;
  * at j = 3 the same, and the output block at the updated minimum row, reshaped. -/

/-- The body's first condition, as its text computes it from the second grid coordinate. -/
abbrev k1_cond1 (i : grid1.Coords) : BitVec 1 :=
  Scalar.cmpi .ne (Scalar.extui (Scalar.cmpi .eq (BitVec.ofNat 32 (i 1).val) 0#32)) 0#32

theorem k1_zeros2 : (![0, 0] : Fin 2 → Nat) = fun _ => 0 := by funext a; fin_cases a <;> rfl
theorem k1_zeros3 : (![0, 0, 0] : Fin 3 → Nat) = fun _ => 0 := by funext a; fin_cases a <;> rfl

section Whole
variable {sg : RefSig} {κ : Kind} {sp : Space} {S : Shape} {e : EltTy} {Val : EltTy → Type}

/-- A load of the whole buffer, through the rectangle at zero offsets of the buffer's own sizes, reads the contents. -/
theorem k1_readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h inb]

/-- A store of the whole buffer, made last, leaves its payload whatever was stored before. -/
theorem k1_read_writes_whole [∀ e, Nonempty (Val e)] (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w]
end Whole

section Triples
/-- j = 1, 2: neither condition holds. -/
theorem sound_kernel1_mid (c : Dev nD) (E : Set ℕ) (i : grid1.Coords)
    (hc1 : ¬ k1_cond1 i = 1#1) (hc2 : ¬ k1_cond2 i = 1#1)
    (arg2 : Memref sig .tc .smem S16 .i32) (harg2 : arg2.IsWhole)
    (arg3 : Memref sig .tc .vmem S1x784x768 .f32) (harg3 : arg3.IsWhole)
    (arg4 : Memref sig .tc .vmem S1x1024x768 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x768 .f32) (v5 : Vec F S1x1024x768 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k1_pay5 v0 v5 xx acc) ∗ owns (c : Thread nD τ) arg7 fullShare xx) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k1_read_writes_whole _ _ k1_zeros2, k1_readAt_whole _ _ k1_zeros3, k1_readAt_whole _ _ k1_zeros3, k1_readAt_whole _ _ k1_zeros2, k1_readAt_whole _ _ k1_zeros2]
  iexists f7; isplitr; · ipureintro; rfl
  iexact H7

/-- j = 0: the first condition holds, the second does not. -/
theorem sound_kernel1_first (c : Dev nD) (E : Set ℕ) (i : grid1.Coords)
    (hc1 : k1_cond1 i = 1#1) (hc2 : ¬ k1_cond2 i = 1#1)
    (arg2 : Memref sig .tc .smem S16 .i32) (harg2 : arg2.IsWhole)
    (arg3 : Memref sig .tc .vmem S1x784x768 .f32) (harg3 : arg3.IsWhole)
    (arg4 : Memref sig .tc .vmem S1x1024x768 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x768 .f32) (v5 : Vec F S1x1024x768 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare d
            ∗ owns (c : Thread nD τ) arg6 fullShare (k1_pay5 v0 v5 (k1_pay4 v0) k1_pay3) ∗ owns (c : Thread nD τ) arg7 fullShare (k1_pay4 v0)) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    rw [k1_read_writes_whole _ _ k1_zeros2]
    sl_unfold_words
    rw [View.readCov_unit_zero _ k1_zeros2, View.readCov_unit_zero _ k1_zeros2, k1_readAt_whole _ _ k1_zeros3, k1_readAt_whole _ _ k1_zeros3]
  iexists _; isplitr
  swap; · iexact H7
  ipureintro
  sl_unfold_words
  rw [k1_read_writes_whole _ _ k1_zeros2, k1_readAt_whole _ _ k1_zeros3]

/-- j = 3: the second condition holds, the first does not. -/
theorem sound_kernel1_last (c : Dev nD) (E : Set ℕ) (i : grid1.Coords)
    (hc1 : ¬ k1_cond1 i = 1#1) (hc2 : k1_cond2 i = 1#1)
    (arg2 : Memref sig .tc .smem S16 .i32) (harg2 : arg2.IsWhole)
    (arg3 : Memref sig .tc .vmem S1x784x768 .f32) (harg3 : arg3.IsWhole)
    (arg4 : Memref sig .tc .vmem S1x1024x768 .f32) (harg4 : arg4.IsWhole)
    (arg5 : Memref sig .tc .vmem S1x1x784 .f32) (harg5 : arg5.IsWhole)
    (arg6 : Memref sig .tc .vmem S1x784 .f32) (harg6 : arg6.IsWhole)
    (arg7 : Memref sig .tc .vmem S1x784 .f32) (harg7 : arg7.IsWhole)
    (v0 : Vec F S1x784x768 .f32) (v5 : Vec F S1x1024x768 .f32) (acc xx : Vec F S1x784 .f32) (d : Vec F S1x1x784 .f32)
    (K : PUnit → sProp 𝕄) :
    iprop(owns (c : Thread nD τ) arg3 fullShare v0 ∗ owns (c : Thread nD τ) arg4 fullShare v5
        ∗ owns (c : Thread nD τ) arg5 fullShare d
        ∗ owns (c : Thread nD τ) arg6 fullShare acc ∗ owns (c : Thread nD τ) arg7 fullShare xx
        ∗ (iprop(owns (c : Thread nD τ) arg3 fullShare v0 ∗ owns (c : Thread nD τ) arg4 fullShare v5
            ∗ owns (c : Thread nD τ) arg5 fullShare (k1_pay1 (k1_pay5 v0 v5 xx acc))
            ∗ owns (c : Thread nD τ) arg6 fullShare (k1_pay5 v0 v5 xx acc) ∗ owns (c : Thread nD τ) arg7 fullShare xx) -∗ K ⟨⟩))
      ⊢ wp frame (wpE (defs₀ (F := F)) Variants.none c none) E (cc1_kernel i arg2 harg2 arg3 harg3 arg4 harg4 arg5 harg5 arg6 harg6 arg7 harg7) K := by
  simp only [cc1_kernel_eq_skeleton]; unfold cc1_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  sl_exec
  sl_step
  iapply Hk
  isplitl [H3]; · iexists f3; isplitr; · ipureintro; rfl
                  iexact H3
  isplitl [H4]; · iexists f4; isplitr; · ipureintro; rfl
                  iexact H4
  isplitl [H5]
  · iexists _; isplitr
    swap; · iexact H5
    ipureintro
    rw [k1_read_writes_whole (S := S1x1x784) _ _ k1_zeros3]
    sl_unfold_words
    rw [View.readCov_unit_zero _ k1_zeros2, k1_readAt_whole _ _ k1_zeros3, k1_readAt_whole _ _ k1_zeros3, k1_readAt_whole _ _ k1_zeros2, k1_readAt_whole _ _ k1_zeros2]
  isplitl [H6]
  · iexists _; isplitr
    swap; · iexact H6
    ipureintro
    sl_unfold_words
    rw [k1_read_writes_whole _ _ k1_zeros2, k1_readAt_whole _ _ k1_zeros3, k1_readAt_whole _ _ k1_zeros3, k1_readAt_whole _ _ k1_zeros2, k1_readAt_whole _ _ k1_zeros2]
  iexists f7; isplitr; · ipureintro; rfl
  iexact H7

end Triples

section Region1

variable (a : (pcfg1 (F := F)).Adm)
variable (V : (c : Dev nD) → (b : Ref sig .tc) → Buf (Elt F) ((c : Thread nD τ).loc b))

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- The grid has a first point. -/
theorem N1_pos : 0 < (cfg1 a).N := by
  show 0 < grid1.N
  rw [N_1]; exact Nat.succ_pos _

/-- The feature block and the bank tile at the point numbered t (numbers past the grid wrap; never read there). -/
def feat1 (c : Dev nD) (t : Nat) : Vec F S1x784x768 .f32 := iblk1 a V c 0 ⟨t % (cfg1 a).N, Nat.mod_lt _ (N1_pos a)⟩
def tile1 (c : Dev nD) (t : Nat) : Vec F S1x1024x768 .f32 := iblk1 a V c 1 ⟨t % (cfg1 a).N, Nat.mod_lt _ (N1_pos a)⟩

/-- What the two scratch rows (running minimum, squared norms) hold AFTER the point numbered t: at a point with
    j = 0 both are made afresh from the point's blocks, elsewhere the minimum is updated and the norms kept. -/
def sa1 (c : Dev nD) : Nat → Vec F S1x784 .f32 × Vec F S1x784 .f32
  | 0 => (k1_pay5 (feat1 a V c 0) (tile1 a V c 0) (k1_pay4 (feat1 a V c 0)) k1_pay3, k1_pay4 (feat1 a V c 0))
  | t + 1 =>
    if (t + 1) % 4 = 0 then
      (k1_pay5 (feat1 a V c (t + 1)) (tile1 a V c (t + 1)) (k1_pay4 (feat1 a V c (t + 1))) k1_pay3, k1_pay4 (feat1 a V c (t + 1)))
    else
      (k1_pay5 (feat1 a V c (t + 1)) (tile1 a V c (t + 1)) (sa1 c t).2 (sa1 c t).1, (sa1 c t).2)

/-- The scratch rows before point t: anything before the first point, else what the point before left. -/
def scr1 (c : Dev nD) (t : Fin ((cfg1 a).N + 1)) : sProp 𝕄 :=
  iprop(∃ (acc xx : Vec F S1x784 .f32),
    owns (c : Thread nD τ) (Memref.whole cc1_scratch0) fullShare acc ∗ owns (c : Thread nD τ) (Memref.whole cc1_scratch1) fullShare xx
      ∗ ⌜0 < t.val → acc = (sa1 a V c (t.val - 1)).1 ∧ xx = (sa1 a V c (t.val - 1)).2⌝)

/-- The region's invariant: the two scratch rows, every other scoped buffer that is no staging buffer of this
    call at some contents, the generator register, and the label table held whole at the admitted contents. -/
def Phi1 (c : Dev nD) (t : Fin ((cfg1 a).N + 1)) : sProp 𝕄 :=
  iprop(scr1 a V c t
    ∗ Pipeline.scopedRestBut (Ix := Unit) (Name := ℕ) (U := UR sig nD τ) (Lvl := ℕ) (Val := Elt F) spec1 c [cc1_scratch0, cc1_scratch1]
    ∗ (∃ r, prngReg c r)
    ∗ Pipeline.prefHeld (Ix := Unit) (Name := ℕ) (U := UR sig nD τ) (Lvl := ℕ) pre1 c (fun _ => fullShare) a.1)

/-- The proof data of pipeline 1 on core c. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => k1_pay1 (sa1 a V c t.val).1
  Φ t := Phi1 a V c t
  q _ := fullShare
  owed _ := 0

theorem A_eq1 (c : Dev nD) (w : Fin (cfg1 a).W) : (dat1 a V c).A w = V c (Pipeline.arrRef spec1 w) := by
  dsimp only [dat1]

/-! ### The schedule and the conditions over the grid's points

Point t = 4b + j has j = t mod 4. The output window's block index reads b only, so the block is written back
exactly at j = 3; the two conditions of the body are j = 0 and j = 3. -/

/-- The output window's write-backs are those of its index map, whatever the table holds. -/
theorem flush1_2 (t : Fin (cfg1 a).N) : ((cfg1 a).win 2).flush t = Pipeline.Window.flushOf grid1 true cc1_transform_2 t := rfl

theorem flushOf1_2 : ∀ t : Fin grid1.N, Pipeline.Window.flushOf grid1 true cc1_transform_2 t = decide (t.val % 4 = 3) := by decide

theorem k1_cond1_iff : ∀ t : Fin grid1.N, (k1_cond1 (grid1.coords t) = 1#1) ↔ t.val % 4 = 0 := by decide

theorem k1_cond2_iff : ∀ t : Fin grid1.N, (k1_cond2 (grid1.coords t) = 1#1) ↔ t.val % 4 = 3 := by decide

/-! ### What the input windows' buffers hold

The body leaves both input blocks in place, so each input's current buffer holds its block at every point, fetched
there or not: unfetched, the block index has not moved since the point before. -/

theorem before1_0 (c : Dev nD) (t : Fin (cfg1 a).N) (d) : (dat1 a V c).before 0 t d = iblk1 a V c 0 t :=
  ((dat1 a V c).before_in_eq_fetched 0 rfl (fun _ => rfl) (fun _ _ _ => rfl) (fun t => by dsimp only [dat1]; unfold Dat.blockOf iblk1; try rfl) t d).trans
    (by unfold Dat.fetched Dat.blockOf iblk1; try rfl)

theorem before1_1 (c : Dev nD) (t : Fin (cfg1 a).N) (d) : (dat1 a V c).before 1 t d = iblk1 a V c 1 t :=
  ((dat1 a V c).before_in_eq_fetched 1 rfl (fun _ => rfl) (fun _ _ _ => rfl) (fun t => by dsimp only [dat1]; unfold Dat.blockOf iblk1; try rfl) t d).trans
    (by unfold Dat.fetched Dat.blockOf iblk1; try rfl)

/-- At a point of the grid the numbered blocks are the point's. -/
theorem feat1_eq (c : Dev nD) (t : Fin (cfg1 a).N) : feat1 a V c t.val = (iblk1 a V c 0 t : Vec F S1x784x768 .f32) := by
  have h : (⟨t.val % (cfg1 a).N, Nat.mod_lt _ (N1_pos a)⟩ : Fin (cfg1 a).N) = t := Fin.ext (Nat.mod_eq_of_lt t.isLt)
  unfold feat1; rw [h]

theorem tile1_eq (c : Dev nD) (t : Fin (cfg1 a).N) : tile1 a V c t.val = (iblk1 a V c 1 t : Vec F S1x1024x768 .f32) := by
  have h : (⟨t.val % (cfg1 a).N, Nat.mod_lt _ (N1_pos a)⟩ : Fin (cfg1 a).N) = t := Fin.ext (Nat.mod_eq_of_lt t.isLt)
  unfold tile1; rw [h]

/-! ### The scratch rows, point by point -/

/-- After a point with j = 0 both rows are made afresh from the point's blocks. -/
theorem sa1_first (c : Dev nD) (n : Nat) (h : n % 4 = 0) :
    sa1 a V c n = (k1_pay5 (feat1 a V c n) (tile1 a V c n) (k1_pay4 (feat1 a V c n)) k1_pay3, k1_pay4 (feat1 a V c n)) := by
  cases n with
  | zero => rw [sa1]
  | succ m => rw [sa1, if_pos h]

/-- After a point with j ≠ 0 the minimum is updated by the point's tile and the norms are kept. -/
theorem sa1_next (c : Dev nD) (n : Nat) (h : n % 4 ≠ 0) :
    sa1 a V c n = (k1_pay5 (feat1 a V c n) (tile1 a V c n) (sa1 a V c (n - 1)).2 (sa1 a V c (n - 1)).1, (sa1 a V c (n - 1)).2) := by
  cases n with
  | zero => exact absurd rfl h
  | succ m => rw [sa1, if_neg h]; rfl

/-! ### The body at a point -/

/-- The current staging memref of each window at point t. -/
abbrev st1_0 (t : Fin (cfg1 a).N) := ((cfg1 a).win 0).stage ((cfg1 a).slots t 0)
abbrev st1_1 (t : Fin (cfg1 a).N) := ((cfg1 a).win 1).stage ((cfg1 a).slots t 1)
abbrev st1_2 (t : Fin (cfg1 a).N) := ((cfg1 a).win 2).stage ((cfg1 a).slots t 2)

/-- The kernel's function at point t, on what the pipeline calls it with. -/
abbrev bodyAt1 (t : Fin (cfg1 a).N) : Prog (TpuEff nD τ sig (Elt F) Λ₀ .tc) PUnit :=
  cc1_kernel (grid1.coords t) (Memref.whole main_arg6) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (Memref.whole cc1_scratch0) (Memref.isWhole_whole _) (Memref.whole cc1_scratch1) (Memref.isWhole_whole _)

/-- What the body is called with at point t, -/
def bodyPre1 (c : Dev nD) (t : Fin (cfg1 a).N) : sProp 𝕄 :=
  iprop(Phi1 a V c t.castSucc ∗ (dat1 a V c).owesAt () t.castSucc
    ∗ (∃ d, owns (c : Thread nD τ) (st1_0 a t) fullShare ((dat1 a V c).before 0 t d))
    ∗ (∃ d, owns (c : Thread nD τ) (st1_1 a t) fullShare ((dat1 a V c).before 1 t d))
    ∗ (∃ d, owns (c : Thread nD τ) (st1_2 a t) fullShare ((dat1 a V c).before 2 t d)))

/-- and what it returns. -/
def bodyPost1 (c : Dev nD) (t : Fin (cfg1 a).N) : sProp 𝕄 :=
  iprop(Phi1 a V c t.succ ∗ (dat1 a V c).owesAt () t.succ
    ∗ owns (c : Thread nD τ) (st1_0 a t) fullShare ((dat1 a V c).after 0 t)
    ∗ owns (c : Thread nD τ) (st1_1 a t) fullShare ((dat1 a V c).after 1 t)
    ∗ (dat1 a V c).leavesExact 2 t)

/-- The scratch rows after a point with j ≠ 0, from what they held before it. -/
theorem scr1_step_next (c : Dev nD) (t : Fin (cfg1 a).N) (h0 : t.val % 4 ≠ 0) (acc xx : Vec F S1x784 .f32)
    (hpure : 0 < t.castSucc.val → acc = (sa1 a V c (t.castSucc.val - 1)).1 ∧ xx = (sa1 a V c (t.castSucc.val - 1)).2) :
    k1_pay5 (iblk1 a V c 0 t) (iblk1 a V c 1 t) xx acc = (sa1 a V c t.val).1 ∧ xx = (sa1 a V c t.val).2 := by
  have hpos : 0 < t.val := Nat.pos_of_ne_zero (fun h => h0 (by rw [h]))
  obtain ⟨ha, hx⟩ := hpure hpos
  rw [sa1_next a V c t.val h0, feat1_eq, tile1_eq]
  exact ⟨by rw [ha, hx]; rfl, hx⟩

/-- The scratch rows after a point with j = 0, whatever they held before it. -/
theorem scr1_step_first (c : Dev nD) (t : Fin (cfg1 a).N) (h0 : t.val % 4 = 0) :
    k1_pay5 (iblk1 a V c 0 t) (iblk1 a V c 1 t) (k1_pay4 (iblk1 a V c 0 t)) k1_pay3 = (sa1 a V c t.val).1
      ∧ k1_pay4 (iblk1 a V c 0 t) = (sa1 a V c t.val).2 := by
  rw [sa1_first a V c t.val h0, feat1_eq, tile1_eq]
  exact ⟨rfl, rfl⟩

theorem succ_pred1 (t : Fin (cfg1 a).N) : t.succ.val - 1 = t.val := by rw [Fin.val_succ]; omega

/-- j = 1, 2: the output window is idle and not written back; its buffer is handed back as found. -/
theorem sound_body1_mid (c : Dev nD) (t : Fin (cfg1 a).N) (h0 : t.val % 4 ≠ 0) (h3 : t.val % 4 ≠ 3) :
    bodyPre1 a V c t ⊢ wp frame (wpE (defs₀ (F := F)) Variants.none c none) Set.univ (bodyAt1 a t) (fun _ => bodyPost1 a V c t) := by
  have hc1 : ¬ k1_cond1 (grid1.coords t) = 1#1 := fun h => h0 ((k1_cond1_iff t).mp h)
  have hc2 : ¬ k1_cond2 (grid1.coords t) = 1#1 := fun h => h3 ((k1_cond2_iff t).mp h)
  have hidle : (cfg1 a).idle 2 ((cfg1 a).grid.coords t) = true := by
    show (!(k1_cond2 (grid1.coords t) == 1#1)) = true
    rw [Bool.not_eq_true', beq_eq_false_iff_ne]; exact hc2
  have hflush : ((cfg1 a).win 2).flush t = false := by
    rw [flush1_2, flushOf1_2]; exact decide_eq_false h3
  unfold bodyPre1 bodyPost1 bodyAt1 Phi1 scr1
  rw [Dat.leavesExact_idle _ 2 t hidle hflush]
  simp only [before1_0, before1_1]
  rw [show (dat1 a V c).owesAt () t.succ = (dat1 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr1_step_next a V c t h0 acc xx hpure
  iapply (sound_kernel1_mid c Set.univ (grid1.coords t) hc1 hc2 _ _ _ _ _ _ _ _ _ _ _ _ (iblk1 a V c 0 t) (iblk1 a V c 1 t) acc xx ((dat1 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred1]; exact hs
    isplitl [Hrest]; · iexact Hrest
    isplitl [Hprng]; · iexact Hprng
    iexact Hpref
  isplitl [Ho]; · iexact Ho
  isplitl [H0]; · dsimp only [dat1]; iexact H0
  isplitl [H1]; · dsimp only [dat1]; iexact H1
  iexists d2; iexact H2

/-- j = 0: as above, the scratch rows reset; what they held is not read. -/
theorem sound_body1_first (c : Dev nD) (t : Fin (cfg1 a).N) (h0 : t.val % 4 = 0) :
    bodyPre1 a V c t ⊢ wp frame (wpE (defs₀ (F := F)) Variants.none c none) Set.univ (bodyAt1 a t) (fun _ => bodyPost1 a V c t) := by
  have h3 : t.val % 4 ≠ 3 := by omega
  have hc1 : k1_cond1 (grid1.coords t) = 1#1 := (k1_cond1_iff t).mpr h0
  have hc2 : ¬ k1_cond2 (grid1.coords t) = 1#1 := fun h => h3 ((k1_cond2_iff t).mp h)
  have hidle : (cfg1 a).idle 2 ((cfg1 a).grid.coords t) = true := by
    show (!(k1_cond2 (grid1.coords t) == 1#1)) = true
    rw [Bool.not_eq_true', beq_eq_false_iff_ne]; exact hc2
  have hflush : ((cfg1 a).win 2).flush t = false := by
    rw [flush1_2, flushOf1_2]; exact decide_eq_false h3
  unfold bodyPre1 bodyPost1 bodyAt1 Phi1 scr1
  rw [Dat.leavesExact_idle _ 2 t hidle hflush]
  simp only [before1_0, before1_1]
  rw [show (dat1 a V c).owesAt () t.succ = (dat1 a V c).owesAt () t.castSucc from rfl]
  iintro ⟨⟨⟨%acc, %xx, Hacc, Hxx, -⟩, Hrest, Hprng, Hpref⟩, Ho, ⟨%d0, H0⟩, ⟨%d1, H1⟩, ⟨%d2, H2⟩⟩
  have hs := scr1_step_first a V c t h0
  iapply (sound_kernel1_first c Set.univ (grid1.coords t) hc1 hc2 _ _ _ _ _ _ _ _ _ _ _ _ (iblk1 a V c 0 t) (iblk1 a V c 1 t) acc xx ((dat1 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred1]; exact hs
    isplitl [Hrest]; · iexact Hrest
    isplitl [Hprng]; · iexact Hprng
    iexact Hpref
  isplitl [Ho]; · iexact Ho
  isplitl [H0]; · dsimp only [dat1]; iexact H0
  isplitl [H1]; · dsimp only [dat1]; iexact H1
  iexists d2; iexact H2

/-- j = 3: the output window is live; its buffer takes the running minimum after the point. -/
theorem sound_body1_last (c : Dev nD) (t : Fin (cfg1 a).N) (h3 : t.val % 4 = 3) :
    bodyPre1 a V c t ⊢ wp frame (wpE (defs₀ (F := F)) Variants.none c none) Set.univ (bodyAt1 a t) (fun _ => bodyPost1 a V c t) := by
  have h0 : t.val % 4 ≠ 0 := by omega
  have hc1 : ¬ k1_cond1 (grid1.coords t) = 1#1 := fun h => h0 ((k1_cond1_iff t).mp h)
  have hc2 : k1_cond2 (grid1.coords t) = 1#1 := (k1_cond2_iff t).mpr h3
  have hidle : (cfg1 a).idle 2 ((cfg1 a).grid.coords t) = false := by
    show (!(k1_cond2 (grid1.coords t) == 1#1)) = false
    rw [Bool.not_eq_false', beq_iff_eq]; exact hc2
  have hleaves : (dat1 a V c).leavesExact 2 t = owns (c : Thread nD τ) (st1_2 a t) fullShare ((dat1 a V c).after 2 t) := by
    unfold Dat.leavesExact; rw [hidle]
  unfold bodyPre1 bodyPost1 bodyAt1 Phi1 scr1
  rw [hleaves]
  simp only [before1_0, before1_1]
  rw [show (dat1 a V c).owesAt () t.succ = (dat1 a V c).owesAt () t.castSucc from rfl]
  iintro ⟨⟨⟨%acc, %xx, Hacc, Hxx, %hpure⟩, Hrest, Hprng, Hpref⟩, Ho, ⟨%d0, H0⟩, ⟨%d1, H1⟩, ⟨%d2, H2⟩⟩
  have hs := scr1_step_next a V c t h0 acc xx hpure
  iapply (sound_kernel1_last c Set.univ (grid1.coords t) hc1 hc2 _ _ _ _ _ _ _ _ _ _ _ _ (iblk1 a V c 0 t) (iblk1 a V c 1 t) acc xx ((dat1 a V c).before 2 t d2) _)
  isplitl [H0]; · iexact H0
  isplitl [H1]; · iexact H1
  isplitl [H2]; · iexact H2
  isplitl [Hacc]; · iexact Hacc
  isplitl [Hxx]; · iexact Hxx
  iintro ⟨H0, H1, H2, Hacc, Hxx⟩
  isplitl [Hacc Hxx Hrest Hprng Hpref]
  · isplitl [Hacc Hxx]
    · iexists _, _
      isplitl [Hacc]; · iexact Hacc
      isplitl [Hxx]; · iexact Hxx
      ipureintro; intro _; rw [succ_pred1]; exact hs
    isplitl [Hrest]; · iexact Hrest
    isplitl [Hprng]; · iexact Hprng
    iexact Hpref
  isplitl [Ho]; · iexact Ho
  isplitl [H0]; · dsimp only [dat1]; iexact H0
  isplitl [H1]; · dsimp only [dat1]; iexact H1
  dsimp only [dat1]; rw [← hs.1]; iexact H2

/-- The body at any point: by the three cases of j. -/
theorem sound_body1 (c : Dev nD) (t : Fin (cfg1 a).N) :
    bodyPre1 a V c t ⊢ wp frame (wpE (defs₀ (F := F)) Variants.none c none) Set.univ (bodyAt1 a t) (fun _ => bodyPost1 a V c t) := by
  by_cases h0 : t.val % 4 = 0
  · exact sound_body1_first a V c t h0
  · by_cases h3 : t.val % 4 = 3
    · exact sound_body1_last a V c t h3
    · exact sound_body1_mid a V c t h0 h3

/-- The library's body obligation, at every point. -/
theorem body_obligation1 (c : Dev nD) : BodyObligation (dat1 (F := F) a V c) (defs₀ (F := F)) Variants.none () Set.univ := fun t => by
  rw [bigSep_W1, bigSep_W1]
  exact sound_body1 a V c t

end Region1

end Cert.Kernel.Hand

end
-- ==== Proof.RunK.lean ====
/-
  The run of @main. The program is nine items: a host stretch, the point branch's kernel call, a host stretch, the
  rgb branch's kernel call, and five host stretches. Between two items the core holds every unscoped buffer whole at
  a valuation: the launch memory, then what each host stretch computes, then, after a kernel call, the same with the
  call's output array replaced by what its output window's write-backs leave. Each call is entered by taking its three
  arrays and its label table out of the unscoped buffers, its two scratch rows out of the scoped ones, and is left by
  putting them back; the table is never written, so it goes back as it came.
-/
import proofs.«428568_j19971597926436_3_alg».proof.Proof.Body0K
import proofs.«428568_j19971597926436_3_alg».proof.Proof.Body1K
import proofs.«428568_j19971597926436_3_alg».proof.Proof.TblK
import proofs.«428568_j19971597926436_3_alg».proof.Proof.Gen.Kernel.Regions
import Idealize.ShloMosaic.Lib.Pipeline.Regions
import Idealize.ShloMosaic.Lib.Pipeline.RegionsLoop
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (hcl : InRange m)

/-- The first call's output array after its last point, everything else as launched. -/
def outs0 : Gen.Outs (F := F) := fun _ r c =>
  if h : r = main_v2 then
    h ▸ ((dat0 (adm m hcl 0) (fun c b => Gen.V1 m c b) c).arrAt 2 (cfg0 (adm m hcl 0)).N : Buf (Elt F) ((c : Thread nD τ).loc main_v2))
  else Gen.V0 m c r

/-- What the two regions leave in main_v2 and main_v7: the output window's array after the last point. -/
def outsOf : Gen.Outs (F := F) := fun J r c =>
  if h : r = main_v7 then
    h ▸ ((dat1 (adm m hcl 1) (fun c b => Gen.V3 m (outs0 m hcl) c b) c).arrAt 2 (cfg1 (adm m hcl 1)).N : Buf (Elt F) ((c : Thread nD τ).loc main_v7))
  else outs0 m hcl J r c

theorem outsOf_2 (c : Dev nD) : outsOf m hcl 2 main_v2 c = (dat0 (adm m hcl 0) (fun c b => Gen.V1 m c b) c).arrAt 2 (cfg0 (adm m hcl 0)).N := by
  unfold outsOf
  rw [dif_neg (by decide)]
  unfold outs0
  rw [dif_pos rfl]

/-- The second call's entry contents read of the first call's leavings only its output array. -/
theorem V3_outsOf (c : Dev nD) : Gen.V3 m (outsOf m hcl) c = Gen.V3 m (outs0 m hcl) c := by
  have h : outsOf m hcl 2 main_v2 c = outs0 m hcl 2 main_v2 c := by
    unfold outsOf; rw [dif_neg (by decide)]
  show StableHlo.after hostOps1 (Function.update (Gen.V1 m c) main_v2 (outsOf m hcl 2 main_v2 c))
    = StableHlo.after hostOps1 (Function.update (Gen.V1 m c) main_v2 (outs0 m hcl 2 main_v2 c))
  rw [h]

theorem outsOf_4 (c : Dev nD) : outsOf m hcl 4 main_v7 c = (dat1 (adm m hcl 1) (fun c b => Gen.V3 m (outsOf m hcl) c b) c).arrAt 2 (cfg1 (adm m hcl 1)).N := by
  have hV : (fun (c : Dev nD) (b : Ref sig .tc) => (Gen.V3 m (outsOf m hcl) c b : Buf (Elt F) ((c : Thread nD τ).loc b)))
      = fun (c : Dev nD) (b : Ref sig .tc) => (Gen.V3 m (outs0 m hcl) c b : Buf (Elt F) ((c : Thread nD τ).loc b)) :=
    funext fun c => by rw [V3_outsOf]
  rw [hV]
  unfold outsOf
  rw [dif_pos rfl]

/-- Every pipeline's proof data, each at its region's entry contents. -/
def pdats : (p : Fin 2) → (c : Dev nD) → Dat τ (Elt F) Unit ℕ (UR sig nD τ) ℕ (Pipeline.pin (pcfgs (F := F)) (adm m hcl) p) c
  | ⟨0, _⟩ => fun c => dat0 (adm m hcl 0) (fun c b => Gen.V1 m c b) c
  | ⟨1, _⟩ => fun c => dat1 (adm m hcl 1) (fun c b => Gen.V3 m (outsOf m hcl) c b) c

/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- The valuations around the two calls, read at the TensorCore's references. -/
abbrev T1 : (c : Dev nD) → (b : Ref sig .tc) → Buf (Elt F) ((c : Thread nD τ).loc b) := fun c b => Gen.V1 m c b
abbrev T2 : (c : Dev nD) → (b : Ref sig .tc) → Buf (Elt F) ((c : Thread nD τ).loc b) := fun c b => Gen.V2 m (outsOf m hcl) c b
abbrev T3 : (c : Dev nD) → (b : Ref sig .tc) → Buf (Elt F) ((c : Thread nD τ).loc b) := fun c b => Gen.V3 m (outsOf m hcl) c b
abbrev T4 : (c : Dev nD) → (b : Ref sig .tc) → Buf (Elt F) ((c : Thread nD τ).loc b) := fun c b => Gen.V4 m (outsOf m hcl) c b

/-- The label table as call 0 finds it: no item before the call writes it, so it is the launch memory's. -/
theorem tbl_entry0 (c : Dev nD) : (fun k => T1 m c (pre0.ref k)) = (adm m hcl 0).1 := by
  obtain rfl : c = 0 := Subsingleton.elim _ _
  rw [adm_val0]
  funext k
  match k with
  | ⟨0, _⟩ => exact Gen.V1_of m 0 main_arg6 (by decide)

/-- The label table as call 1 finds it: no item before the call writes it, so it is the launch memory's. -/
theorem tbl_entry1 (c : Dev nD) : (fun k => T3 m hcl c (pre1.ref k)) = (adm m hcl 1).1 := by
  obtain rfl : c = 0 := Subsingleton.elim _ _
  rw [adm_val1]
  funext k
  match k with
  | ⟨0, _⟩ => exact (Gen.V3_of m (outsOf m hcl) 0 main_arg6 (by decide)).trans <| (Gen.V2_of m (outsOf m hcl) 0 main_arg6 (by decide)).trans <| Gen.V1_of m 0 main_arg6 (by decide)

/-- The scoped buffers no window of call 0 stages, split at the call's two scratch rows, each whole at some contents. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

/-- Call 0's two scratch rows come out of those buffers at whatever they hold: before the first point nothing is
    asked of their contents. -/
theorem scopedRest_scr0 (a : (pcfg0 (F := F)).Adm) (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec0 c : sProp 𝕄)
      ⊢ iprop(scr0 a V c 0 ∗ Pipeline.scopedRestBut (Ix := Unit) (Name := ℕ) (U := UR sig nD τ) (Lvl := ℕ) (Val := Elt F) spec0 c [cc0_scratch0, cc0_scratch1]) := by
  rw [scopedRest0_split]
  unfold scr0
  iintro ⟨⟨⟨%f0, H0⟩, ⟨%f1, H1⟩⟩, Hb⟩
  isplitl [H0 H1]
  · iexists f0; iexists f1
    rewrite [owns_whole, owns_whole]
    isplitl [H0]; · iexact H0
    isplitl [H1]; · iexact H1
    ipureintro
    intro h; exact absurd h (Nat.lt_irrefl 0)
  · iexact Hb

/-- and go back among them after any point, their contents forgotten. -/
theorem scr0_scopedRest (a : (pcfg0 (F := F)).Adm) (V : (c : Dev nD) → (b : Ref sig .tc) → Buf (Elt F) ((c : Thread nD τ).loc b)) (c : Dev nD)
    (t : Fin ((cfg0 a).N + 1)) :
    iprop(scr0 a V c t ∗ Pipeline.scopedRestBut (Ix := Unit) (Name := ℕ) (U := UR sig nD τ) (Lvl := ℕ) (Val := Elt F) spec0 c [cc0_scratch0, cc0_scratch1])
      ⊢ (Pipeline.scopedRest (Ix := Unit) (Name := ℕ) (U := UR sig nD τ) (Lvl := ℕ) (Val := Elt F) spec0 c : sProp 𝕄) := by
  rw [scopedRest0_split]
  unfold scr0
  simp only [owns_whole]
  iintro ⟨⟨%acc, %xx, H0, H1, -⟩, Hb⟩
  isplitl [H0 H1]
  · isplitl [H0]
    · iexists _; iexact H0
    · iexists _; iexact H1
  · iexact Hb

/-- The scoped buffers no window of call 1 stages, split at the call's two scratch rows, each whole at some contents. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- Call 1's two scratch rows come out of those buffers at whatever they hold: before the first point nothing is
    asked of their contents. -/
theorem scopedRest_scr1 (a : (pcfg1 (F := F)).Adm) (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec1 c : sProp 𝕄)
      ⊢ iprop(scr1 a V c 0 ∗ Pipeline.scopedRestBut (Ix := Unit) (Name := ℕ) (U := UR sig nD τ) (Lvl := ℕ) (Val := Elt F) spec1 c [cc1_scratch0, cc1_scratch1]) := by
  rw [scopedRest1_split]
  unfold scr1
  iintro ⟨⟨⟨%f0, H0⟩, ⟨%f1, H1⟩⟩, Hb⟩
  isplitl [H0 H1]
  · iexists f0; iexists f1
    rewrite [owns_whole, owns_whole]
    isplitl [H0]; · iexact H0
    isplitl [H1]; · iexact H1
    ipureintro
    intro h; exact absurd h (Nat.lt_irrefl 0)
  · iexact Hb

/-- and go back among them after any point, their contents forgotten. -/
theorem scr1_scopedRest (a : (pcfg1 (F := F)).Adm) (V : (c : Dev nD) → (b : Ref sig .tc) → Buf (Elt F) ((c : Thread nD τ).loc b)) (c : Dev nD)
    (t : Fin ((cfg1 a).N + 1)) :
    iprop(scr1 a V c t ∗ Pipeline.scopedRestBut (Ix := Unit) (Name := ℕ) (U := UR sig nD τ) (Lvl := ℕ) (Val := Elt F) spec1 c [cc1_scratch0, cc1_scratch1])
      ⊢ (Pipeline.scopedRest (Ix := Unit) (Name := ℕ) (U := UR sig nD τ) (Lvl := ℕ) (Val := Elt F) spec1 c : sProp 𝕄) := by
  rw [scopedRest1_split]
  unfold scr1
  simp only [owns_whole]
  iintro ⟨⟨%acc, %xx, H0, H1, -⟩, Hb⟩
  isplitl [H0 H1]
  · isplitl [H0]
    · iexists _; iexact H0
    · iexists _; iexact H1
  · iexact Hb

/-- At call 0's exit each of its arrays holds what the pipeline leaves: the two input arrays are never written and
    the valuation after the call keeps them, the output array is the valuation's new entry. -/
theorem hF0 (c : Dev nD) (w : Fin (cfg0 (adm m hcl 0)).W) :
    (dat0 (adm m hcl 0) (fun c b => Gen.V1 m c b) c).arrAt w (cfg0 (adm m hcl 0)).N = T2 m hcl c (Pipeline.arrRef spec0 w) := by
  match w with
  | ⟨0, _⟩ =>
    exact ((dat0 (adm m hcl 0) (fun c b => Gen.V1 m c b) c).arrAt_in 0 rfl _).trans
      ((A_eq0 (adm m hcl 0) (fun c b => Gen.V1 m c b) c 0).trans (Gen.V2_of m (outsOf m hcl) c main_arg0 (by decide)).symm)
  | ⟨1, _⟩ =>
    exact ((dat0 (adm m hcl 0) (fun c b => Gen.V1 m c b) c).arrAt_in 1 rfl _).trans
      ((A_eq0 (adm m hcl 0) (fun c b => Gen.V1 m c b) c 1).trans (Gen.V2_of m (outsOf m hcl) c main_arg2 (by decide)).symm)
  | ⟨2, _⟩ =>
    have h : Gen.V2 m (outsOf m hcl) c main_v2 = outsOf m hcl 2 main_v2 c := Function.update_self _ _ _
    exact (outsOf_2 m hcl c).symm.trans h.symm

/-- and every other buffer what it held at entry. -/
theorem hrest0 (c : Dev nD) : ∀ b, b ∉ Finset.univ.image (Pipeline.arrRef spec0) → T2 m hcl c b = T1 m c b :=
  fun b hb => Gen.V2_of m (outsOf m hcl) c b fun h => hb (Finset.mem_image.mpr ⟨2, Finset.mem_univ _, (List.mem_singleton.mp h).symm⟩)

/-- At call 1's exit each of its arrays holds what the pipeline leaves: the two input arrays are never written and
    the valuation after the call keeps them, the output array is the valuation's new entry. -/
theorem hF1 (c : Dev nD) (w : Fin (cfg1 (adm m hcl 1)).W) :
    (dat1 (adm m hcl 1) (fun c b => Gen.V3 m (outsOf m hcl) c b) c).arrAt w (cfg1 (adm m hcl 1)).N = T4 m hcl c (Pipeline.arrRef spec1 w) := by
  match w with
  | ⟨0, _⟩ =>
    exact ((dat1 (adm m hcl 1) (fun c b => Gen.V3 m (outsOf m hcl) c b) c).arrAt_in 0 rfl _).trans
      ((A_eq1 (adm m hcl 1) (fun c b => Gen.V3 m (outsOf m hcl) c b) c 0).trans (Gen.V4_of m (outsOf m hcl) c main_arg1 (by decide)).symm)
  | ⟨1, _⟩ =>
    exact ((dat1 (adm m hcl 1) (fun c b => Gen.V3 m (outsOf m hcl) c b) c).arrAt_in 1 rfl _).trans
      ((A_eq1 (adm m hcl 1) (fun c b => Gen.V3 m (outsOf m hcl) c b) c 1).trans (Gen.V4_of m (outsOf m hcl) c main_arg3 (by decide)).symm)
  | ⟨2, _⟩ =>
    have h : Gen.V4 m (outsOf m hcl) c main_v7 = outsOf m hcl 4 main_v7 c := Function.update_self _ _ _
    exact (outsOf_4 m hcl c).symm.trans h.symm

/-- and every other buffer what it held at entry. -/
theorem hrest1 (c : Dev nD) : ∀ b, b ∉ Finset.univ.image (Pipeline.arrRef spec1) → T4 m hcl c b = T3 m hcl c b :=
  fun b hb => Gen.V4_of m (outsOf m hcl) c b fun h => hb (Finset.mem_image.mpr ⟨2, Finset.mem_univ _, (List.mem_singleton.mp h).symm⟩)

set_option backward.isDefEq.respectTransparency.types false in
/-- REGION 0: entered from every unscoped buffer at the valuation before it, left at the valuation after it. -/
def reg0 : Pipeline.RegionSeg (pcfgs (F := F)) (adm m hcl) (pdats m hcl) () defs₀ Variants.none (fun _ => ∅) (fun _ _ => 0) 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (adm m hcl 0) (fun c b => Gen.V1 m c b) c).loose
  hwaits := Pipeline.hwaits_of_owed_zero _ _ _ _ (fun _ => ∅) (fun _ _ => 0) 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsOf m hcl) c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (adm m hcl 0).1)
  Z c := Pipeline.unscopedRestP (Ix := Unit) (Name := ℕ) (U := UR sig nD τ) (Lvl := ℕ) pre0 spec0 c (T1 m c)
  hentry c := by
    rw [Pipeline.ownSems0_none]
    have hsplit := Pipeline.arrays_of_unscopedBufs (p := 0) (pcfgs (F := F)) (adm m hcl) (pdats m hcl) (launch0 (F := F)).win (launch0 (F := F)).arr_whole c
      ((pdats m hcl 0 c).share_full fun _ => rfl) (T1 m c) fun _ => rfl
    rw [Pipeline.unscopedBufs_held, Pipeline.unscopedRest_split (win := (Pipeline.pin (pcfgs (F := F)) (adm m hcl) 0).spec) preFacts0 c (T1 m c), tbl_entry0 m hcl c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hcl 0 c).Φ 0 = Phi0 (adm m hcl 0) (fun c b => Gen.V1 m c b) c 0 from rfl]; unfold Phi0
    iintro ⟨Hp, Ht, Hr⟩
    ihave Hs := (scopedRest_scr0 (adm m hcl 0) (fun c b => Gen.V1 m c b) c) $$ Hr
    icases Hs with ⟨Hs, Hb⟩
    isplitl [Hs]; · iexact Hs
    isplitl [Hb]; · iexact Hb
    isplitl [Hp]; · iexact Hp
    iexact Ht
  hout c := by
    rw [Pipeline.ownSems0_none, show (pdats m hcl 0 c).Φ (Fin.last _) = Phi0 (adm m hcl 0) (fun c b => Gen.V1 m c b) c (Fin.last _) from rfl]; unfold Phi0
    iintro ⟨Hs, Hb, Hp, Ht⟩
    isplitl [Hp Ht]
    · isplitl [Hp]; · iexact Hp
      iexact Ht
    isplitr; · iempintro
    iapply (scr0_scopedRest (adm m hcl 0) (fun c b => Gen.V1 m c b) c (Fin.last _))
    isplitl [Hs]; · iexact Hs
    iexact Hb
  hexit c := by
    have hjoin := Pipeline.unscopedBufs_of_arrays (p := 0) (pcfgs (F := F)) (adm m hcl) (Ix := Unit) (Name := ℕ) (U := UR sig nD τ) (Lvl := ℕ)
      (launch0 (F := F)).win (launch0 (F := F)).arr_whole c (pdats m hcl) ((pdats m hcl 0 c).share_full fun _ => rfl)
      (T1 m c) (T2 m hcl c) ((pdats m hcl 0 c).arrAt · (cfg0 (adm m hcl 0)).N) (hF0 m hcl c) (hrest0 m hcl c)
    rw [Pipeline.unscopedBufs_held, Pipeline.unscopedRest_split (win := (Pipeline.pin (pcfgs (F := F)) (adm m hcl) 0).spec) preFacts0 c (T1 m c), tbl_entry0 m hcl c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- REGION 1: entered from every unscoped buffer at the valuation before it, left at the valuation after it. -/
def reg1 : Pipeline.RegionSeg (pcfgs (F := F)) (adm m hcl) (pdats m hcl) () defs₀ Variants.none (fun _ => ∅) (fun _ _ => 0) 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (adm m hcl 1) (fun c b => Gen.V3 m (outsOf m hcl) c b) c).loose
  hwaits := Pipeline.hwaits_of_owed_zero _ _ _ _ (fun _ => ∅) (fun _ _ => 0) 1 fun _ _ => rfl
  pre c := iprop(StableHlo.held (c : Thread nD τ) (Pipeline.ucRefs τ sig) (Gen.V3 m (outsOf m hcl) c) ∗ R c)
  post c := iprop(StableHlo.held (c : Thread nD τ) (Pipeline.ucRefs τ sig) (Gen.V4 m (outsOf m hcl) c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (adm m hcl 1).1)
  Z c := Pipeline.unscopedRestP (Ix := Unit) (Name := ℕ) (U := UR sig nD τ) (Lvl := ℕ) pre1 spec1 c (T3 m hcl c)
  hentry c := by
    rw [Pipeline.ownSems0_none]
    have hsplit := Pipeline.arrays_of_unscopedBufs (p := 1) (pcfgs (F := F)) (adm m hcl) (pdats m hcl) (launch1 (F := F)).win (launch1 (F := F)).arr_whole c
      ((pdats m hcl 1 c).share_full fun _ => rfl) (T3 m hcl c) fun _ => rfl
    rw [Pipeline.unscopedBufs_held, Pipeline.unscopedRest_split (win := (Pipeline.pin (pcfgs (F := F)) (adm m hcl) 1).spec) preFacts1 c (T3 m hcl c), tbl_entry1 m hcl c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hcl 1 c).Φ 0 = Phi1 (adm m hcl 1) (fun c b => Gen.V3 m (outsOf m hcl) c b) c 0 from rfl]; unfold Phi1
    iintro ⟨Hp, Ht, Hr⟩
    ihave Hs := (scopedRest_scr1 (adm m hcl 1) (fun c b => Gen.V3 m (outsOf m hcl) c b) c) $$ Hr
    icases Hs with ⟨Hs, Hb⟩
    isplitl [Hs]; · iexact Hs
    isplitl [Hb]; · iexact Hb
    isplitl [Hp]; · iexact Hp
    iexact Ht
  hout c := by
    rw [Pipeline.ownSems0_none, show (pdats m hcl 1 c).Φ (Fin.last _) = Phi1 (adm m hcl 1) (fun c b => Gen.V3 m (outsOf m hcl) c b) c (Fin.last _) from rfl]; unfold Phi1
    iintro ⟨Hs, Hb, Hp, Ht⟩
    isplitl [Hp Ht]
    · isplitl [Hp]; · iexact Hp
      iexact Ht
    isplitr; · iempintro
    iapply (scr1_scopedRest (adm m hcl 1) (fun c b => Gen.V3 m (outsOf m hcl) c b) c (Fin.last _))
    isplitl [Hs]; · iexact Hs
    iexact Hb
  hexit c := by
    have hjoin := Pipeline.unscopedBufs_of_arrays (p := 1) (pcfgs (F := F)) (adm m hcl) (Ix := Unit) (Name := ℕ) (U := UR sig nD τ) (Lvl := ℕ)
      (launch1 (F := F)).win (launch1 (F := F)).arr_whole c (pdats m hcl) ((pdats m hcl 1 c).share_full fun _ => rfl)
      (T3 m hcl c) (T4 m hcl c) ((pdats m hcl 1 c).arrAt · (cfg1 (adm m hcl 1)).N) (hF1 m hcl c) (hrest1 m hcl c)
    rw [Pipeline.unscopedBufs_held, Pipeline.unscopedRest_split (win := (Pipeline.pin (pcfgs (F := F)) (adm m hcl) 1).spec) preFacts1 c (T3 m hcl c), tbl_entry1 m hcl c] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- THE LAUNCH: every weakly fair execution of @main from m terminates and ends with every unscoped buffer at the
    last valuation. -/
theorem run_main (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = Gen.V9 m (outsOf m hcl) c b) := by
  refine Pipeline.θ_run_regions_kit_dev (pcfgs (F := F)) (adm m hcl) (pdats m hcl) () (cellOf_inj (adm m hcl)) emb₁ defs₀ Variants.none (fun _ => ∅) (fun _ _ => 0) m ρ main
    (Gen.segs m (outsOf m hcl) Variants.none (fun _ => ∅) (fun _ _ => 0) (fun _ c => R c) () (adm m hcl) (pdats m hcl) (reg0 m hcl) (reg1 m hcl))
    (fun c Q => by
      rewrite [main_chain c, Pipeline.Seg.run_eq_chain,
        show (Gen.segs m (outsOf m hcl) Variants.none (fun _ => ∅) (fun _ _ => 0) (fun _ c => R c) () (adm m hcl) (pdats m hcl) (reg0 m hcl) (reg1 m hcl) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m hcl)) (cellOf_inj (adm m hcl))) (Pipeline.launchToks (Pipeline.pin (pcfgs (F := F)) (adm m hcl)) (cellOf_inj (adm m hcl))))
    (hu₀ := ?_)
    (T₀ := fun c => iprop(StableHlo.held (c : Thread nD τ) (Pipeline.ucRefs τ sig) (Gen.V0 m c) ∗ R c))
    (Tₙ := fun c => StableHlo.held (c : Thread nD τ) (Pipeline.ucRefs τ sig) (Gen.V9 m (outsOf m hcl) c))
    (hch := fun c => ⟨.rfl, .rfl, .rfl, .rfl, .rfl, .rfl, .rfl, .rfl, .rfl, sep_mono .rfl (by iintro ⟨-, H⟩; iexact H)⟩)
    (hinit := ?_)
    (QY := fun c s => ∀ b ∈ Pipeline.ucRefs τ sig, s.mem (((c : Thread nD τ)).1, b) = Gen.V9 m (outsOf m hcl) c b)
    (hfin := fun c s' => ?_) (hQ := fun _ h => h)
  · -- the launch element is the pipelines' own; no ghost resource beside it
    iintro Hu; imodintro
    isplitl [Hu]
    · iapply (show (ownU (initOf (Pipeline.cells (Pipeline.pin (pcfgs (F := F)) (adm m hcl)) (cellOf_inj (adm m hcl))) (Pipeline.launchToks (Pipeline.pin (pcfgs (F := F)) (adm m hcl)) (cellOf_inj (adm m hcl)))) : sProp 𝕄)
          ⊢ BI.own (emb₁ (initOf (Pipeline.cells (Pipeline.pin (pcfgs (F := F)) (adm m hcl)) (cellOf_inj (adm m hcl))) (Pipeline.launchToks (Pipeline.pin (pcfgs (F := F)) (adm m hcl)) (cellOf_inj (adm m hcl))))) from .rfl)
      iexact Hu
    iapply (show (BI.emp : sProp 𝕄) ⊢ bigSep Finset.univ (fun _ : Dev nD => (BI.emp : sProp 𝕄)) from by rw [BI.bigSep_emp_const])
    iempintro
  · -- the launch: every unscoped buffer at the launch memory, the generator register, the core owing nothing
    refine Pipeline.initEach (fun _ => ∅) (fun _ _ => 0) fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => (((c : Thread nD τ)).1, b)) (Gen.V9 m (outsOf m hcl) c) s')
    isplitl [Hh] <;> iassumption

end Run

end Cert.Kernel.Hand

end
-- ==== Proof.KArr0.lean ====
/-
  Region 0, from blocks to arrays. At grid point t = 4b + j the feature window's block is sample b's rows of the
  feature array (its index map ignores j), the bank window's block is rows 1024 j … 1024 j + 1023 of the bank the
  label table names at entry b, and the output window's block is row b of the output array, written back exactly
  at the points with j = 3. So each block entry is one array entry, the input arrays are never written, and row b
  of the output array after the run is what point 4b + 3 stored.
-/
import proofs.«428568_j19971597926436_3_alg».proof.Proof.Body0
import proofs.«428568_j19971597926436_3_alg».proof.Proof.Tbl
import Idealize.ShloMosaic.Lib.Pipeline.Value
import Idealize.ShloMosaic.Lib.Pipeline.Dat
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Arrays0

variable (a : (pcfg0 (F := F)).Adm)
variable (V : (c : Dev nD) → (b : Ref sig .tc) → Buf (Elt F) ((c : Thread nD τ).loc b))
variable (c : Dev nD)

/-- The grid's points run row-major: point t has coordinates (t / 4, t % 4). -/
theorem coords0 : ∀ t : Fin grid0.N, ((grid0.coords t) 0).val = t.val / 4 ∧ ((grid0.coords t) 1).val = t.val % 4 :=
  (by decide +kernel : ∀ t : Fin grid0.N, _)

/-- The feature window's block index at point t: (t / 4, 0, 0). -/
theorem index0_0 : ∀ t : Fin grid0.N, cc0_transform_0 (grid0.coords t) 0 = t.val / 4
    ∧ cc0_transform_0 (grid0.coords t) 1 = 0 ∧ cc0_transform_0 (grid0.coords t) 2 = 0 :=
  (by decide +kernel : ∀ t : Fin grid0.N, _)

/-- the input arrays are never written -/
theorem arrAt0_in0 (n : Nat) : (dat0 a V c).arrAt 0 n = V c main_arg0 :=
  ((dat0 a V c).arrAt_in 0 rfl n).trans (A_eq0 a V c 0)

/-- likewise the bank array -/
theorem arrAt0_in1 (n : Nat) : (dat0 a V c).arrAt 1 n = V c main_arg2 :=
  ((dat0 a V c).arrAt_in 1 rfl n).trans (A_eq0 a V c 1)

set_option maxHeartbeats 400000 in
/-- The feature window's block at point t, entry by entry: sample t / 4's rows. -/
theorem iblk0_0_apply (t : Fin (cfg0 a).N) (y : S1x784x1152.Idx) (i : S16x784x1152.Idx)
    (h0 : (i 0).val = t.val / 4) (h1 : (i 1).val = (y 1).val) (h2 : (i 2).val = (y 2).val) :
    iblk0 a V c 0 t y = V c main_arg0 i := by
  show V c main_arg0 ((((cfg0 a).win 0).blk t).view.emb y) = V c main_arg0 i
  refine congrArg (V c main_arg0) ?_
  funext ax; apply Fin.ext
  obtain ⟨e0, e1, e2⟩ := index0_0 t
  match ax with
  | ⟨0, _⟩ => show cc0_transform_0 (grid0.coords t) 0 * 1 + 1 * (y 0).val = (i 0).val; have hy : (y 0).val < 1 := (y 0).isLt; omega
  | ⟨1, _⟩ => show cc0_transform_0 (grid0.coords t) 1 * 784 + 1 * (y 1).val = (i 1).val; omega
  | ⟨2, _⟩ => show cc0_transform_0 (grid0.coords t) 2 * 1152 + 1 * (y 2).val = (i 2).val; omega

/-- the feature block at point 4b+j is sample b's rows -/
theorem feat0_apply (b : Fin 16) (j : Fin 4) (p : Fin 784) (d : Fin 1152) :
    feat0 a V c (4 * b.val + j.val) (ValueIdx.ix3 0 p d) = V c main_arg0 (ValueIdx.ix3 b p d) := by
  unfold feat0
  refine iblk0_0_apply a V c _ _ _ ?_ rfl rfl
  have hN : (cfg0 a).N = 64 := N_0
  show b.val = (4 * b.val + j.val) % (cfg0 a).N / 4
  rw [hN]; omega

/-- The bank window's block index at point t: (the label at entry t / 4, t % 4, 0). -/
theorem index0_1 (t : Fin (cfg0 a).N) :
    ((cfg0 a).win 1).index t = ![(a.1 0 (lab (grid0.coords t))).toNat, ((grid0.coords t) 1).val, 0] :=
  transform1_0 a.1 (grid0.coords t)

set_option maxHeartbeats 400000 in
/-- The bank window's block at point t, entry by entry: rows 1024 (t % 4) … of the bank the label at entry t / 4 names. -/
theorem iblk0_1_apply (t : Fin (cfg0 a).N) (y : S1x1024x1152.Idx) (i : S10x4096x1152.Idx) (x : S16.Idx)
    (hx : (x 0).val = t.val / 4)
    (h0 : (i 0).val = (a.1 0 x).toNat) (h1 : (i 1).val = 1024 * (t.val % 4) + (y 1).val) (h2 : (i 2).val = (y 2).val) :
    iblk0 a V c 1 t y = V c main_arg2 i := by
  show V c main_arg2 ((((cfg0 a).win 1).blk t).view.emb y) = V c main_arg2 i
  refine congrArg (V c main_arg2) ?_
  funext ax; apply Fin.ext
  obtain ⟨c0, c1⟩ := coords0 t
  have hl : lab (grid0.coords t) = x := by
    funext k; apply Fin.ext
    match k with
    | ⟨0, _⟩ => show ((grid0.coords t) 0).val = (x 0).val; omega
  have e := index0_1 a t
  rw [hl] at e
  match ax with
  | ⟨0, _⟩ =>
    show ((cfg0 a).win 1).index t (0 : Fin 3) * 1 + 1 * (y 0).val = (i 0).val
    rw [e]; show (a.1 0 x).toNat * 1 + 1 * (y 0).val = (i 0).val
    have hy : (y 0).val < 1 := (y 0).isLt; omega
  | ⟨1, _⟩ =>
    show ((cfg0 a).win 1).index t (1 : Fin 3) * 1024 + 1 * (y 1).val = (i 1).val
    rw [e]; show ((grid0.coords t) 1).val * 1024 + 1 * (y 1).val = (i 1).val
    omega
  | ⟨2, _⟩ =>
    show ((cfg0 a).win 1).index t (2 : Fin 3) * 1152 + 1 * (y 2).val = (i 2).val
    rw [e]; show 0 * 1152 + 1 * (y 2).val = (i 2).val
    omega

/-- the bank tile at point 4b+j is rows 1024 j … 1024 j + 1023 of the bank the label names -/
theorem tile0_apply (hcl : ∀ x : S16.Idx, (a.1 0 x).toNat < 10) (b : Fin 16) (j : Fin 4) (r : Fin 1024) (d : Fin 1152) :
    tile0 a V c (4 * b.val + j.val) (ValueIdx.ix3 0 r d)
      = V c main_arg2 (ValueIdx.ix3 (⟨(a.1 0 (ValueIdx.ix1 b)).toNat, hcl _⟩ : Fin 10) (⟨1024 * j.val + r.val, by omega⟩ : Fin 4096) d) := by
  unfold tile0
  have hN : (cfg0 a).N = 64 := N_0
  refine iblk0_1_apply a V c _ _ _ (ValueIdx.ix1 b) ?_ rfl ?_ rfl
  · show b.val = (4 * b.val + j.val) % (cfg0 a).N / 4
    rw [hN]; omega
  · show 1024 * j.val + r.val = 1024 * ((4 * b.val + j.val) % (cfg0 a).N % 4) + r.val
    rw [hN]; omega

/-- The output window's block index at point t: (t / 4, 0, 0). -/
theorem index0_2 : ∀ t : Fin grid0.N, cc0_transform_2 (grid0.coords t) 0 = t.val / 4
    ∧ cc0_transform_2 (grid0.coords t) 1 = 0 ∧ cc0_transform_2 (grid0.coords t) 2 = 0 :=
  (by decide +kernel : ∀ t : Fin grid0.N, _)

/-- What the output array holds after the run, as one function: row b is the running minimum after point 4b + 3. -/
def out0 : S16x1x784.Idx → Elt F .f32 :=
  fun i => k0_pay1 (sa0 a V c (4 * (i 0).val + 3)).1 (ValueIdx.ix3 (0 : Fin 1) (0 : Fin 1) (⟨(i 2).val, (i 2).isLt⟩ : Fin 784))

set_option maxHeartbeats 400000 in
/-- The output window is written back exactly at the points with j = 3, and what such a point writes back is its
    block of that function. -/
theorem flushed0_2_eq (t : Fin (cfg0 a).N) (hf : ((cfg0 a).win 2).flush t = true) :
    (dat0 a V c).flushed 2 t = (((cfg0 a).win 2).blk t).view.read (Elt F) (out0 a V c) := by
  rw [flush0_2, flushOf0_2, decide_eq_true_eq] at hf
  obtain ⟨e0, e1, e2⟩ := index0_2 t
  refine funext fun (y : S1x1x784.Idx) => ?_
  show (dat0 a V c).after 2 t (((cfg0 a).win 2).xinj ((cfg0 a).grid.coords t) y) = out0 a V c ((((cfg0 a).win 2).blk t).view.emb y)
  dsimp only [dat0]
  unfold out0
  have hy0 : (y 0).val < 1 := (y 0).isLt
  have hy1 : (y 1).val < 1 := (y 1).isLt
  have h0 : ((((cfg0 a).win 2).blk t).view.emb y (0 : Fin 3)).val = t.val / 4 := by
    show cc0_transform_2 (grid0.coords t) 0 * 1 + 1 * (y 0).val = t.val / 4
    omega
  have h2 : ((((cfg0 a).win 2).blk t).view.emb y (2 : Fin 3)).val = (y 2).val := by
    show cc0_transform_2 (grid0.coords t) 2 * 784 + 1 * (y 2).val = (y 2).val
    omega
  have hs : 4 * ((((cfg0 a).win 2).blk t).view.emb y (0 : Fin 3)).val + 3 = t.val := by rw [h0]; omega
  rw [hs]
  refine congrArg (k0_pay1 (sa0 a V c t.val).1) ?_
  funext ax; apply Fin.ext
  match ax with
  | ⟨0, _⟩ => show (y 0).val = 0; omega
  | ⟨1, _⟩ => show (y 1).val = 0; omega
  | ⟨2, _⟩ => show (y 2).val = ((((cfg0 a).win 2).blk t).view.emb y (2 : Fin 3)).val; rw [h2]
set_option maxHeartbeats 400000 in
/-- the output array after the run: row b is what point 4b+3 stored -/
theorem arrAt0_out (b : Fin 16) (p : Fin 784) :
    (dat0 a V c).arrAt 2 (cfg0 a).N (ValueIdx.ix3 b 0 p) = k0_pay1 (sa0 a V c (4 * b.val + 3)).1 (ValueIdx.ix3 0 0 p) := by
  have hN : (cfg0 a).N = 64 := N_0
  let t : Fin (cfg0 a).N := ⟨4 * b.val + 3, by rw [hN]; omega⟩
  have hf : ((cfg0 a).win 2).flush t = true := by
    rw [flush0_2, flushOf0_2, decide_eq_true_eq]; show (4 * b.val + 3) % 4 = 3; omega
  obtain ⟨e0, e1, e2⟩ := index0_2 t
  have hemb : (((cfg0 a).win 2).blk t).view.emb (ValueIdx.ix3 (0 : Fin 1) (0 : Fin 1) p) = (ValueIdx.ix3 b (0 : Fin 1) p : S16x1x784.Idx) := by
    funext ax; apply Fin.ext
    match ax with
    | ⟨0, _⟩ => show cc0_transform_2 (grid0.coords t) 0 * 1 + 1 * 0 = b.val; rw [e0]; show (4 * b.val + 3) / 4 * 1 + 1 * 0 = b.val; omega
    | ⟨1, _⟩ => show cc0_transform_2 (grid0.coords t) 1 * 1 + 1 * 0 = 0; omega
    | ⟨2, _⟩ => show cc0_transform_2 (grid0.coords t) 2 * 784 + 1 * p.val = p.val; omega
  have hmem := (((cfg0 a).win 2).blk t).view.emb_mem_set (ValueIdx.ix3 (0 : Fin 1) (0 : Fin 1) p)
  rw [hemb] at hmem
  exact (dat0 a V c).arrAt_apply_of_mem 2 (out0 a V c) (flushed0_2_eq a V c) (cfg0 a).N t _ t.isLt hf hmem

end Arrays0

end Cert.KernelIdeal.Hand

end
-- ==== Proof.KVal0.lean ====
/-
  The value of region 0 at the extended reals. Each payload of the body is read at an index: the squared-norm
  row at column p is Σ_d x[p,d]², and the updated running minimum at column p is the smaller of the old one and
  the minimum, from +∞, over the tile's 1024 rows of the clipped distance written (Σy² + Σx²) − 2·Σ y·x. After
  the fourth tile of a sample the running minimum is the minimum over all 4096 rows of the bank the sample's
  label names: the four partial minima from +∞ fold into one, because min is associative, commutative and
  idempotent, and the two arrangements of the squared distance agree because + and · commute. The output
  array's row b is that running minimum.
-/
import proofs.«428568_j19971597926436_3_alg».proof.Proof.Body0
import proofs.«428568_j19971597926436_3_alg».proof.Proof.Spec
import proofs.«428568_j19971597926436_3_alg».proof.Proof.KArr0
import Mathlib.Order.Basic
import Mathlib.Data.Finset.Fold
import Mathlib.Algebra.BigOperators.Group.Finset.Defs
import Mathlib.Algebra.BigOperators.Group.Finset.Basic
import Mathlib.Data.EReal.Basic
import Idealize.ShloMosaic.Lib.ValueIdx
import Idealize.ShloMosaic.Lib.Pipeline.Value
import Idealize.ShloMosaic.Lib.Pipeline.Dat
import Idealize.ShloMosaic.Lib.ValueLayout
import Idealize.ShloMosaic.PureOps.Ideal.Laws
import Idealize.ShloMosaic.PureOps.Reduce

set_option maxRecDepth 16384

noncomputable section

namespace Cert.KernelIdeal.KVal

open Cert.KernelIdeal Cert.KernelIdeal.Gen Cert.KernelIdeal.Hand Idealize.ShloMosaic
open Idealize.ShloMosaic.TcCoe Idealize.SL.Sem
open Idealize.ShloMosaic.Pipeline (Dat Cfg Window)

/-- A vector cast to a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (i, c), the column's entry i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ValueIdx.ix2 i c) = v (ValueIdx.ix2 i (0 : Fin 1)) := by
  refine broadcastTo_apply v h (ValueIdx.ix2 i c) (ValueIdx.ix2 i (0 : Fin 1)) fun ax => ?_
  match ax with
  | ⟨0, _⟩ =>
    show i.val = if a = 1 then 0 else i.val
    split
    · have := i.isLt; omega
    · rfl
  | ⟨1, _⟩ => rfl

/-- The feature block [1, 784, 1152] as a matrix. -/
theorem pay2_apply (v0 : Vec Ideal S1x784x1152 .f32) (p : Fin 784) (d : Fin 1152) :
    k0_pay2 (F := Ideal) v0 (ValueIdx.ix2 p d) = v0 (ValueIdx.ix3 0 p d) := by
  unfold k0_pay2
  exact ValueIdx.shapeCast_1ab_ab_apply v0 _ p d

/-- The index a sum along a [784, 1152] matrix's rows inserts. -/
theorem lift_row_784 (h : S784x1152.Reduces [1] S784) (p : Fin 784) (d : Fin 1152) :
    h.lift (ValueIdx.ix1 p) d = ValueIdx.ix2 p d := by
  funext ax; apply Fin.ext
  match ax with
  | ⟨0, _⟩ => rfl
  | ⟨1, _⟩ => rfl

/-- The squared-norm row at column p. -/
theorem pay4_apply (v0 : Vec Ideal S1x784x1152 .f32) (p : Fin 784) :
    k0_pay4 (F := Ideal) v0 (ValueIdx.ix2 0 p) = Cert.Spec.sq (fun d => v0 (ValueIdx.ix3 0 p d)) := by
  unfold k0_pay4
  rw [shapeCast_self]
  refine (ValueIdx.shapeCast_a_1a_apply _ _ 0 p).trans ?_
  refine (Ideal.multiReduction_add_single _ _ _ _ _ _).trans ?_
  unfold Cert.Spec.sq
  refine Finset.sum_congr rfl fun (d : Fin 1152) _ => ?_
  show mulf (k0_pay2 v0) (k0_pay2 v0) (reduces_S784x1152_S784.lift (ValueIdx.ix1 p) d) = v0 (ValueIdx.ix3 0 p d) * v0 (ValueIdx.ix3 0 p d)
  rw [lift_row_784 _ p d, ValueIdx.mulf_apply, pay2_apply]

/-- The square root at an index. -/
theorem sqrt_apply {s : Shape} {φ : FTy} (x : FVec Ideal s φ) (i : s.Idx) : sqrt x i = Ideal.sqrt (x i) := rfl

/-- A minimum along one axis, read at the extended reals: the fold of min from the accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The index a sum along a [1024, 1152] matrix's rows inserts. -/
theorem lift_row_1024 (h : S1024x1152.Reduces [1] S1024) (r : Fin 1024) (d : Fin 1152) :
    h.lift (ValueIdx.ix1 r) d = ValueIdx.ix2 r d := by
  funext ax; apply Fin.ext
  match ax with
  | ⟨0, _⟩ => rfl
  | ⟨1, _⟩ => rfl

/-- The index a minimum down a [1024, 784] matrix's columns inserts. -/
theorem lift_col_784 (h : S1024x784.Reduces [0] S784) (p : Fin 784) (r : Fin 1024) :
    h.lift (ValueIdx.ix1 p) r = ValueIdx.ix2 r p := by
  funext ax; apply Fin.ext
  match ax with
  | ⟨0, _⟩ => rfl
  | ⟨1, _⟩ => rfl

/-- The bank tile [1, 1024, 1152] as a matrix. -/
theorem tileMat_apply (v5 : Vec Ideal S1x1024x1152 .f32) (r : Fin 1024) (d : Fin 1152) :
    shapeCast S1024x1152 v5 shapeCasts_S1x1024x1152_S1024x1152 (ValueIdx.ix2 r d) = v5 (ValueIdx.ix3 0 r d) :=
  ValueIdx.shapeCast_1ab_ab_apply v5 _ r d

/-- The tile rows' squared norms, as a column broadcast along the rows: at (r, p) it is Σ_d y[r,d]². -/
theorem ysq_apply (v6 : FVec Ideal S1024x1152 .f32) (r : Fin 1024) (p : Fin 784) :
    broadcastTo S1024x784 (shapeCast S1024x1 (multiReduction (F := Ideal) .add [1] S1024 (mulf v6 v6) 0x00000000#32 reduces_S1024x1152_S1024 (.inl rfl) rfl)
        shapeCasts_S1024_S1024x1) broadcasts_S1024x1_S1024x784 (ValueIdx.ix2 r p)
      = ∑ d : Fin 1152, v6 (ValueIdx.ix2 r d) * v6 (ValueIdx.ix2 r d) := by
  refine (broadcastTo_a1_ab_apply _ _ r p).trans ?_
  refine (shapeCast_a_a1_apply _ _ r 0).trans ?_
  refine (Ideal.multiReduction_add_single _ _ _ _ _ _).trans ?_
  refine Finset.sum_congr rfl fun (d : Fin 1152) _ => ?_
  show mulf v6 v6 (reduces_S1024x1152_S1024.lift (ValueIdx.ix1 r) d) = _
  rw [lift_row_1024 _ r d, ValueIdx.mulf_apply]

theorem lhs_mm_0 (i : S1024x784.Idx) (q : dot_S1024x1152_S784x1152_S1024x784_1_1_0_0_n_n.contr.Idx) :
    (dot_S1024x1152_S784x1152_S1024x784_1_1_0_0_n_n.lhsIdx i q 0).val = (i 0).val := by
  unfold DotDims.lhsIdx
  rw [dif_neg (show ¬(0 : Fin S1024x1152.rank) ∈ dot_S1024x1152_S784x1152_S1024x784_1_1_0_0_n_n.lhsBatch by decide), dif_pos (show (0 : Fin S1024x1152.rank) ∈ dot_S1024x1152_S784x1152_S1024x784_1_1_0_0_n_n.lhsNonContracting by decide)]
  rfl
theorem lhs_mm_1 (i : S1024x784.Idx) (q : dot_S1024x1152_S784x1152_S1024x784_1_1_0_0_n_n.contr.Idx) :
    (dot_S1024x1152_S784x1152_S1024x784_1_1_0_0_n_n.lhsIdx i q 1).val = (q ⟨0, by decide⟩).val :=
  dot_S1024x1152_S784x1152_S1024x784_1_1_0_0_n_n.lhsIdx_val_of_single rfl i q
theorem rhs_mm_0 (i : S1024x784.Idx) (q : dot_S1024x1152_S784x1152_S1024x784_1_1_0_0_n_n.contr.Idx) :
    (dot_S1024x1152_S784x1152_S1024x784_1_1_0_0_n_n.rhsIdx i q 0).val = (i 1).val := by
  unfold DotDims.rhsIdx
  rw [dif_neg (show ¬(0 : Fin S784x1152.rank) ∈ dot_S1024x1152_S784x1152_S1024x784_1_1_0_0_n_n.rhsBatch by decide), dif_pos (show (0 : Fin S784x1152.rank) ∈ dot_S1024x1152_S784x1152_S1024x784_1_1_0_0_n_n.rhsNonContracting by decide)]
  rfl
theorem rhs_mm_1 (i : S1024x784.Idx) (q : dot_S1024x1152_S784x1152_S1024x784_1_1_0_0_n_n.contr.Idx) :
    (dot_S1024x1152_S784x1152_S1024x784_1_1_0_0_n_n.rhsIdx i q 1).val = (q ⟨0, by decide⟩).val :=
  dot_S1024x1152_S784x1152_S1024x784_1_1_0_0_n_n.rhsIdx_val_of_single rfl i q

/-- The product of the tile with the features' transpose into a zero accumulator: at (r, p) it is Σ_k y[r,k] · x[p,k]. -/
theorem mm_apply (A : FVec Ideal S1024x1152 .bf16) (B : FVec Ideal S784x1152 .bf16) (r : Fin 1024) (p : Fin 784) :
    matmul dot_S1024x1152_S784x1152_S1024x784_1_1_0_0_n_n none A B (constant (F := Ideal) S1024x784 .f32 0x00000000#32) (ValueIdx.ix2 r p)
      = ∑ k : Fin 1152, A (ValueIdx.ix2 r k) * B (ValueIdx.ix2 p k) := by
  simp only [matmul]
  rw [Ideal.matmul_constant_zero_apply, ← Equiv.sum_comp (ValueIdx.contrEquiv1 dot_S1024x1152_S784x1152_S1024x784_1_1_0_0_n_n 1152 rfl rfl).symm]
  refine Finset.sum_congr rfl fun k _ => ?_
  have hk := ValueIdx.contrEquiv1_symm_val dot_S1024x1152_S784x1152_S1024x784_1_1_0_0_n_n 1152 rfl rfl k
  have el : dot_S1024x1152_S784x1152_S1024x784_1_1_0_0_n_n.lhsIdx (ValueIdx.ix2 r p) ((ValueIdx.contrEquiv1 dot_S1024x1152_S784x1152_S1024x784_1_1_0_0_n_n 1152 rfl rfl).symm k) = ValueIdx.ix2 r k := funext fun a => Fin.ext (by
    match a with
    | ⟨0, _⟩ => exact lhs_mm_0 _ _
    | ⟨1, _⟩ => exact (lhs_mm_1 _ _).trans hk)
  have er : dot_S1024x1152_S784x1152_S1024x784_1_1_0_0_n_n.rhsIdx (ValueIdx.ix2 r p) ((ValueIdx.contrEquiv1 dot_S1024x1152_S784x1152_S1024x784_1_1_0_0_n_n 1152 rfl rfl).symm k) = ValueIdx.ix2 p k := funext fun a => Fin.ext (by
    match a with
    | ⟨0, _⟩ => exact rhs_mm_0 _ _
    | ⟨1, _⟩ => exact (rhs_mm_1 _ _).trans hk)
  rw [el, er]

/-- The row of +∞ words. -/
theorem pay3_apply (p : Fin 784) : k0_pay3 (F := Ideal) (ValueIdx.ix2 0 p) = Cert.Spec.pinf := by
  unfold k0_pay3
  rw [shapeCast_self]
  rfl

/-- The minimum down a [1024, 784] matrix's columns from +∞, as a row: at column p the fold of min over the 1024 rows. -/
theorem colmin_apply (W : FVec Ideal S1024x784 .f32) (p : Fin 784) :
    shapeCast S1x784 (multiReduction (F := Ideal) .minimumf [0] S784 W 0x7F800000#32 reduces_S1024x784_S784 (.inl rfl) rfl)
        shapeCasts_S784_S1x784 (ValueIdx.ix2 0 p)
      = (Finset.univ : Finset (Fin 1024)).fold min Cert.Spec.pinf fun r => W (ValueIdx.ix2 r p) := by
  refine (ValueIdx.shapeCast_a_1a_apply _ _ 0 p).trans ?_
  refine (multiReduction_minimumf_single _ _ _ _ _ _).trans ?_
  refine Finset.fold_congr fun (r : Fin 1024) _ => ?_
  show W (reduces_S1024x784_S784.lift (ValueIdx.ix1 p) r) = W (ValueIdx.ix2 r p)
  rw [lift_col_784 _ p r]

/-- The updated running minimum at column p. -/
theorem pay5_apply (v0 : Vec Ideal S1x784x1152 .f32) (v5 : Vec Ideal S1x1024x1152 .f32) (v13 v27 : Vec Ideal S1x784 .f32) (p : Fin 784) :
    k0_pay5 (F := Ideal) v0 v5 v13 v27 (ValueIdx.ix2 0 p)
      = min (v27 (ValueIdx.ix2 0 p)) ((Finset.univ : Finset (Fin 1024)).fold min Cert.Spec.pinf fun r =>
          Ideal.sqrt (min Cert.Spec.hi (max Cert.Spec.lo ((Cert.Spec.sq (fun d => v5 (ValueIdx.ix3 0 r d)) + v13 (ValueIdx.ix2 0 p))
            - Cert.Spec.two * ∑ d, v5 (ValueIdx.ix3 0 r d) * v0 (ValueIdx.ix3 0 p d))))) := by
  unfold k0_pay5
  rw [shapeCast_self]
  refine congrArg (min (v27 (ValueIdx.ix2 0 p))) ?_
  refine (colmin_apply _ p).trans ?_
  refine Finset.fold_congr fun (r : Fin 1024) _ => ?_
  refine congrArg Ideal.sqrt ?_
  refine congrArg (min Cert.Spec.hi) (congrArg (max Cert.Spec.lo) ?_)
  refine congrArg₂ (· - ·) (congrArg₂ (· + ·) ?_ ?_) (congrArg (Cert.Spec.two * ·) ?_)
  · refine (ysq_apply _ r p).trans ?_
    unfold Cert.Spec.sq
    exact Finset.sum_congr rfl fun d _ => congrArg₂ (· * ·) (tileMat_apply v5 r d) (tileMat_apply v5 r d)
  · exact ValueIdx.broadcastTo_1b_ab_apply v13 _ r p
  · refine (mm_apply _ _ r p).trans ?_
    exact Finset.sum_congr rfl fun d _ => congrArg₂ (· * ·) (tileMat_apply v5 r d) (pay2_apply v0 p d)

/-- Four partial minima from one start, over the four quarters of 4096 rows, fold into the minimum over all rows:
    a bound is below the one exactly when it is below the other. -/
theorem fold_min_tiles (b : EReal) (g : Fin 4096 → EReal) (T : Fin 4 → Fin 1024 → EReal)
    (hT : ∀ (j : Fin 4) (r : Fin 1024), T j r = g ⟨1024 * j.val + r.val, by omega⟩) :
    min (min (min (min b (Finset.univ.fold min b (T 0))) (Finset.univ.fold min b (T 1))) (Finset.univ.fold min b (T 2)))
        (Finset.univ.fold min b (T 3))
      = (Finset.univ : Finset (Fin 4096)).fold min b g := by
  refine eq_of_forall_le_iff fun c => ?_
  simp only [le_min_iff, Finset.le_fold_min, Finset.mem_univ, forall_true_left]
  constructor
  · rintro ⟨⟨⟨⟨hb, -, h0⟩, -, h1⟩, -, h2⟩, -, h3⟩
    have hall : ∀ (j : Fin 4) (r : Fin 1024), c ≤ T j r := fun j => match j with
      | ⟨0, _⟩ => h0 | ⟨1, _⟩ => h1 | ⟨2, _⟩ => h2 | ⟨3, _⟩ => h3
    refine ⟨hb, fun m => ?_⟩
    have hm := m.isLt
    have e : g m = T ⟨m.val / 1024, by omega⟩ ⟨m.val % 1024, Nat.mod_lt _ (by omega)⟩ := by
      rw [hT]; exact congrArg g (Fin.ext (by show m.val = 1024 * (m.val / 1024) + m.val % 1024; omega))
    rw [e]; exact hall _ _
  · rintro ⟨hb, hg⟩
    refine ⟨⟨⟨⟨hb, hb, fun r => ?_⟩, hb, fun r => ?_⟩, hb, fun r => ?_⟩, hb, fun r => ?_⟩ <;> rw [hT] <;> exact hg _

/-- The clipped distance as the body arranges it, (Σy² + Σx²) − 2·Σ y·x, is the specification's: + and · commute. -/
theorem kdist_eq {D : Nat} (x y : Fin D → EReal) :
    Ideal.sqrt (min Cert.Spec.hi (max Cert.Spec.lo ((Cert.Spec.sq y + Cert.Spec.sq x) - Cert.Spec.two * ∑ d, y d * x d)))
      = Cert.Spec.cdist x y := by
  unfold Cert.Spec.cdist Cert.Spec.dist2
  rw [add_comm (Cert.Spec.sq y) (Cert.Spec.sq x)]
  exact congrArg (fun s => Ideal.sqrt (min Cert.Spec.hi (max Cert.Spec.lo ((Cert.Spec.sq x + Cert.Spec.sq y) - Cert.Spec.two * s))))
    (Finset.sum_congr rfl fun d _ => mul_comm _ _)

section Region0

variable (a : (pcfg0 (F := Ideal)).Adm)
variable (V : (c : Dev nD) → (b : Ref sig .tc) → Buf (Elt Ideal) ((c : Thread nD τ).loc b))
variable (c : Dev nD)

/-- The recursion one point on. -/
theorem sa0_succ (t : Nat) : sa0 a V c (t + 1) =
    if (t + 1) % 4 = 0 then
      (k0_pay5 (feat0 a V c (t + 1)) (tile0 a V c (t + 1)) (k0_pay4 (feat0 a V c (t + 1))) (k0_pay3 (F := Ideal)), k0_pay4 (feat0 a V c (t + 1)))
    else
      (k0_pay5 (feat0 a V c (t + 1)) (tile0 a V c (t + 1)) (sa0 a V c t).2 (sa0 a V c t).1, (sa0 a V c t).2) := by
  rw [sa0]

/-- At a sample's first tile both rows are made afresh. -/
theorem sa0_first (b : Nat) : sa0 a V c (4 * b) =
    (k0_pay5 (feat0 a V c (4 * b)) (tile0 a V c (4 * b)) (k0_pay4 (feat0 a V c (4 * b))) (k0_pay3 (F := Ideal)), k0_pay4 (feat0 a V c (4 * b))) := by
  cases b with
  | zero => rw [sa0]
  | succ n =>
    have e : 4 * (n + 1) = 4 * n + 3 + 1 := by omega
    rw [e, sa0_succ, if_pos (by omega)]

/-- At a later tile the minimum is updated and the norms kept. -/
theorem sa0_step (t : Nat) (h : (t + 1) % 4 ≠ 0) : sa0 a V c (t + 1) =
    (k0_pay5 (feat0 a V c (t + 1)) (tile0 a V c (t + 1)) (sa0 a V c t).2 (sa0 a V c t).1, (sa0 a V c t).2) := by
  rw [sa0_succ, if_neg h]

/-- One tile's update at column p, in the specification's words: the smaller of the old minimum and the minimum, from +∞,
    of the clipped distances from feature row (b, p) to the tile's 1024 bank rows. -/
theorem tile_fold (hcl : ∀ x : S16.Idx, (a.1 0 x).toNat < 10) (b : Fin 16) (j : Fin 4) (p : Fin 784) (xx acc : Vec Ideal S1x784 .f32)
    (hxx : xx (ValueIdx.ix2 0 p) = Cert.Spec.sq (fun d => V c main_arg0 (ValueIdx.ix3 b p d))) :
    k0_pay5 (feat0 a V c (4 * b.val + j.val)) (tile0 a V c (4 * b.val + j.val)) xx acc (ValueIdx.ix2 0 p)
      = min (acc (ValueIdx.ix2 0 p)) ((Finset.univ : Finset (Fin 1024)).fold min Cert.Spec.pinf fun r =>
          Cert.Spec.cdist (fun d => V c main_arg0 (ValueIdx.ix3 b p d))
            (fun d => V c main_arg2 (ValueIdx.ix3 (⟨(a.1 0 (ValueIdx.ix1 b)).toNat, hcl _⟩ : Fin 10) (⟨1024 * j.val + r.val, by omega⟩ : Fin 4096) d))) := by
  rw [pay5_apply, hxx]
  refine congrArg (min _) (Finset.fold_congr fun r _ => ?_)
  refine Eq.trans ?_ (kdist_eq _ _)
  unfold Cert.Spec.sq
  simp only [feat0_apply a V c b j, tile0_apply a V c hcl b j]

/-- After a sample's fourth tile the running minimum is the minimum over the whole bank. -/
theorem acc_closed (hcl : ∀ x : S16.Idx, (a.1 0 x).toNat < 10) (b : Fin 16) (p : Fin 784) :
    (sa0 (F := Ideal) a V c (4 * b.val + 3)).1 (ValueIdx.ix2 0 p)
      = Cert.Spec.G (fun b p d => V c main_arg0 (ValueIdx.ix3 b p d)) (fun k j d => V c main_arg2 (ValueIdx.ix3 k j d))
          (fun b => ⟨(a.1 0 (ValueIdx.ix1 b)).toNat, hcl _⟩) b p := by
  have hx0 : k0_pay4 (feat0 a V c (4 * b.val)) (ValueIdx.ix2 0 p) = Cert.Spec.sq (fun d => V c main_arg0 (ValueIdx.ix3 b p d)) := by
    rw [pay4_apply]
    exact congrArg Cert.Spec.sq (funext fun d => feat0_apply a V c b 0 p d)
  have s0 := sa0_first a V c b.val
  have s1 := sa0_step a V c (4 * b.val) (by omega)
  have s2 := sa0_step a V c (4 * b.val + 1) (by omega)
  have s3 := sa0_step a V c (4 * b.val + 2) (by omega)
  have x0 : (sa0 a V c (4 * b.val)).2 (ValueIdx.ix2 0 p) = Cert.Spec.sq (fun d => V c main_arg0 (ValueIdx.ix3 b p d)) := by
    rw [s0]; exact hx0
  have x1 : (sa0 a V c (4 * b.val + 1)).2 (ValueIdx.ix2 0 p) = Cert.Spec.sq (fun d => V c main_arg0 (ValueIdx.ix3 b p d)) := by
    rw [s1]; exact x0
  have x2 : (sa0 a V c (4 * b.val + 1 + 1)).2 (ValueIdx.ix2 0 p) = Cert.Spec.sq (fun d => V c main_arg0 (ValueIdx.ix3 b p d)) := by
    rw [s2]; exact x1
  have a0 := (congrArg (fun s => s.1 (ValueIdx.ix2 0 p)) s0).trans (tile_fold a V c hcl b 0 p _ _ hx0)
  have a1 := (congrArg (fun s => s.1 (ValueIdx.ix2 0 p)) s1).trans (tile_fold a V c hcl b 1 p _ _ x0)
  have a2 := (congrArg (fun s => s.1 (ValueIdx.ix2 0 p)) s2).trans (tile_fold a V c hcl b 2 p _ _ x1)
  have a3 := (congrArg (fun s => s.1 (ValueIdx.ix2 0 p)) s3).trans (tile_fold a V c hcl b 3 p _ _ x2)
  refine a3.trans ?_
  rw [a2, a1, a0, pay3_apply]
  unfold Cert.Spec.G Cert.Spec.minDist
  exact fold_min_tiles Cert.Spec.pinf _ (fun j r => Cert.Spec.cdist (fun d => V c main_arg0 (ValueIdx.ix3 b p d))
      (fun d => V c main_arg2 (ValueIdx.ix3 (⟨(a.1 0 (ValueIdx.ix1 b)).toNat, hcl _⟩ : Fin 10) (⟨1024 * j.val + r.val, by omega⟩ : Fin 4096) d)))
    (fun j r => rfl)

/-- The output array after the run. -/
theorem kval0 (hcl : ∀ x : S16.Idx, (a.1 0 x).toNat < 10) (b : Fin 16) (p : Fin 784) :
    (dat0 (F := Ideal) a V c).arrAt 2 (cfg0 a).N (ValueIdx.ix3 b 0 p)
      = Cert.Spec.G (fun b p d => V c main_arg0 (ValueIdx.ix3 b p d)) (fun k j d => V c main_arg2 (ValueIdx.ix3 k j d))
          (fun b => ⟨(a.1 0 (ValueIdx.ix1 b)).toNat, hcl _⟩) b p := by
  rw [arrAt0_out]
  unfold k0_pay1
  refine (ValueIdx.shapeCast_ab_1ab_apply _ _ 0 0 p).trans ?_
  exact acc_closed a V c hcl b p

end Region0

end Cert.KernelIdeal.KVal

end
-- ==== Proof.KArr1.lean ====
/-
  Region 0, from blocks to arrays. At grid point t = 4b + j the feature window's block is sample b's rows of the
  feature array (its index map ignores j), the bank window's block is rows 1024 j … 1024 j + 1023 of the bank the
  label table names at entry b, and the output window's block is row b of the output array, written back exactly
  at the points with j = 3. So each block entry is one array entry, the input arrays are never written, and row b
  of the output array after the run is what point 4b + 3 stored.
-/
import proofs.«428568_j19971597926436_3_alg».proof.Proof.Body1
import proofs.«428568_j19971597926436_3_alg».proof.Proof.Tbl
import Idealize.ShloMosaic.Lib.Pipeline.Value
import Idealize.ShloMosaic.Lib.Pipeline.Dat
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

section Arrays1

variable (a : (pcfg1 (F := F)).Adm)
variable (V : (c : Dev nD) → (b : Ref sig .tc) → Buf (Elt F) ((c : Thread nD τ).loc b))
variable (c : Dev nD)

/-- The grid's points run row-major: point t has coordinates (t / 4, t % 4). -/
theorem coords1 : ∀ t : Fin grid1.N, ((grid1.coords t) 0).val = t.val / 4 ∧ ((grid1.coords t) 1).val = t.val % 4 :=
  (by decide +kernel : ∀ t : Fin grid1.N, _)

/-- The feature window's block index at point t: (t / 4, 0, 0). -/
theorem index1_0 : ∀ t : Fin grid1.N, cc1_transform_0 (grid1.coords t) 0 = t.val / 4
    ∧ cc1_transform_0 (grid1.coords t) 1 = 0 ∧ cc1_transform_0 (grid1.coords t) 2 = 0 :=
  (by decide +kernel : ∀ t : Fin grid1.N, _)

/-- the input arrays are never written -/
theorem arrAt1_in0 (n : Nat) : (dat1 a V c).arrAt 0 n = V c main_arg1 :=
  ((dat1 a V c).arrAt_in 0 rfl n).trans (A_eq1 a V c 0)

/-- likewise the bank array -/
theorem arrAt1_in1 (n : Nat) : (dat1 a V c).arrAt 1 n = V c main_arg3 :=
  ((dat1 a V c).arrAt_in 1 rfl n).trans (A_eq1 a V c 1)

set_option maxHeartbeats 400000 in
/-- The feature window's block at point t, entry by entry: sample t / 4's rows. -/
theorem iblk1_0_apply (t : Fin (cfg1 a).N) (y : S1x784x768.Idx) (i : S16x784x768.Idx)
    (h0 : (i 0).val = t.val / 4) (h1 : (i 1).val = (y 1).val) (h2 : (i 2).val = (y 2).val) :
    iblk1 a V c 0 t y = V c main_arg1 i := by
  show V c main_arg1 ((((cfg1 a).win 0).blk t).view.emb y) = V c main_arg1 i
  refine congrArg (V c main_arg1) ?_
  funext ax; apply Fin.ext
  obtain ⟨e0, e1, e2⟩ := index1_0 t
  match ax with
  | ⟨0, _⟩ => show cc1_transform_0 (grid1.coords t) 0 * 1 + 1 * (y 0).val = (i 0).val; have hy : (y 0).val < 1 := (y 0).isLt; omega
  | ⟨1, _⟩ => show cc1_transform_0 (grid1.coords t) 1 * 784 + 1 * (y 1).val = (i 1).val; omega
  | ⟨2, _⟩ => show cc1_transform_0 (grid1.coords t) 2 * 768 + 1 * (y 2).val = (i 2).val; omega

/-- the feature block at point 4b+j is sample b's rows -/
theorem feat1_apply (b : Fin 16) (j : Fin 4) (p : Fin 784) (d : Fin 768) :
    feat1 a V c (4 * b.val + j.val) (ValueIdx.ix3 0 p d) = V c main_arg1 (ValueIdx.ix3 b p d) := by
  unfold feat1
  refine iblk1_0_apply a V c _ _ _ ?_ rfl rfl
  have hN : (cfg1 a).N = 64 := N_1
  show b.val = (4 * b.val + j.val) % (cfg1 a).N / 4
  rw [hN]; omega

/-- The bank window's block index at point t: (the label at entry t / 4, t % 4, 0). -/
theorem index1_1 (t : Fin (cfg1 a).N) :
    ((cfg1 a).win 1).index t = ![(a.1 0 (lab (grid1.coords t))).toNat, ((grid1.coords t) 1).val, 0] :=
  transform1_1 a.1 (grid1.coords t)

set_option maxHeartbeats 400000 in
/-- The bank window's block at point t, entry by entry: rows 1024 (t % 4) … of the bank the label at entry t / 4 names. -/
theorem iblk1_1_apply (t : Fin (cfg1 a).N) (y : S1x1024x768.Idx) (i : S10x4096x768.Idx) (x : S16.Idx)
    (hx : (x 0).val = t.val / 4)
    (h0 : (i 0).val = (a.1 0 x).toNat) (h1 : (i 1).val = 1024 * (t.val % 4) + (y 1).val) (h2 : (i 2).val = (y 2).val) :
    iblk1 a V c 1 t y = V c main_arg3 i := by
  show V c main_arg3 ((((cfg1 a).win 1).blk t).view.emb y) = V c main_arg3 i
  refine congrArg (V c main_arg3) ?_
  funext ax; apply Fin.ext
  obtain ⟨c0, c1⟩ := coords1 t
  have hl : lab (grid1.coords t) = x := by
    funext k; apply Fin.ext
    match k with
    | ⟨0, _⟩ => show ((grid1.coords t) 0).val = (x 0).val; omega
  have e := index1_1 a t
  rw [hl] at e
  match ax with
  | ⟨0, _⟩ =>
    show ((cfg1 a).win 1).index t (0 : Fin 3) * 1 + 1 * (y 0).val = (i 0).val
    rw [e]; show (a.1 0 x).toNat * 1 + 1 * (y 0).val = (i 0).val
    have hy : (y 0).val < 1 := (y 0).isLt; omega
  | ⟨1, _⟩ =>
    show ((cfg1 a).win 1).index t (1 : Fin 3) * 1024 + 1 * (y 1).val = (i 1).val
    rw [e]; show ((grid1.coords t) 1).val * 1024 + 1 * (y 1).val = (i 1).val
    omega
  | ⟨2, _⟩ =>
    show ((cfg1 a).win 1).index t (2 : Fin 3) * 768 + 1 * (y 2).val = (i 2).val
    rw [e]; show 0 * 768 + 1 * (y 2).val = (i 2).val
    omega

/-- the bank tile at point 4b+j is rows 1024 j … 1024 j + 1023 of the bank the label names -/
theorem tile1_apply (hcl : ∀ x : S16.Idx, (a.1 0 x).toNat < 10) (b : Fin 16) (j : Fin 4) (r : Fin 1024) (d : Fin 768) :
    tile1 a V c (4 * b.val + j.val) (ValueIdx.ix3 0 r d)
      = V c main_arg3 (ValueIdx.ix3 (⟨(a.1 0 (ValueIdx.ix1 b)).toNat, hcl _⟩ : Fin 10) (⟨1024 * j.val + r.val, by omega⟩ : Fin 4096) d) := by
  unfold tile1
  have hN : (cfg1 a).N = 64 := N_1
  refine iblk1_1_apply a V c _ _ _ (ValueIdx.ix1 b) ?_ rfl ?_ rfl
  · show b.val = (4 * b.val + j.val) % (cfg1 a).N / 4
    rw [hN]; omega
  · show 1024 * j.val + r.val = 1024 * ((4 * b.val + j.val) % (cfg1 a).N % 4) + r.val
    rw [hN]; omega

/-- The output window's block index at point t: (t / 4, 0, 0). -/
theorem index1_2 : ∀ t : Fin grid1.N, cc1_transform_2 (grid1.coords t) 0 = t.val / 4
    ∧ cc1_transform_2 (grid1.coords t) 1 = 0 ∧ cc1_transform_2 (grid1.coords t) 2 = 0 :=
  (by decide +kernel : ∀ t : Fin grid1.N, _)

/-- What the output array holds after the run, as one function: row b is the running minimum after point 4b + 3. -/
def out1 : S16x1x784.Idx → Elt F .f32 :=
  fun i => k1_pay1 (sa1 a V c (4 * (i 0).val + 3)).1 (ValueIdx.ix3 (0 : Fin 1) (0 : Fin 1) (⟨(i 2).val, (i 2).isLt⟩ : Fin 784))

set_option maxHeartbeats 400000 in
/-- The output window is written back exactly at the points with j = 3, and what such a point writes back is its
    block of that function. -/
theorem flushed1_2_eq (t : Fin (cfg1 a).N) (hf : ((cfg1 a).win 2).flush t = true) :
    (dat1 a V c).flushed 2 t = (((cfg1 a).win 2).blk t).view.read (Elt F) (out1 a V c) := by
  rw [flush1_2, flushOf1_2, decide_eq_true_eq] at hf
  obtain ⟨e0, e1, e2⟩ := index1_2 t
  refine funext fun (y : S1x1x784.Idx) => ?_
  show (dat1 a V c).after 2 t (((cfg1 a).win 2).xinj ((cfg1 a).grid.coords t) y) = out1 a V c ((((cfg1 a).win 2).blk t).view.emb y)
  dsimp only [dat1]
  unfold out1
  have hy0 : (y 0).val < 1 := (y 0).isLt
  have hy1 : (y 1).val < 1 := (y 1).isLt
  have h0 : ((((cfg1 a).win 2).blk t).view.emb y (0 : Fin 3)).val = t.val / 4 := by
    show cc1_transform_2 (grid1.coords t) 0 * 1 + 1 * (y 0).val = t.val / 4
    omega
  have h2 : ((((cfg1 a).win 2).blk t).view.emb y (2 : Fin 3)).val = (y 2).val := by
    show cc1_transform_2 (grid1.coords t) 2 * 784 + 1 * (y 2).val = (y 2).val
    omega
  have hs : 4 * ((((cfg1 a).win 2).blk t).view.emb y (0 : Fin 3)).val + 3 = t.val := by rw [h0]; omega
  rw [hs]
  refine congrArg (k1_pay1 (sa1 a V c t.val).1) ?_
  funext ax; apply Fin.ext
  match ax with
  | ⟨0, _⟩ => show (y 0).val = 0; omega
  | ⟨1, _⟩ => show (y 1).val = 0; omega
  | ⟨2, _⟩ => show (y 2).val = ((((cfg1 a).win 2).blk t).view.emb y (2 : Fin 3)).val; rw [h2]
set_option maxHeartbeats 400000 in
/-- the output array after the run: row b is what point 4b+3 stored -/
theorem arrAt1_out (b : Fin 16) (p : Fin 784) :
    (dat1 a V c).arrAt 2 (cfg1 a).N (ValueIdx.ix3 b 0 p) = k1_pay1 (sa1 a V c (4 * b.val + 3)).1 (ValueIdx.ix3 0 0 p) := by
  have hN : (cfg1 a).N = 64 := N_1
  let t : Fin (cfg1 a).N := ⟨4 * b.val + 3, by rw [hN]; omega⟩
  have hf : ((cfg1 a).win 2).flush t = true := by
    rw [flush1_2, flushOf1_2, decide_eq_true_eq]; show (4 * b.val + 3) % 4 = 3; omega
  obtain ⟨e0, e1, e2⟩ := index1_2 t
  have hemb : (((cfg1 a).win 2).blk t).view.emb (ValueIdx.ix3 (0 : Fin 1) (0 : Fin 1) p) = (ValueIdx.ix3 b (0 : Fin 1) p : S16x1x784.Idx) := by
    funext ax; apply Fin.ext
    match ax with
    | ⟨0, _⟩ => show cc1_transform_2 (grid1.coords t) 0 * 1 + 1 * 0 = b.val; rw [e0]; show (4 * b.val + 3) / 4 * 1 + 1 * 0 = b.val; omega
    | ⟨1, _⟩ => show cc1_transform_2 (grid1.coords t) 1 * 1 + 1 * 0 = 0; omega
    | ⟨2, _⟩ => show cc1_transform_2 (grid1.coords t) 2 * 784 + 1 * p.val = p.val; omega
  have hmem := (((cfg1 a).win 2).blk t).view.emb_mem_set (ValueIdx.ix3 (0 : Fin 1) (0 : Fin 1) p)
  rw [hemb] at hmem
  exact (dat1 a V c).arrAt_apply_of_mem 2 (out1 a V c) (flushed1_2_eq a V c) (cfg1 a).N t _ t.isLt hf hmem

end Arrays1

end Cert.KernelIdeal.Hand

end
-- ==== Proof.KVal1.lean ====
/-
  The value of region 1 at the extended reals. Each payload of the body is read at an index: the squared-norm
  row at column p is Σ_d x[p,d]², and the updated running minimum at column p is the smaller of the old one and
  the minimum, from +∞, over the tile's 1024 rows of the clipped distance written (Σy² + Σx²) − 2·Σ y·x. After
  the fourth tile of a sample the running minimum is the minimum over all 4096 rows of the bank the sample's
  label names: the four partial minima from +∞ fold into one, because min is associative, commutative and
  idempotent, and the two arrangements of the squared distance agree because + and · commute. The output
  array's row b is that running minimum.
-/
import proofs.«428568_j19971597926436_3_alg».proof.Proof.Body1
import proofs.«428568_j19971597926436_3_alg».proof.Proof.Spec
import proofs.«428568_j19971597926436_3_alg».proof.Proof.KArr1
import Mathlib.Order.Basic
import Mathlib.Data.Finset.Fold
import Mathlib.Algebra.BigOperators.Group.Finset.Defs
import Mathlib.Algebra.BigOperators.Group.Finset.Basic
import Mathlib.Data.EReal.Basic
import Idealize.ShloMosaic.Lib.ValueIdx
import Idealize.ShloMosaic.Lib.Pipeline.Value
import Idealize.ShloMosaic.Lib.Pipeline.Dat
import Idealize.ShloMosaic.Lib.ValueLayout
import Idealize.ShloMosaic.PureOps.Ideal.Laws
import Idealize.ShloMosaic.PureOps.Reduce

set_option maxRecDepth 16384

noncomputable section

namespace Cert.KernelIdeal.KVal1

open Cert.KernelIdeal Cert.KernelIdeal.Gen Cert.KernelIdeal.Hand Idealize.ShloMosaic
open Idealize.ShloMosaic.TcCoe Idealize.SL.Sem
open Idealize.ShloMosaic.Pipeline (Dat Cfg Window)

/-- A vector cast to a one-column matrix reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (i, c), the column's entry i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ValueIdx.ix2 i c) = v (ValueIdx.ix2 i (0 : Fin 1)) := by
  refine broadcastTo_apply v h (ValueIdx.ix2 i c) (ValueIdx.ix2 i (0 : Fin 1)) fun ax => ?_
  match ax with
  | ⟨0, _⟩ =>
    show i.val = if a = 1 then 0 else i.val
    split
    · have := i.isLt; omega
    · rfl
  | ⟨1, _⟩ => rfl

/-- The feature block [1, 784, 768] as a matrix. -/
theorem pay2_apply (v0 : Vec Ideal S1x784x768 .f32) (p : Fin 784) (d : Fin 768) :
    k1_pay2 (F := Ideal) v0 (ValueIdx.ix2 p d) = v0 (ValueIdx.ix3 0 p d) := by
  unfold k1_pay2
  exact ValueIdx.shapeCast_1ab_ab_apply v0 _ p d

/-- The index a sum along a [784, 768] matrix's rows inserts. -/
theorem lift_row_784 (h : S784x768.Reduces [1] S784) (p : Fin 784) (d : Fin 768) :
    h.lift (ValueIdx.ix1 p) d = ValueIdx.ix2 p d := by
  funext ax; apply Fin.ext
  match ax with
  | ⟨0, _⟩ => rfl
  | ⟨1, _⟩ => rfl

/-- The squared-norm row at column p. -/
theorem pay4_apply (v0 : Vec Ideal S1x784x768 .f32) (p : Fin 784) :
    k1_pay4 (F := Ideal) v0 (ValueIdx.ix2 0 p) = Cert.Spec.sq (fun d => v0 (ValueIdx.ix3 0 p d)) := by
  unfold k1_pay4
  rw [shapeCast_self]
  refine (ValueIdx.shapeCast_a_1a_apply _ _ 0 p).trans ?_
  refine (Ideal.multiReduction_add_single _ _ _ _ _ _).trans ?_
  unfold Cert.Spec.sq
  refine Finset.sum_congr rfl fun (d : Fin 768) _ => ?_
  show mulf (k1_pay2 v0) (k1_pay2 v0) (reduces_S784x768_S784.lift (ValueIdx.ix1 p) d) = v0 (ValueIdx.ix3 0 p d) * v0 (ValueIdx.ix3 0 p d)
  rw [lift_row_784 _ p d, ValueIdx.mulf_apply, pay2_apply]

/-- The square root at an index. -/
theorem sqrt_apply {s : Shape} {φ : FTy} (x : FVec Ideal s φ) (i : s.Idx) : sqrt x i = Ideal.sqrt (x i) := rfl

/-- A minimum along one axis, read at the extended reals: the fold of min from the accumulator's value over that axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The index a sum along a [1024, 768] matrix's rows inserts. -/
theorem lift_row_1024 (h : S1024x768.Reduces [1] S1024) (r : Fin 1024) (d : Fin 768) :
    h.lift (ValueIdx.ix1 r) d = ValueIdx.ix2 r d := by
  funext ax; apply Fin.ext
  match ax with
  | ⟨0, _⟩ => rfl
  | ⟨1, _⟩ => rfl

/-- The index a minimum down a [1024, 784] matrix's columns inserts. -/
theorem lift_col_784 (h : S1024x784.Reduces [0] S784) (p : Fin 784) (r : Fin 1024) :
    h.lift (ValueIdx.ix1 p) r = ValueIdx.ix2 r p := by
  funext ax; apply Fin.ext
  match ax with
  | ⟨0, _⟩ => rfl
  | ⟨1, _⟩ => rfl

/-- The bank tile [1, 1024, 768] as a matrix. -/
theorem tileMat_apply (v5 : Vec Ideal S1x1024x768 .f32) (r : Fin 1024) (d : Fin 768) :
    shapeCast S1024x768 v5 shapeCasts_S1x1024x768_S1024x768 (ValueIdx.ix2 r d) = v5 (ValueIdx.ix3 0 r d) :=
  ValueIdx.shapeCast_1ab_ab_apply v5 _ r d

/-- The tile rows' squared norms, as a column broadcast along the rows: at (r, p) it is Σ_d y[r,d]². -/
theorem ysq_apply (v6 : FVec Ideal S1024x768 .f32) (r : Fin 1024) (p : Fin 784) :
    broadcastTo S1024x784 (shapeCast S1024x1 (multiReduction (F := Ideal) .add [1] S1024 (mulf v6 v6) 0x00000000#32 reduces_S1024x768_S1024 (.inl rfl) rfl)
        shapeCasts_S1024_S1024x1) broadcasts_S1024x1_S1024x784 (ValueIdx.ix2 r p)
      = ∑ d : Fin 768, v6 (ValueIdx.ix2 r d) * v6 (ValueIdx.ix2 r d) := by
  refine (broadcastTo_a1_ab_apply _ _ r p).trans ?_
  refine (shapeCast_a_a1_apply _ _ r 0).trans ?_
  refine (Ideal.multiReduction_add_single _ _ _ _ _ _).trans ?_
  refine Finset.sum_congr rfl fun (d : Fin 768) _ => ?_
  show mulf v6 v6 (reduces_S1024x768_S1024.lift (ValueIdx.ix1 r) d) = _
  rw [lift_row_1024 _ r d, ValueIdx.mulf_apply]

theorem lhs_mm_0 (i : S1024x784.Idx) (q : dot_S1024x768_S784x768_S1024x784_1_1_0_0_n_n.contr.Idx) :
    (dot_S1024x768_S784x768_S1024x784_1_1_0_0_n_n.lhsIdx i q 0).val = (i 0).val := by
  unfold DotDims.lhsIdx
  rw [dif_neg (show ¬(0 : Fin S1024x768.rank) ∈ dot_S1024x768_S784x768_S1024x784_1_1_0_0_n_n.lhsBatch by decide), dif_pos (show (0 : Fin S1024x768.rank) ∈ dot_S1024x768_S784x768_S1024x784_1_1_0_0_n_n.lhsNonContracting by decide)]
  rfl
theorem lhs_mm_1 (i : S1024x784.Idx) (q : dot_S1024x768_S784x768_S1024x784_1_1_0_0_n_n.contr.Idx) :
    (dot_S1024x768_S784x768_S1024x784_1_1_0_0_n_n.lhsIdx i q 1).val = (q ⟨0, by decide⟩).val :=
  dot_S1024x768_S784x768_S1024x784_1_1_0_0_n_n.lhsIdx_val_of_single rfl i q
theorem rhs_mm_0 (i : S1024x784.Idx) (q : dot_S1024x768_S784x768_S1024x784_1_1_0_0_n_n.contr.Idx) :
    (dot_S1024x768_S784x768_S1024x784_1_1_0_0_n_n.rhsIdx i q 0).val = (i 1).val := by
  unfold DotDims.rhsIdx
  rw [dif_neg (show ¬(0 : Fin S784x768.rank) ∈ dot_S1024x768_S784x768_S1024x784_1_1_0_0_n_n.rhsBatch by decide), dif_pos (show (0 : Fin S784x768.rank) ∈ dot_S1024x768_S784x768_S1024x784_1_1_0_0_n_n.rhsNonContracting by decide)]
  rfl
theorem rhs_mm_1 (i : S1024x784.Idx) (q : dot_S1024x768_S784x768_S1024x784_1_1_0_0_n_n.contr.Idx) :
    (dot_S1024x768_S784x768_S1024x784_1_1_0_0_n_n.rhsIdx i q 1).val = (q ⟨0, by decide⟩).val :=
  dot_S1024x768_S784x768_S1024x784_1_1_0_0_n_n.rhsIdx_val_of_single rfl i q

/-- The product of the tile with the features' transpose into a zero accumulator: at (r, p) it is Σ_k y[r,k] · x[p,k]. -/
theorem mm_apply (A : FVec Ideal S1024x768 .bf16) (B : FVec Ideal S784x768 .bf16) (r : Fin 1024) (p : Fin 784) :
    matmul dot_S1024x768_S784x768_S1024x784_1_1_0_0_n_n none A B (constant (F := Ideal) S1024x784 .f32 0x00000000#32) (ValueIdx.ix2 r p)
      = ∑ k : Fin 768, A (ValueIdx.ix2 r k) * B (ValueIdx.ix2 p k) := by
  simp only [matmul]
  rw [Ideal.matmul_constant_zero_apply, ← Equiv.sum_comp (ValueIdx.contrEquiv1 dot_S1024x768_S784x768_S1024x784_1_1_0_0_n_n 768 rfl rfl).symm]
  refine Finset.sum_congr rfl fun k _ => ?_
  have hk := ValueIdx.contrEquiv1_symm_val dot_S1024x768_S784x768_S1024x784_1_1_0_0_n_n 768 rfl rfl k
  have el : dot_S1024x768_S784x768_S1024x784_1_1_0_0_n_n.lhsIdx (ValueIdx.ix2 r p) ((ValueIdx.contrEquiv1 dot_S1024x768_S784x768_S1024x784_1_1_0_0_n_n 768 rfl rfl).symm k) = ValueIdx.ix2 r k := funext fun a => Fin.ext (by
    match a with
    | ⟨0, _⟩ => exact lhs_mm_0 _ _
    | ⟨1, _⟩ => exact (lhs_mm_1 _ _).trans hk)
  have er : dot_S1024x768_S784x768_S1024x784_1_1_0_0_n_n.rhsIdx (ValueIdx.ix2 r p) ((ValueIdx.contrEquiv1 dot_S1024x768_S784x768_S1024x784_1_1_0_0_n_n 768 rfl rfl).symm k) = ValueIdx.ix2 p k := funext fun a => Fin.ext (by
    match a with
    | ⟨0, _⟩ => exact rhs_mm_0 _ _
    | ⟨1, _⟩ => exact (rhs_mm_1 _ _).trans hk)
  rw [el, er]

/-- The row of +∞ words. -/
theorem pay3_apply (p : Fin 784) : k1_pay3 (F := Ideal) (ValueIdx.ix2 0 p) = Cert.Spec.pinf := by
  unfold k1_pay3
  rw [shapeCast_self]
  rfl

/-- The minimum down a [1024, 784] matrix's columns from +∞, as a row: at column p the fold of min over the 1024 rows. -/
theorem colmin_apply (W : FVec Ideal S1024x784 .f32) (p : Fin 784) :
    shapeCast S1x784 (multiReduction (F := Ideal) .minimumf [0] S784 W 0x7F800000#32 reduces_S1024x784_S784 (.inl rfl) rfl)
        shapeCasts_S784_S1x784 (ValueIdx.ix2 0 p)
      = (Finset.univ : Finset (Fin 1024)).fold min Cert.Spec.pinf fun r => W (ValueIdx.ix2 r p) := by
  refine (ValueIdx.shapeCast_a_1a_apply _ _ 0 p).trans ?_
  refine (multiReduction_minimumf_single _ _ _ _ _ _).trans ?_
  refine Finset.fold_congr fun (r : Fin 1024) _ => ?_
  show W (reduces_S1024x784_S784.lift (ValueIdx.ix1 p) r) = W (ValueIdx.ix2 r p)
  rw [lift_col_784 _ p r]

/-- The updated running minimum at column p. -/
theorem pay5_apply (v0 : Vec Ideal S1x784x768 .f32) (v5 : Vec Ideal S1x1024x768 .f32) (v13 v27 : Vec Ideal S1x784 .f32) (p : Fin 784) :
    k1_pay5 (F := Ideal) v0 v5 v13 v27 (ValueIdx.ix2 0 p)
      = min (v27 (ValueIdx.ix2 0 p)) ((Finset.univ : Finset (Fin 1024)).fold min Cert.Spec.pinf fun r =>
          Ideal.sqrt (min Cert.Spec.hi (max Cert.Spec.lo ((Cert.Spec.sq (fun d => v5 (ValueIdx.ix3 0 r d)) + v13 (ValueIdx.ix2 0 p))
            - Cert.Spec.two * ∑ d, v5 (ValueIdx.ix3 0 r d) * v0 (ValueIdx.ix3 0 p d))))) := by
  unfold k1_pay5
  rw [shapeCast_self]
  refine congrArg (min (v27 (ValueIdx.ix2 0 p))) ?_
  refine (colmin_apply _ p).trans ?_
  refine Finset.fold_congr fun (r : Fin 1024) _ => ?_
  refine congrArg Ideal.sqrt ?_
  refine congrArg (min Cert.Spec.hi) (congrArg (max Cert.Spec.lo) ?_)
  refine congrArg₂ (· - ·) (congrArg₂ (· + ·) ?_ ?_) (congrArg (Cert.Spec.two * ·) ?_)
  · refine (ysq_apply _ r p).trans ?_
    unfold Cert.Spec.sq
    exact Finset.sum_congr rfl fun d _ => congrArg₂ (· * ·) (tileMat_apply v5 r d) (tileMat_apply v5 r d)
  · exact ValueIdx.broadcastTo_1b_ab_apply v13 _ r p
  · refine (mm_apply _ _ r p).trans ?_
    exact Finset.sum_congr rfl fun d _ => congrArg₂ (· * ·) (tileMat_apply v5 r d) (pay2_apply v0 p d)

/-- Four partial minima from one start, over the four quarters of 4096 rows, fold into the minimum over all rows:
    a bound is below the one exactly when it is below the other. -/
theorem fold_min_tiles (b : EReal) (g : Fin 4096 → EReal) (T : Fin 4 → Fin 1024 → EReal)
    (hT : ∀ (j : Fin 4) (r : Fin 1024), T j r = g ⟨1024 * j.val + r.val, by omega⟩) :
    min (min (min (min b (Finset.univ.fold min b (T 0))) (Finset.univ.fold min b (T 1))) (Finset.univ.fold min b (T 2)))
        (Finset.univ.fold min b (T 3))
      = (Finset.univ : Finset (Fin 4096)).fold min b g := by
  refine eq_of_forall_le_iff fun c => ?_
  simp only [le_min_iff, Finset.le_fold_min, Finset.mem_univ, forall_true_left]
  constructor
  · rintro ⟨⟨⟨⟨hb, -, h0⟩, -, h1⟩, -, h2⟩, -, h3⟩
    have hall : ∀ (j : Fin 4) (r : Fin 1024), c ≤ T j r := fun j => match j with
      | ⟨0, _⟩ => h0 | ⟨1, _⟩ => h1 | ⟨2, _⟩ => h2 | ⟨3, _⟩ => h3
    refine ⟨hb, fun m => ?_⟩
    have hm := m.isLt
    have e : g m = T ⟨m.val / 1024, by omega⟩ ⟨m.val % 1024, Nat.mod_lt _ (by omega)⟩ := by
      rw [hT]; exact congrArg g (Fin.ext (by show m.val = 1024 * (m.val / 1024) + m.val % 1024; omega))
    rw [e]; exact hall _ _
  · rintro ⟨hb, hg⟩
    refine ⟨⟨⟨⟨hb, hb, fun r => ?_⟩, hb, fun r => ?_⟩, hb, fun r => ?_⟩, hb, fun r => ?_⟩ <;> rw [hT] <;> exact hg _

/-- The clipped distance as the body arranges it, (Σy² + Σx²) − 2·Σ y·x, is the specification's: + and · commute. -/
theorem kdist_eq {D : Nat} (x y : Fin D → EReal) :
    Ideal.sqrt (min Cert.Spec.hi (max Cert.Spec.lo ((Cert.Spec.sq y + Cert.Spec.sq x) - Cert.Spec.two * ∑ d, y d * x d)))
      = Cert.Spec.cdist x y := by
  unfold Cert.Spec.cdist Cert.Spec.dist2
  rw [add_comm (Cert.Spec.sq y) (Cert.Spec.sq x)]
  exact congrArg (fun s => Ideal.sqrt (min Cert.Spec.hi (max Cert.Spec.lo ((Cert.Spec.sq x + Cert.Spec.sq y) - Cert.Spec.two * s))))
    (Finset.sum_congr rfl fun d _ => mul_comm _ _)

section Region1

variable (a : (pcfg1 (F := Ideal)).Adm)
variable (V : (c : Dev nD) → (b : Ref sig .tc) → Buf (Elt Ideal) ((c : Thread nD τ).loc b))
variable (c : Dev nD)

/-- The recursion one point on. -/
theorem sa1_succ (t : Nat) : sa1 a V c (t + 1) =
    if (t + 1) % 4 = 0 then
      (k1_pay5 (feat1 a V c (t + 1)) (tile1 a V c (t + 1)) (k1_pay4 (feat1 a V c (t + 1))) (k1_pay3 (F := Ideal)), k1_pay4 (feat1 a V c (t + 1)))
    else
      (k1_pay5 (feat1 a V c (t + 1)) (tile1 a V c (t + 1)) (sa1 a V c t).2 (sa1 a V c t).1, (sa1 a V c t).2) := by
  rw [sa1]

/-- At a sample's first tile both rows are made afresh. -/
theorem sa1_first (b : Nat) : sa1 a V c (4 * b) =
    (k1_pay5 (feat1 a V c (4 * b)) (tile1 a V c (4 * b)) (k1_pay4 (feat1 a V c (4 * b))) (k1_pay3 (F := Ideal)), k1_pay4 (feat1 a V c (4 * b))) := by
  cases b with
  | zero => rw [sa1]
  | succ n =>
    have e : 4 * (n + 1) = 4 * n + 3 + 1 := by omega
    rw [e, sa1_succ, if_pos (by omega)]

/-- At a later tile the minimum is updated and the norms kept. -/
theorem sa1_step (t : Nat) (h : (t + 1) % 4 ≠ 0) : sa1 a V c (t + 1) =
    (k1_pay5 (feat1 a V c (t + 1)) (tile1 a V c (t + 1)) (sa1 a V c t).2 (sa1 a V c t).1, (sa1 a V c t).2) := by
  rw [sa1_succ, if_neg h]

/-- One tile's update at column p, in the specification's words: the smaller of the old minimum and the minimum, from +∞,
    of the clipped distances from feature row (b, p) to the tile's 1024 bank rows. -/
theorem tile_fold (hcl : ∀ x : S16.Idx, (a.1 0 x).toNat < 10) (b : Fin 16) (j : Fin 4) (p : Fin 784) (xx acc : Vec Ideal S1x784 .f32)
    (hxx : xx (ValueIdx.ix2 0 p) = Cert.Spec.sq (fun d => V c main_arg1 (ValueIdx.ix3 b p d))) :
    k1_pay5 (feat1 a V c (4 * b.val + j.val)) (tile1 a V c (4 * b.val + j.val)) xx acc (ValueIdx.ix2 0 p)
      = min (acc (ValueIdx.ix2 0 p)) ((Finset.univ : Finset (Fin 1024)).fold min Cert.Spec.pinf fun r =>
          Cert.Spec.cdist (fun d => V c main_arg1 (ValueIdx.ix3 b p d))
            (fun d => V c main_arg3 (ValueIdx.ix3 (⟨(a.1 0 (ValueIdx.ix1 b)).toNat, hcl _⟩ : Fin 10) (⟨1024 * j.val + r.val, by omega⟩ : Fin 4096) d))) := by
  rw [pay5_apply, hxx]
  refine congrArg (min _) (Finset.fold_congr fun r _ => ?_)
  refine Eq.trans ?_ (kdist_eq _ _)
  unfold Cert.Spec.sq
  simp only [feat1_apply a V c b j, tile1_apply a V c hcl b j]

/-- After a sample's fourth tile the running minimum is the minimum over the whole bank. -/
theorem acc_closed (hcl : ∀ x : S16.Idx, (a.1 0 x).toNat < 10) (b : Fin 16) (p : Fin 784) :
    (sa1 (F := Ideal) a V c (4 * b.val + 3)).1 (ValueIdx.ix2 0 p)
      = Cert.Spec.G (fun b p d => V c main_arg1 (ValueIdx.ix3 b p d)) (fun k j d => V c main_arg3 (ValueIdx.ix3 k j d))
          (fun b => ⟨(a.1 0 (ValueIdx.ix1 b)).toNat, hcl _⟩) b p := by
  have hx0 : k1_pay4 (feat1 a V c (4 * b.val)) (ValueIdx.ix2 0 p) = Cert.Spec.sq (fun d => V c main_arg1 (ValueIdx.ix3 b p d)) := by
    rw [pay4_apply]
    exact congrArg Cert.Spec.sq (funext fun d => feat1_apply a V c b 0 p d)
  have s0 := sa1_first a V c b.val
  have s1 := sa1_step a V c (4 * b.val) (by omega)
  have s2 := sa1_step a V c (4 * b.val + 1) (by omega)
  have s3 := sa1_step a V c (4 * b.val + 2) (by omega)
  have x0 : (sa1 a V c (4 * b.val)).2 (ValueIdx.ix2 0 p) = Cert.Spec.sq (fun d => V c main_arg1 (ValueIdx.ix3 b p d)) := by
    rw [s0]; exact hx0
  have x1 : (sa1 a V c (4 * b.val + 1)).2 (ValueIdx.ix2 0 p) = Cert.Spec.sq (fun d => V c main_arg1 (ValueIdx.ix3 b p d)) := by
    rw [s1]; exact x0
  have x2 : (sa1 a V c (4 * b.val + 1 + 1)).2 (ValueIdx.ix2 0 p) = Cert.Spec.sq (fun d => V c main_arg1 (ValueIdx.ix3 b p d)) := by
    rw [s2]; exact x1
  have a0 := (congrArg (fun s => s.1 (ValueIdx.ix2 0 p)) s0).trans (tile_fold a V c hcl b 0 p _ _ hx0)
  have a1 := (congrArg (fun s => s.1 (ValueIdx.ix2 0 p)) s1).trans (tile_fold a V c hcl b 1 p _ _ x0)
  have a2 := (congrArg (fun s => s.1 (ValueIdx.ix2 0 p)) s2).trans (tile_fold a V c hcl b 2 p _ _ x1)
  have a3 := (congrArg (fun s => s.1 (ValueIdx.ix2 0 p)) s3).trans (tile_fold a V c hcl b 3 p _ _ x2)
  refine a3.trans ?_
  rw [a2, a1, a0, pay3_apply]
  unfold Cert.Spec.G Cert.Spec.minDist
  exact fold_min_tiles Cert.Spec.pinf _ (fun j r => Cert.Spec.cdist (fun d => V c main_arg1 (ValueIdx.ix3 b p d))
      (fun d => V c main_arg3 (ValueIdx.ix3 (⟨(a.1 0 (ValueIdx.ix1 b)).toNat, hcl _⟩ : Fin 10) (⟨1024 * j.val + r.val, by omega⟩ : Fin 4096) d)))
    (fun j r => rfl)

/-- The output array after the run. -/
theorem kval1 (hcl : ∀ x : S16.Idx, (a.1 0 x).toNat < 10) (b : Fin 16) (p : Fin 784) :
    (dat1 (F := Ideal) a V c).arrAt 2 (cfg1 a).N (ValueIdx.ix3 b 0 p)
      = Cert.Spec.G (fun b p d => V c main_arg1 (ValueIdx.ix3 b p d)) (fun k j d => V c main_arg3 (ValueIdx.ix3 k j d))
          (fun b => ⟨(a.1 0 (ValueIdx.ix1 b)).toNat, hcl _⟩) b p := by
  rw [arrAt1_out]
  unfold k1_pay1
  refine (ValueIdx.shapeCast_ab_1ab_apply _ _ 0 0 p).trans ?_
  exact acc_closed a V c hcl b p

end Region1

end Cert.KernelIdeal.KVal1

end
-- ==== Proof.Tail.lean ====
/- The host computation both programs end with, carried as one function of the two arrays of per-patch minimum
   distances. Both programs apply the same operations to two [16,784] arrays P (point branch) and Q (colour branch):
   the masked mean of P over the valid patches, the plain mean of Q, the two global-feature distance minima (which do
   not depend on P or Q), the weighted sum of the four, its mean over the batch, and the factor 0.9. The reference
   computes P and Q on the host; the kernel program gets them from its two calls as [16,1,784] arrays and reshapes
   them. This module names the shared chain `tail`, shows the reference's result is `tail` of its own P and Q, and
   shows the kernel program's result is `tail` of the reshaped results of its two calls. -/
import proofs.«428568_j19971597926436_3_alg».proof.Proof.Gen.KernelIdeal.Regions
import proofs.«428568_j19971597926436_3_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 1088

noncomputable section

namespace Cert.Tail

open Idealize.ShloMosaic Idealize.ShloMosaic.TcCoe Idealize.SL.Sem Idealize.ShloMosaic.StableHlo
open Idealize.ShloMosaic.ValueIdx
open Cert.ReferenceIdeal.Read

/-- The kernel program's reshape of a call's result [16,1,784] to [16,784]. -/
def P_of (o : (⟨Cert.KernelIdeal.S16x1x784, .f32⟩ : BufTy).Contents (Elt Ideal)) :
    (⟨Cert.KernelIdeal.S16x784, .f32⟩ : BufTy).Contents (Elt Ideal) :=
  fun i => shapeCast Cert.KernelIdeal.S16x784 o Cert.KernelIdeal.Gen.shapeCasts_S16x1x784_S16x784 i

/-- The reshape drops the unit axis: entry (b, p) of the result is entry (b, 0, p) of the call's result, the two
    having the same row-major position b·784 + p. -/
theorem P_of_apply (o : (⟨Cert.KernelIdeal.S16x1x784, .f32⟩ : BufTy).Contents (Elt Ideal)) (b : Fin 16) (p : Fin 784) :
    P_of o (ix2 b p) = o (ix3 b (0 : Fin 1) p) := by
  unfold P_of
  refine shapeCast_apply o Cert.KernelIdeal.Gen.shapeCasts_S16x1x784_S16x784 (ix2 b p) (ix3 b (0 : Fin 1) p) ?_
  rw [Shape.rowMajor_val_three, Shape.rowMajor_val_two]
  show (b.val * 1 + 0) * 784 + p.val = b.val * 784 + p.val
  omega

/-- The masked mean of the point-branch minima over a sample's valid patches: Σ_p P[b,p]·mask[b,p] / Σ_p mask[b,p]. -/
def meanMasked (P : (⟨Cert.ReferenceIdeal.S16x784, .f32⟩ : BufTy).Contents (Elt Ideal))
    (x7 : (⟨Cert.ReferenceIdeal.S16x784, .i32⟩ : BufTy).Contents (Elt Ideal)) :
    (⟨Cert.ReferenceIdeal.S16, .f32⟩ : BufTy).Contents (Elt Ideal) :=
  Host.divf (F := Ideal) (φ := .f32)
    (Host.reduceAdd (F := Ideal) (φ := .f32) (mulf (F := Ideal) (φ := .f32) P (val_main_v0 (F := Ideal) x7)) (val_main_cst_13 (F := Ideal))
      Cert.ReferenceIdeal.Gen.reducesTo_S16x784_S16_d1 Cert.ReferenceIdeal.Gen.h_S_)
    (val_main_v1 (F := Ideal) x7)

/-- The plain mean of the colour-branch minima over a sample's 784 patches. -/
def meanPlain (Q : (⟨Cert.ReferenceIdeal.S16x784, .f32⟩ : BufTy).Contents (Elt Ideal)) :
    (⟨Cert.ReferenceIdeal.S16, .f32⟩ : BufTy).Contents (Elt Ideal) :=
  Host.divf (F := Ideal) (φ := .f32)
    (Host.reduceAdd (F := Ideal) (φ := .f32) Q (val_main_cst_20 (F := Ideal))
      Cert.ReferenceIdeal.Gen.reducesTo_S16x784_S16_d1 Cert.ReferenceIdeal.Gen.h_S_)
    (val_main_v68 (F := Ideal))

/-- The shared host chain, from the per-patch minima P (point branch) and Q (colour branch) to the scalar loss:
    the mean over the batch of ( mean Q + masked mean P + 0.4·(the two global-feature minima) ), times 0.9. The
    global-minima term is the reference's own stage; it depends on the features, the global banks, the labels and
    the mask, not on P or Q. -/
def tail (P Q : (⟨Cert.ReferenceIdeal.S16x784, .f32⟩ : BufTy).Contents (Elt Ideal))
    (x0 : (⟨Cert.ReferenceIdeal.S16x784x1152, .f32⟩ : BufTy).Contents (Elt Ideal))
    (x1 : (⟨Cert.ReferenceIdeal.S16x784x768, .f32⟩ : BufTy).Contents (Elt Ideal))
    (x4 : (⟨Cert.ReferenceIdeal.S10x128x1152, .f32⟩ : BufTy).Contents (Elt Ideal))
    (x5 : (⟨Cert.ReferenceIdeal.S10x128x768, .f32⟩ : BufTy).Contents (Elt Ideal))
    (x6 : (⟨Cert.ReferenceIdeal.S16, .i32⟩ : BufTy).Contents (Elt Ideal))
    (x7 : (⟨Cert.ReferenceIdeal.S16x784, .i32⟩ : BufTy).Contents (Elt Ideal)) :
    (⟨Cert.ReferenceIdeal.S_, .f32⟩ : BufTy).Contents (Elt Ideal) :=
  mulf (F := Ideal) (φ := .f32)
    (Host.divf (F := Ideal) (φ := .f32)
      (Host.reduceAdd (F := Ideal) (φ := .f32)
        (addf (F := Ideal) (φ := .f32) (addf (F := Ideal) (φ := .f32) (meanPlain Q) (meanMasked P x7)) (val_main_v123 (F := Ideal) x0 x1 x4 x5 x6 x7))
        (val_main_cst_37 (F := Ideal))
        Cert.ReferenceIdeal.Gen.reducesTo_S16_S_d0 Cert.ReferenceIdeal.Gen.h_S_)
      (val_main_cst_38 (F := Ideal)))
    (val_main_cst_39 (F := Ideal))

/-- The reference's result is the shared chain applied to its own per-patch minima: its last stages, from the
    masked product on, are the chain's operations one for one. -/
theorem ref_tail
    (x0 : (⟨Cert.ReferenceIdeal.S16x784x1152, .f32⟩ : BufTy).Contents (Elt Ideal))
    (x1 : (⟨Cert.ReferenceIdeal.S16x784x768, .f32⟩ : BufTy).Contents (Elt Ideal))
    (x2 : (⟨Cert.ReferenceIdeal.S10x4096x1152, .f32⟩ : BufTy).Contents (Elt Ideal))
    (x3 : (⟨Cert.ReferenceIdeal.S10x4096x768, .f32⟩ : BufTy).Contents (Elt Ideal))
    (x4 : (⟨Cert.ReferenceIdeal.S10x128x1152, .f32⟩ : BufTy).Contents (Elt Ideal))
    (x5 : (⟨Cert.ReferenceIdeal.S10x128x768, .f32⟩ : BufTy).Contents (Elt Ideal))
    (x6 : (⟨Cert.ReferenceIdeal.S16, .i32⟩ : BufTy).Contents (Elt Ideal))
    (x7 : (⟨Cert.ReferenceIdeal.S16x784, .i32⟩ : BufTy).Contents (Elt Ideal)) :
    val_main_v127 (F := Ideal) x0 x1 x2 x3 x4 x5 x6 x7
      = tail (val_main_v46 (F := Ideal) x0 x2 x6) (val_main_v66 (F := Ideal) x1 x3 x6) x0 x1 x4 x5 x6 x7 := by
  unfold val_main_v127 val_main_v126 val_main_v125 val_main_v124 val_main_v120 val_main_v69 val_main_v67
    val_main_v49 val_main_v48 val_main_v47 tail meanPlain meanMasked
  rfl

section Kernel

open Cert.KernelIdeal Cert.KernelIdeal.Gen

variable (m : (ℓ : Loc nD τ sig) → Buf (Elt Ideal) ℓ) (outs : Outs (F := Ideal)) (c : Dev nD)

/-! ### The mask and the valid-patch counts (the first host stretch) -/

theorem V1_v0 : V1 m c main_v0 = val_main_v0 (F := Ideal) (m ((c : Thread nD τ).loc main_arg7)) := by
  show StableHlo.after hostOps0 (V0 m c) (Proc.devRef .tc main_v0) = _
  after_results
  rfl

theorem V1_v1 : V1 m c main_v1 = val_main_v1 (F := Ideal) (m ((c : Thread nD τ).loc main_arg7)) := by
  show StableHlo.after hostOps0 (V0 m c) (Proc.devRef .tc main_v1) = _
  after_results
  rfl

/-! ### After the first call: its result, and the mask and counts carried over -/

theorem V2_v2 : V2 m outs c main_v2 = outs 2 main_v2 c := by
  simp only [V2, Function.update_self]

theorem V2_v0 : V2 m outs c main_v0 = val_main_v0 (F := Ideal) (m ((c : Thread nD τ).loc main_arg7)) :=
  (V2_of m outs c main_v0 (by decide)).trans (V1_v0 m c)

theorem V2_v1 : V2 m outs c main_v1 = val_main_v1 (F := Ideal) (m ((c : Thread nD τ).loc main_arg7)) :=
  (V2_of m outs c main_v1 (by decide)).trans (V1_v1 m c)

/-! ### The masked mean of the point-branch minima (the second host stretch) -/

theorem V3_v6 : V3 m outs c main_v6 = meanMasked (P_of (outs 2 main_v2 c)) (m ((c : Thread nD τ).loc main_arg7)) := by
  show StableHlo.after hostOps1 (V2 m outs c) (Proc.devRef .tc main_v6) = _
  after_results
  rw [V2_v2, V2_v0, V2_v1]
  rfl

/-! ### After the second call: its result, and what the third stretch reads of the earlier ones and of the arguments -/

theorem V4_v7 : V4 m outs c main_v7 = outs 4 main_v7 c := by
  simp only [V4, Function.update_self]

theorem V4_v0 : V4 m outs c main_v0 = val_main_v0 (F := Ideal) (m ((c : Thread nD τ).loc main_arg7)) :=
  (V4_of m outs c main_v0 (by decide)).trans <| (V3_of m outs c main_v0 (by decide)).trans (V2_v0 m outs c)

theorem V4_v1 : V4 m outs c main_v1 = val_main_v1 (F := Ideal) (m ((c : Thread nD τ).loc main_arg7)) :=
  (V4_of m outs c main_v1 (by decide)).trans <| (V3_of m outs c main_v1 (by decide)).trans (V2_v1 m outs c)

theorem V4_arg0 : V4 m outs c main_arg0 = (m ((c : Thread nD τ).loc main_arg0)) :=
  (V4_of m outs c main_arg0 (by decide)).trans <| (V3_of m outs c main_arg0 (by decide)).trans <|
    (V2_of m outs c main_arg0 (by decide)).trans <| (V1_of m c main_arg0 (by decide)).trans rfl

theorem V4_arg1 : V4 m outs c main_arg1 = (m ((c : Thread nD τ).loc main_arg1)) :=
  (V4_of m outs c main_arg1 (by decide)).trans <| (V3_of m outs c main_arg1 (by decide)).trans <|
    (V2_of m outs c main_arg1 (by decide)).trans <| (V1_of m c main_arg1 (by decide)).trans rfl

theorem V4_arg4 : V4 m outs c main_arg4 = (m ((c : Thread nD τ).loc main_arg4)) :=
  (V4_of m outs c main_arg4 (by decide)).trans <| (V3_of m outs c main_arg4 (by decide)).trans <|
    (V2_of m outs c main_arg4 (by decide)).trans <| (V1_of m c main_arg4 (by decide)).trans rfl

theorem V4_arg5 : V4 m outs c main_arg5 = (m ((c : Thread nD τ).loc main_arg5)) :=
  (V4_of m outs c main_arg5 (by decide)).trans <| (V3_of m outs c main_arg5 (by decide)).trans <|
    (V2_of m outs c main_arg5 (by decide)).trans <| (V1_of m c main_arg5 (by decide)).trans rfl

theorem V4_arg6 : V4 m outs c main_arg6 = (m ((c : Thread nD τ).loc main_arg6)) :=
  (V4_of m outs c main_arg6 (by decide)).trans <| (V3_of m outs c main_arg6 (by decide)).trans <|
    (V2_of m outs c main_arg6 (by decide)).trans <| (V1_of m c main_arg6 (by decide)).trans rfl

/-! ### The third host stretch: the plain mean of the colour-branch minima, and the global branch up to the squared
    distances of the colour features -/

theorem V5_v11 : V5 m outs c main_v11 = meanPlain (P_of (outs 4 main_v7 c)) := by
  show StableHlo.after hostOps2 (V4 m outs c) (Proc.devRef .tc main_v11) = _
  after_results
  rw [V4_v7]
  rfl

set_option maxHeartbeats 1000000 in
theorem V5_v53 : V5 m outs c main_v53 = val_main_v97 (F := Ideal) (m ((c : Thread nD τ).loc main_arg1)) (m ((c : Thread nD τ).loc main_arg5)) (m ((c : Thread nD τ).loc main_arg6)) (m ((c : Thread nD τ).loc main_arg7)) := by
  show StableHlo.after hostOps2 (V4 m outs c) (Proc.devRef .tc main_v53) = _
  have h0 := V4_v0 m outs c
  have h1 := V4_v1 m outs c
  have h2 := V4_arg1 m outs c
  have h3 := V4_arg5 m outs c
  have h4 := V4_arg6 m outs c
  generalize V4 m outs c = W at h0 h1 h2 h3 h4 ⊢
  after_results_simp
  rw [h0, h1, h2, h3, h4]
  rfl

set_option maxHeartbeats 1000000 in
theorem V5_v25 : V5 m outs c main_v25 = val_main_v83 (F := Ideal) (m ((c : Thread nD τ).loc main_arg0)) (m ((c : Thread nD τ).loc main_arg7)) := by
  show StableHlo.after hostOps2 (V4 m outs c) (Proc.devRef .tc main_v25) = _
  have h0 := V4_v0 m outs c
  have h1 := V4_v1 m outs c
  have h2 := V4_arg0 m outs c
  generalize V4 m outs c = W at h0 h1 h2 ⊢
  after_results_simp
  rw [h0, h1, h2]
  rfl

set_option maxHeartbeats 1000000 in
theorem V5_v39 : V5 m outs c main_v39 = val_main_v22 (F := Ideal) (m ((c : Thread nD τ).loc main_arg4)) (m ((c : Thread nD τ).loc main_arg6)) := by
  show StableHlo.after hostOps2 (V4 m outs c) (Proc.devRef .tc main_v39) = _
  have h0 := V4_arg4 m outs c
  have h1 := V4_arg6 m outs c
  generalize V4 m outs c = W at h0 h1 ⊢
  after_results_simp
  rw [h0, h1]
  rfl

theorem V5_cst_11 : V5 m outs c main_cst_11 = val_main_cst_27 (F := Ideal) := by
  show StableHlo.after hostOps2 (V4 m outs c) (Proc.devRef .tc main_cst_11) = _
  generalize V4 m outs c = W
  after_results_simp
  rfl

theorem V5_cst_12 : V5 m outs c main_cst_12 = val_main_cst_28 (F := Ideal) := by
  show StableHlo.after hostOps2 (V4 m outs c) (Proc.devRef .tc main_cst_12) = _
  generalize V4 m outs c = W
  after_results_simp
  rfl

/-! ### The clip of the colour features' squared distances to [1e-12, 50] -/

theorem V6_v54 : V6 m outs c main_v54 = val_main_v98 (F := Ideal) (m ((c : Thread nD τ).loc main_arg1)) (m ((c : Thread nD τ).loc main_arg5)) (m ((c : Thread nD τ).loc main_arg6)) (m ((c : Thread nD τ).loc main_arg7)) := by
  show StableHlo.after hostOps2_1 (V5 m outs c) (Proc.devRef .tc main_v54) = _
  have h0 := V5_v53 m outs c
  have h1 := V5_cst_11 m outs c
  have h2 := V5_cst_12 m outs c
  generalize V5 m outs c = W at h0 h1 h2 ⊢
  after_results_simp
  rw [h0, h1, h2]
  rfl

theorem V6_v25 : V6 m outs c main_v25 = val_main_v83 (F := Ideal) (m ((c : Thread nD τ).loc main_arg0)) (m ((c : Thread nD τ).loc main_arg7)) :=
  (V6_of m outs c main_v25 (by decide)).trans (V5_v25 m outs c)

theorem V6_v39 : V6 m outs c main_v39 = val_main_v22 (F := Ideal) (m ((c : Thread nD τ).loc main_arg4)) (m ((c : Thread nD τ).loc main_arg6)) :=
  (V6_of m outs c main_v39 (by decide)).trans (V5_v39 m outs c)

/-! ### The colour features' global minimum, and the point features' squared distances -/

theorem V7_v57 : V7 m outs c main_v57 = val_main_v101 (F := Ideal) (m ((c : Thread nD τ).loc main_arg1)) (m ((c : Thread nD τ).loc main_arg5)) (m ((c : Thread nD τ).loc main_arg6)) (m ((c : Thread nD τ).loc main_arg7)) := by
  show StableHlo.after hostOps2_2 (V6 m outs c) (Proc.devRef .tc main_v57) = _
  have h0 := V6_v54 m outs c
  generalize V6 m outs c = W at h0 ⊢
  after_results_simp
  rw [h0]
  rfl

set_option maxHeartbeats 1000000 in
theorem V7_v71 : V7 m outs c main_v71 = val_main_v115 (F := Ideal) (m ((c : Thread nD τ).loc main_arg0)) (m ((c : Thread nD τ).loc main_arg4)) (m ((c : Thread nD τ).loc main_arg6)) (m ((c : Thread nD τ).loc main_arg7)) := by
  show StableHlo.after hostOps2_2 (V6 m outs c) (Proc.devRef .tc main_v71) = _
  have h0 := V6_v25 m outs c
  have h1 := V6_v39 m outs c
  generalize V6 m outs c = W at h0 h1 ⊢
  after_results_simp
  rw [h0, h1]
  rfl

theorem V7_cst_17 : V7 m outs c main_cst_17 = val_main_cst_33 (F := Ideal) := by
  show StableHlo.after hostOps2_2 (V6 m outs c) (Proc.devRef .tc main_cst_17) = _
  generalize V6 m outs c = W
  after_results_simp
  rfl

theorem V7_cst_18 : V7 m outs c main_cst_18 = val_main_cst_34 (F := Ideal) := by
  show StableHlo.after hostOps2_2 (V6 m outs c) (Proc.devRef .tc main_cst_18) = _
  generalize V6 m outs c = W
  after_results_simp
  rfl

/-! ### The clip of the point features' squared distances, and what the last stretch reads of the earlier ones -/

theorem V8_v72 : V8 m outs c main_v72 = val_main_v116 (F := Ideal) (m ((c : Thread nD τ).loc main_arg0)) (m ((c : Thread nD τ).loc main_arg4)) (m ((c : Thread nD τ).loc main_arg6)) (m ((c : Thread nD τ).loc main_arg7)) := by
  show StableHlo.after hostOps2_3 (V7 m outs c) (Proc.devRef .tc main_v72) = _
  have h0 := V7_v71 m outs c
  have h1 := V7_cst_17 m outs c
  have h2 := V7_cst_18 m outs c
  generalize V7 m outs c = W at h0 h1 h2 ⊢
  after_results_simp
  rw [h0, h1, h2]
  rfl

theorem V8_v57 : V8 m outs c main_v57 = val_main_v101 (F := Ideal) (m ((c : Thread nD τ).loc main_arg1)) (m ((c : Thread nD τ).loc main_arg5)) (m ((c : Thread nD τ).loc main_arg6)) (m ((c : Thread nD τ).loc main_arg7)) :=
  (V8_of m outs c main_v57 (by decide)).trans (V7_v57 m outs c)

theorem V8_v11 : V8 m outs c main_v11 = meanPlain (P_of (outs 4 main_v7 c)) :=
  (V8_of m outs c main_v11 (by decide)).trans <| (V7_of m outs c main_v11 (by decide)).trans <| (V6_of m outs c main_v11 (by decide)).trans <| V5_v11 m outs c

theorem V8_v6 : V8 m outs c main_v6 = meanMasked (P_of (outs 2 main_v2 c)) (m ((c : Thread nD τ).loc main_arg7)) :=
  (V8_of m outs c main_v6 (by decide)).trans <| (V7_of m outs c main_v6 (by decide)).trans <| (V6_of m outs c main_v6 (by decide)).trans <| (V5_of m outs c main_v6 (by decide)).trans <| (V4_of m outs c main_v6 (by decide)).trans <| V3_v6 m outs c

end Kernel

/-- The kernel program's result is the shared chain applied to the reshaped results of its two calls: its host
    operations after the calls are the chain's operations one for one (the two global banks are gathered in the other
    order, which changes no value). -/
theorem ker_tail
    (m : (ℓ : Loc Cert.KernelIdeal.nD Cert.KernelIdeal.τ Cert.KernelIdeal.sig) → Buf (Elt Ideal) ℓ)
    (outs : Cert.KernelIdeal.Gen.Outs (F := Ideal)) (c : Dev Cert.KernelIdeal.nD) :
    Cert.KernelIdeal.Gen.V9 m outs c Cert.KernelIdeal.main_v83
      = tail (P_of (outs 2 Cert.KernelIdeal.main_v2 c)) (P_of (outs 4 Cert.KernelIdeal.main_v7 c))
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7)) := by
  show StableHlo.after Cert.KernelIdeal.Gen.hostOps2_4 (Cert.KernelIdeal.Gen.V8 m outs c) (Proc.devRef .tc Cert.KernelIdeal.main_v83) = _
  have h0 := V8_v72 m outs c
  have h1 := V8_v11 m outs c
  have h2 := V8_v6 m outs c
  have h3 := V8_v57 m outs c
  generalize Cert.KernelIdeal.Gen.V8 m outs c = W at h0 h1 h2 h3 ⊢
  after_results_simp
  rw [h0, h1, h2, h3]
  rfl

end Cert.Tail
-- ==== Proof.RefVal.lean ====
/-
  The reference's per-patch minimum distances, read index by index off its generated run.
  Per branch (point: rows of length 1152; rgb: rows of length 768) the reference gathers each sample's bank by its
  label, forms (Σx² + Σy²) − 2·Σxy for every feature row and bank row, clips, takes the square root and reduces by the
  minimum over the bank's 4096 rows from +∞. Under the precondition that every label is below ten the gather's signed,
  clamped read of the label is the label itself, and the reduced value at (b, p) is the specification's G.
-/
import proofs.«428568_j19971597926436_3_alg».proof.Proof.Gen.ReferenceIdeal.Run
import proofs.«428568_j19971597926436_3_alg».proof.Proof.Gen.ReferenceIdeal.Read
import proofs.«428568_j19971597926436_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic

/-! ## A label word below ten, as the select and the gather read it -/

/-- A 32-bit word whose value is below ten has its sign bit clear: read signed it is its own value. -/
theorem toInt_of_small (w : BitVec 32) (h : w.toNat < 10) : w.toInt = (w.toNat : Int) := by
  rw [BitVec.toInt_eq_toNat_cond, if_pos (by omega)]

/-- Read signed and clamped into [0, 9], such a word is its own value. -/
theorem label_read (w : BitVec 32) (h : w.toNat < 10) : min w.toInt.toNat (10 - 1) = w.toNat := by
  rw [toInt_of_small w h, Int.toNat_natCast]; omega

/-- Such a word is not below zero as a signed integer. -/
theorem slt_zero_of_small (w : BitVec 32) (h : w.toNat < 10) : IntOp.cmpi .slt w 0#32 = 0#1 := by
  have hs : w.slt 0#32 = false := by
    unfold BitVec.slt
    rw [toInt_of_small w h]
    simp
  unfold IntOp.cmpi
  simp only [hs]
  rfl

/-! ## A gather of whole slabs: `x[idx]` of a rank-3 operand `[N, R, C]` at a column `[B, 1]` of start indices

Offset axes `[1, 2]`, collapsed axis `[0]`, start index map `[0]`, index vector axis 1, slice sizes `[1, R, C]`:
result element `(b, r, c)` is the operand at `(idx[b, 0], r, c)`, the start index read signed and clamped into
`[0, N − 1]`. Stated once over the extents, used for both branches. -/

section Rows
variable {α : Type}

/-- Those dimension numbers. -/
abbrev rowDims (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- On the collapsed axis the operand index is the clamped start index. -/
theorem rows_axis0 {N R C B w : Nat}
    (wf : GatherDims.WF ⟨3, ![N, R, C]⟩ ⟨2, ![B, 1]⟩ ⟨3, ![B, R, C]⟩ [1, 2] [0] [] [0] [] 1 ![1, R, C])
    (idx : IVec ⟨2, ![B, 1]⟩ w) (b : Fin B) (r : Fin R) (c : Fin C) :
    ((rowDims N R C B wf).operandIdx (ValueIdx.ix3 b r c) idx 0).val
      = min (idx (ValueIdx.ix2 b ⟨0, Nat.one_pos⟩)).toInt.toNat (N - 1) := by
  show (rowDims N R C B wf).start (ValueIdx.ix3 b r c) idx 0 + (rowDims N R C B wf).batchCoord (ValueIdx.ix3 b r c) 0
    + (rowDims N R C B wf).offCoord (ValueIdx.ix3 b r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowDims N R C B wf).startIndexMap from List.mem_singleton.mpr rfl)]
  have hsi : (rowDims N R C B wf).siIdx (ValueIdx.ix3 b r c) ⟨List.idxOf (0 : Fin 3) (rowDims N R C B wf).startIndexMap,
      List.idxOf_lt_length_iff.2 (List.mem_singleton.mpr rfl)⟩ = ValueIdx.ix2 b ⟨0, Nat.one_pos⟩ := by
    funext a; refine Fin.ext ?_
    match a with
    | ⟨0, _⟩ => rfl
    | ⟨1, _⟩ => rfl
  rw [hsi]
  rfl

/-- On the first offset axis it is the result's row. -/
theorem rows_axis1 {N R C B w : Nat}
    (wf : GatherDims.WF ⟨3, ![N, R, C]⟩ ⟨2, ![B, 1]⟩ ⟨3, ![B, R, C]⟩ [1, 2] [0] [] [0] [] 1 ![1, R, C])
    (idx : IVec ⟨2, ![B, 1]⟩ w) (b : Fin B) (r : Fin R) (c : Fin C) :
    ((rowDims N R C B wf).operandIdx (ValueIdx.ix3 b r c) idx 1).val = r.val := by
  have h1 : (rowDims N R C B wf).start (ValueIdx.ix3 b r c) idx 1 = 0 := rfl
  have h2 : (rowDims N R C B wf).batchCoord (ValueIdx.ix3 b r c) 1 = 0 :=
    GatherDims.batchCoord_eq_zero _ _ _ List.not_mem_nil
  have h3 : (rowDims N R C B wf).offCoord (ValueIdx.ix3 b r c) 1 = r.val := rfl
  show (rowDims N R C B wf).start (ValueIdx.ix3 b r c) idx 1 + (rowDims N R C B wf).batchCoord (ValueIdx.ix3 b r c) 1
    + (rowDims N R C B wf).offCoord (ValueIdx.ix3 b r c) 1 = _
  rw [h1, h2, h3]; omega

/-- On the second offset axis it is the result's column. -/
theorem rows_axis2 {N R C B w : Nat}
    (wf : GatherDims.WF ⟨3, ![N, R, C]⟩ ⟨2, ![B, 1]⟩ ⟨3, ![B, R, C]⟩ [1, 2] [0] [] [0] [] 1 ![1, R, C])
    (idx : IVec ⟨2, ![B, 1]⟩ w) (b : Fin B) (r : Fin R) (c : Fin C) :
    ((rowDims N R C B wf).operandIdx (ValueIdx.ix3 b r c) idx 2).val = c.val := by
  have h1 : (rowDims N R C B wf).start (ValueIdx.ix3 b r c) idx 2 = 0 := rfl
  have h2 : (rowDims N R C B wf).batchCoord (ValueIdx.ix3 b r c) 2 = 0 :=
    GatherDims.batchCoord_eq_zero _ _ _ List.not_mem_nil
  have h3 : (rowDims N R C B wf).offCoord (ValueIdx.ix3 b r c) 2 = c.val := rfl
  show (rowDims N R C B wf).start (ValueIdx.ix3 b r c) idx 2 + (rowDims N R C B wf).batchCoord (ValueIdx.ix3 b r c) 2
    + (rowDims N R C B wf).offCoord (ValueIdx.ix3 b r c) 2 = _
  rw [h1, h2, h3]; omega

/-- The gather at `(b, r, c)`. -/
theorem gather_rows_apply {N R C B w : Nat} (hN : 0 < N)
    (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ w) (b : Fin B) (r : Fin R) (c : Fin C) :
    Host.gather (rowDims N R C B wf) x idx (ValueIdx.ix3 b r c)
      = x (ValueIdx.ix3 ⟨min (idx (ValueIdx.ix2 b ⟨0, Nat.one_pos⟩)).toInt.toNat (N - 1), by omega⟩ r c) := by
  unfold Host.gather
  refine congrArg x (funext fun a => Fin.ext ?_)
  match a with
  | ⟨0, _⟩ => exact rows_axis0 wf idx b r c
  | ⟨1, _⟩ => exact rows_axis1 wf idx b r c
  | ⟨2, _⟩ => exact rows_axis2 wf idx b r c

end Rows

/-! ## The reduced axis -/

/-- The index over `(b, p)` with coordinate `j` on the reduced (last) axis. -/
theorem lift_eq (h : S16x784x4096.Reduces [2] S16x784) (b : Fin 16) (p : Fin 784) (j : Fin 4096) :
    h.lift (ValueIdx.ix2 b p) j = ValueIdx.ix3 b p j :=
  funext fun a => Fin.ext (by
    match a with
    | ⟨0, _⟩ => rfl
    | ⟨1, _⟩ => rfl
    | ⟨2, _⟩ => rfl)

/-! ## The point branch (rows of length 1152) -/

/-- The start-index column at sample `b` is the label's own word: the label is not negative, so the select keeps it. -/
theorem pt_label_word (x6 : (⟨S16, .i32⟩ : BufTy).Contents (Elt Ideal)) (hcl : ∀ x : S16.Idx, (x6 x).toNat < 10) (b : Fin 16) :
    val_main_v7 (F := Ideal) x6 (ValueIdx.ix2 b ⟨0, Nat.one_pos⟩) = x6 (ValueIdx.ix1 b) := by
  have e : idx_main_v7 (ValueIdx.ix2 b (⟨0, Nat.one_pos⟩ : Fin 1)) = ValueIdx.ix1 b :=
    funext fun a => Fin.ext (by match a with | ⟨0, _⟩ => rfl)
  rw [val_main_v7_apply, e, val_main_v6_apply, val_main_v3_apply, val_main_v2_apply, val_main_c_apply,
    slt_zero_of_small _ (hcl _), ValueIdx.select_zero]

/-- The gathered bank at `(b, j, d)` is row `j`, column `d` of the bank the label of sample `b` names. -/
theorem pt_bank_row (x2 : (⟨S10x4096x1152, .f32⟩ : BufTy).Contents (Elt Ideal)) (x6 : (⟨S16, .i32⟩ : BufTy).Contents (Elt Ideal)) (hcl : ∀ x : S16.Idx, (x6 x).toNat < 10) (b : Fin 16) (j : Fin 4096) (d : Fin 1152) :
    val_main_v8 (F := Ideal) x2 x6 (ValueIdx.ix3 b j d) = x2 (ValueIdx.ix3 (⟨(x6 (ValueIdx.ix1 b)).toNat, hcl _⟩ : Fin 10) j d) := by
  unfold val_main_v8
  refine (gather_rows_apply (N := 10) (R := 4096) (C := 1152) (B := 16) (by decide)
    gather_S10x4096x1152_S16x1_S16x4096x1152_12_0_n_n_0_1_140961152_wf x2 (val_main_v7 (F := Ideal) x6) b j d).trans ?_
  have hm : min (val_main_v7 (F := Ideal) x6 (ValueIdx.ix2 b ⟨0, Nat.one_pos⟩)).toInt.toNat (10 - 1)
      = (x6 (ValueIdx.ix1 b)).toNat := by
    rw [pt_label_word x6 hcl b]; exact label_read _ (hcl _)
  exact congrArg x2 (funext fun a => Fin.ext (by
    match a with
    | ⟨0, _⟩ => exact hm
    | ⟨1, _⟩ => rfl
    | ⟨2, _⟩ => rfl))

/-- The broadcast squared norm of feature row `(b, p)`. -/
theorem pt_xx_eq (x0 : (⟨S16x784x1152, .f32⟩ : BufTy).Contents (Elt Ideal)) (b : Fin 16) (p : Fin 784) (j : Fin 4096) :
    val_main_v36 (F := Ideal) x0 (ValueIdx.ix3 b p j) = Cert.Spec.sq (fun d => x0 (ValueIdx.ix3 b p d)) := by
  have e : ∀ k : Fin 1152, idx_main_v31 (idx_main_v32 (idx_main_v36 (ValueIdx.ix3 b p j))) k = ValueIdx.ix3 b p k :=
    fun k => funext fun a => Fin.ext (by match a with | ⟨0, _⟩ => rfl | ⟨1, _⟩ => rfl | ⟨2, _⟩ => rfl)
  have hz : val_main_cst_7 (F := Ideal) (Shape.Idx.first h_S_) = 0 := Ideal.ofBits_zero_f32
  rw [val_main_v36_apply, val_main_v32_apply, val_main_v31_apply, hz, zero_add]
  unfold Cert.Spec.sq
  refine Finset.sum_congr rfl fun k _ => ?_
  rw [val_main_v30_apply, e k]
  rfl

/-- The broadcast squared norm of row `j` of the sample's bank. -/
theorem pt_yy_eq (x2 : (⟨S10x4096x1152, .f32⟩ : BufTy).Contents (Elt Ideal)) (x6 : (⟨S16, .i32⟩ : BufTy).Contents (Elt Ideal)) (hcl : ∀ x : S16.Idx, (x6 x).toNat < 10) (b : Fin 16) (p : Fin 784) (j : Fin 4096) :
    val_main_v37 (F := Ideal) x2 x6 (ValueIdx.ix3 b p j)
      = Cert.Spec.sq (fun d => x2 (ValueIdx.ix3 (⟨(x6 (ValueIdx.ix1 b)).toNat, hcl _⟩ : Fin 10) j d)) := by
  have e : ∀ k : Fin 1152, idx_main_v34 (idx_main_v35 (idx_main_v37 (ValueIdx.ix3 b p j))) k = ValueIdx.ix3 b j k :=
    fun k => funext fun a => Fin.ext (by match a with | ⟨0, _⟩ => rfl | ⟨1, _⟩ => rfl | ⟨2, _⟩ => rfl)
  have hz : val_main_cst_8 (F := Ideal) (Shape.Idx.first h_S_) = 0 := Ideal.ofBits_zero_f32
  rw [val_main_v37_apply, val_main_v35_apply, val_main_v34_apply, hz, zero_add]
  unfold Cert.Spec.sq
  refine Finset.sum_congr rfl fun k _ => ?_
  rw [val_main_v33_apply, e k, pt_bank_row x2 x6 hcl b j k]
  rfl

/-- The inner product of feature row `(b, p)` with row `j` of the sample's bank. -/
theorem pt_xy_eq (x0 : (⟨S16x784x1152, .f32⟩ : BufTy).Contents (Elt Ideal)) (x2 : (⟨S10x4096x1152, .f32⟩ : BufTy).Contents (Elt Ideal)) (x6 : (⟨S16, .i32⟩ : BufTy).Contents (Elt Ideal)) (hcl : ∀ x : S16.Idx, (x6 x).toNat < 10) (b : Fin 16) (p : Fin 784) (j : Fin 4096) :
    val_main_v40 (F := Ideal) x0 x2 x6 (ValueIdx.ix3 b p j)
      = ∑ d : Fin 1152, x0 (ValueIdx.ix3 b p d) * x2 (ValueIdx.ix3 (⟨(x6 (ValueIdx.ix1 b)).toNat, hcl _⟩ : Fin 10) j d) := by
  have el : ∀ k : Fin 1152, lidx_main_v40 (ValueIdx.ix3 b p j) k = ValueIdx.ix3 b p k :=
    fun k => funext fun a => Fin.ext (by match a with | ⟨0, _⟩ => rfl | ⟨1, _⟩ => rfl | ⟨2, _⟩ => rfl)
  have er : ∀ k : Fin 1152, idx_main_v39 (ridx_main_v40 (ValueIdx.ix3 b p j) k) = ValueIdx.ix3 b j k :=
    fun k => funext fun a => Fin.ext (by match a with | ⟨0, _⟩ => rfl | ⟨1, _⟩ => rfl | ⟨2, _⟩ => rfl)
  rw [val_main_v40_apply]
  refine Finset.sum_congr rfl fun k _ => ?_
  rw [val_main_v39_apply, el k, er k, pt_bank_row x2 x6 hcl b j k]

/-- The clipped distance from feature row `(b, p)` to row `j` of the sample's bank. -/
theorem pt_cdist_eq (x0 : (⟨S16x784x1152, .f32⟩ : BufTy).Contents (Elt Ideal)) (x2 : (⟨S10x4096x1152, .f32⟩ : BufTy).Contents (Elt Ideal)) (x6 : (⟨S16, .i32⟩ : BufTy).Contents (Elt Ideal)) (hcl : ∀ x : S16.Idx, (x6 x).toNat < 10) (b : Fin 16) (p : Fin 784) (j : Fin 4096) :
    val_main_v45 (F := Ideal) x0 x2 x6 (ValueIdx.ix3 b p j)
      = Cert.Spec.cdist (fun d => x0 (ValueIdx.ix3 b p d)) (fun d => x2 (ValueIdx.ix3 (⟨(x6 (ValueIdx.ix1 b)).toNat, hcl _⟩ : Fin 10) j d)) := by
  rw [val_main_v45_apply, val_main_v44_apply, val_main_call0_v4_apply, val_main_call0_v3_apply, val_main_cst_11_apply,
    val_main_call0_v2_apply, val_main_call0_v1_apply, val_main_call0_v0_apply, val_main_cst_10_apply,
    val_main_v43_apply, val_main_v38_apply, val_main_v42_apply, val_main_v41_apply, val_main_cst_9_apply,
    pt_xx_eq x0 b p j, pt_yy_eq x2 x6 hcl b p j, pt_xy_eq x0 x2 x6 hcl b p j]
  rfl

/-- The reference's minimum over the bank at `(b, p)` is the specification's. -/
theorem minpt_eq (x0 : (⟨S16x784x1152, .f32⟩ : BufTy).Contents (Elt Ideal)) (x2 : (⟨S10x4096x1152, .f32⟩ : BufTy).Contents (Elt Ideal))
    (x6 : (⟨S16, .i32⟩ : BufTy).Contents (Elt Ideal)) (hcl : ∀ x : S16.Idx, (x6 x).toNat < 10) (b : Fin 16) (p : Fin 784) :
    val_main_v46 (F := Ideal) x0 x2 x6 (ValueIdx.ix2 b p)
      = Cert.Spec.G (fun b p d => x0 (ValueIdx.ix3 b p d)) (fun k j d => x2 (ValueIdx.ix3 k j d))
          (fun b => ⟨(x6 (ValueIdx.ix1 b)).toNat, hcl _⟩) b p := by
  have hred : S16x784x4096.Reduces [2] S16x784 := by decide
  unfold val_main_v46
  rw [Host.reduce_eq_fold_single (FloatOps.minimumf (F := Ideal) (φ := .f32)) _ _ reducesTo_S16x784x4096_S16x784_d2 hred h_S_]
  unfold Cert.Spec.G Cert.Spec.minDist
  refine Finset.fold_congr fun j _ => ?_
  show val_main_v45 (F := Ideal) x0 x2 x6 (hred.lift (ValueIdx.ix2 b p) j) = _
  rw [lift_eq hred b p j]
  exact pt_cdist_eq x0 x2 x6 hcl b p j

/-! ## The rgb branch (rows of length 768) -/

/-- The start-index column at sample `b` is the label's own word: the label is not negative, so the select keeps it. -/
theorem rgb_label_word (x6 : (⟨S16, .i32⟩ : BufTy).Contents (Elt Ideal)) (hcl : ∀ x : S16.Idx, (x6 x).toNat < 10) (b : Fin 16) :
    val_main_v14 (F := Ideal) x6 (ValueIdx.ix2 b ⟨0, Nat.one_pos⟩) = x6 (ValueIdx.ix1 b) := by
  have e : idx_main_v14 (ValueIdx.ix2 b (⟨0, Nat.one_pos⟩ : Fin 1)) = ValueIdx.ix1 b :=
    funext fun a => Fin.ext (by match a with | ⟨0, _⟩ => rfl)
  rw [val_main_v14_apply, e, val_main_v13_apply, val_main_v10_apply, val_main_v9_apply, val_main_c_1_apply,
    slt_zero_of_small _ (hcl _), ValueIdx.select_zero]

/-- The gathered bank at `(b, j, d)` is row `j`, column `d` of the bank the label of sample `b` names. -/
theorem rgb_bank_row (x3 : (⟨S10x4096x768, .f32⟩ : BufTy).Contents (Elt Ideal)) (x6 : (⟨S16, .i32⟩ : BufTy).Contents (Elt Ideal)) (hcl : ∀ x : S16.Idx, (x6 x).toNat < 10) (b : Fin 16) (j : Fin 4096) (d : Fin 768) :
    val_main_v15 (F := Ideal) x3 x6 (ValueIdx.ix3 b j d) = x3 (ValueIdx.ix3 (⟨(x6 (ValueIdx.ix1 b)).toNat, hcl _⟩ : Fin 10) j d) := by
  unfold val_main_v15
  refine (gather_rows_apply (N := 10) (R := 4096) (C := 768) (B := 16) (by decide)
    gather_S10x4096x768_S16x1_S16x4096x768_12_0_n_n_0_1_14096768_wf x3 (val_main_v14 (F := Ideal) x6) b j d).trans ?_
  have hm : min (val_main_v14 (F := Ideal) x6 (ValueIdx.ix2 b ⟨0, Nat.one_pos⟩)).toInt.toNat (10 - 1)
      = (x6 (ValueIdx.ix1 b)).toNat := by
    rw [rgb_label_word x6 hcl b]; exact label_read _ (hcl _)
  exact congrArg x3 (funext fun a => Fin.ext (by
    match a with
    | ⟨0, _⟩ => exact hm
    | ⟨1, _⟩ => rfl
    | ⟨2, _⟩ => rfl))

/-- The broadcast squared norm of feature row `(b, p)`. -/
theorem rgb_xx_eq (x1 : (⟨S16x784x768, .f32⟩ : BufTy).Contents (Elt Ideal)) (b : Fin 16) (p : Fin 784) (j : Fin 4096) :
    val_main_v56 (F := Ideal) x1 (ValueIdx.ix3 b p j) = Cert.Spec.sq (fun d => x1 (ValueIdx.ix3 b p d)) := by
  have e : ∀ k : Fin 768, idx_main_v51 (idx_main_v52 (idx_main_v56 (ValueIdx.ix3 b p j))) k = ValueIdx.ix3 b p k :=
    fun k => funext fun a => Fin.ext (by match a with | ⟨0, _⟩ => rfl | ⟨1, _⟩ => rfl | ⟨2, _⟩ => rfl)
  have hz : val_main_cst_14 (F := Ideal) (Shape.Idx.first h_S_) = 0 := Ideal.ofBits_zero_f32
  rw [val_main_v56_apply, val_main_v52_apply, val_main_v51_apply, hz, zero_add]
  unfold Cert.Spec.sq
  refine Finset.sum_congr rfl fun k _ => ?_
  rw [val_main_v50_apply, e k]
  rfl

/-- The broadcast squared norm of row `j` of the sample's bank. -/
theorem rgb_yy_eq (x3 : (⟨S10x4096x768, .f32⟩ : BufTy).Contents (Elt Ideal)) (x6 : (⟨S16, .i32⟩ : BufTy).Contents (Elt Ideal)) (hcl : ∀ x : S16.Idx, (x6 x).toNat < 10) (b : Fin 16) (p : Fin 784) (j : Fin 4096) :
    val_main_v57 (F := Ideal) x3 x6 (ValueIdx.ix3 b p j)
      = Cert.Spec.sq (fun d => x3 (ValueIdx.ix3 (⟨(x6 (ValueIdx.ix1 b)).toNat, hcl _⟩ : Fin 10) j d)) := by
  have e : ∀ k : Fin 768, idx_main_v54 (idx_main_v55 (idx_main_v57 (ValueIdx.ix3 b p j))) k = ValueIdx.ix3 b j k :=
    fun k => funext fun a => Fin.ext (by match a with | ⟨0, _⟩ => rfl | ⟨1, _⟩ => rfl | ⟨2, _⟩ => rfl)
  have hz : val_main_cst_15 (F := Ideal) (Shape.Idx.first h_S_) = 0 := Ideal.ofBits_zero_f32
  rw [val_main_v57_apply, val_main_v55_apply, val_main_v54_apply, hz, zero_add]
  unfold Cert.Spec.sq
  refine Finset.sum_congr rfl fun k _ => ?_
  rw [val_main_v53_apply, e k, rgb_bank_row x3 x6 hcl b j k]
  rfl

/-- The inner product of feature row `(b, p)` with row `j` of the sample's bank. -/
theorem rgb_xy_eq (x1 : (⟨S16x784x768, .f32⟩ : BufTy).Contents (Elt Ideal)) (x3 : (⟨S10x4096x768, .f32⟩ : BufTy).Contents (Elt Ideal)) (x6 : (⟨S16, .i32⟩ : BufTy).Contents (Elt Ideal)) (hcl : ∀ x : S16.Idx, (x6 x).toNat < 10) (b : Fin 16) (p : Fin 784) (j : Fin 4096) :
    val_main_v60 (F := Ideal) x1 x3 x6 (ValueIdx.ix3 b p j)
      = ∑ d : Fin 768, x1 (ValueIdx.ix3 b p d) * x3 (ValueIdx.ix3 (⟨(x6 (ValueIdx.ix1 b)).toNat, hcl _⟩ : Fin 10) j d) := by
  have el : ∀ k : Fin 768, lidx_main_v60 (ValueIdx.ix3 b p j) k = ValueIdx.ix3 b p k :=
    fun k => funext fun a => Fin.ext (by match a with | ⟨0, _⟩ => rfl | ⟨1, _⟩ => rfl | ⟨2, _⟩ => rfl)
  have er : ∀ k : Fin 768, idx_main_v59 (ridx_main_v60 (ValueIdx.ix3 b p j) k) = ValueIdx.ix3 b j k :=
    fun k => funext fun a => Fin.ext (by match a with | ⟨0, _⟩ => rfl | ⟨1, _⟩ => rfl | ⟨2, _⟩ => rfl)
  rw [val_main_v60_apply]
  refine Finset.sum_congr rfl fun k _ => ?_
  rw [val_main_v59_apply, el k, er k, rgb_bank_row x3 x6 hcl b j k]

/-- The clipped distance from feature row `(b, p)` to row `j` of the sample's bank. -/
theorem rgb_cdist_eq (x1 : (⟨S16x784x768, .f32⟩ : BufTy).Contents (Elt Ideal)) (x3 : (⟨S10x4096x768, .f32⟩ : BufTy).Contents (Elt Ideal)) (x6 : (⟨S16, .i32⟩ : BufTy).Contents (Elt Ideal)) (hcl : ∀ x : S16.Idx, (x6 x).toNat < 10) (b : Fin 16) (p : Fin 784) (j : Fin 4096) :
    val_main_v65 (F := Ideal) x1 x3 x6 (ValueIdx.ix3 b p j)
      = Cert.Spec.cdist (fun d => x1 (ValueIdx.ix3 b p d)) (fun d => x3 (ValueIdx.ix3 (⟨(x6 (ValueIdx.ix1 b)).toNat, hcl _⟩ : Fin 10) j d)) := by
  rw [val_main_v65_apply, val_main_v64_apply, val_main_call1_v4_apply, val_main_call1_v3_apply, val_main_cst_18_apply,
    val_main_call1_v2_apply, val_main_call1_v1_apply, val_main_call1_v0_apply, val_main_cst_17_apply,
    val_main_v63_apply, val_main_v58_apply, val_main_v62_apply, val_main_v61_apply, val_main_cst_16_apply,
    rgb_xx_eq x1 b p j, rgb_yy_eq x3 x6 hcl b p j, rgb_xy_eq x1 x3 x6 hcl b p j]
  rfl

/-- The reference's minimum over the bank at `(b, p)` is the specification's. -/
theorem minrgb_eq (x1 : (⟨S16x784x768, .f32⟩ : BufTy).Contents (Elt Ideal)) (x3 : (⟨S10x4096x768, .f32⟩ : BufTy).Contents (Elt Ideal))
    (x6 : (⟨S16, .i32⟩ : BufTy).Contents (Elt Ideal)) (hcl : ∀ x : S16.Idx, (x6 x).toNat < 10) (b : Fin 16) (p : Fin 784) :
    val_main_v66 (F := Ideal) x1 x3 x6 (ValueIdx.ix2 b p)
      = Cert.Spec.G (fun b p d => x1 (ValueIdx.ix3 b p d)) (fun k j d => x3 (ValueIdx.ix3 k j d))
          (fun b => ⟨(x6 (ValueIdx.ix1 b)).toNat, hcl _⟩) b p := by
  have hred : S16x784x4096.Reduces [2] S16x784 := by decide
  unfold val_main_v66
  rw [Host.reduce_eq_fold_single (FloatOps.minimumf (F := Ideal) (φ := .f32)) _ _ reducesTo_S16x784x4096_S16x784_d2 hred h_S_]
  unfold Cert.Spec.G Cert.Spec.minDist
  refine Finset.fold_congr fun j _ => ?_
  show val_main_v65 (F := Ideal) x1 x3 x6 (hred.lift (ValueIdx.ix2 b p) j) = _
  rw [lift_eq hred b p j]
  exact rgb_cdist_eq x1 x3 x6 hcl b p j

end Cert.ReferenceIdeal.RefValue

end
-- ==== Proof.Claims.lean ====
/-
  The five claims assembled. The label table's range is read off the precondition; under it both regions' pipelines
  are admissible and the kernel's run ends with every unscoped buffer at the last valuation, whence the frames and the
  kernel's result. The reference's run gives its result as the composed term of the arguments. Both results are one
  function of the two arrays of per-patch minimum distances and the arguments, and each array of minimum distances is
  the specification's G of the features, the banks and the labels, on the kernel's side and on the reference's.
-/
import proofs.«428568_j19971597926436_3_alg».proof.Defs
import proofs.«428568_j19971597926436_3_alg».proof.Proof.Tbl
import proofs.«428568_j19971597926436_3_alg».proof.Proof.TblK
import proofs.«428568_j19971597926436_3_alg».proof.Proof.Spec
import proofs.«428568_j19971597926436_3_alg».proof.Proof.Run
import proofs.«428568_j19971597926436_3_alg».proof.Proof.RunK
import proofs.«428568_j19971597926436_3_alg».proof.Proof.KVal0
import proofs.«428568_j19971597926436_3_alg».proof.Proof.KVal1
import proofs.«428568_j19971597926436_3_alg».proof.Proof.Tail
import proofs.«428568_j19971597926436_3_alg».proof.Proof.RefVal
import proofs.«428568_j19971597926436_3_alg».proof.Proof.Gen.Kernel.Regions
import proofs.«428568_j19971597926436_3_alg».proof.Proof.Gen.KernelIdeal.Regions
import proofs.«428568_j19971597926436_3_alg».proof.Proof.Gen.ReferenceIdeal.Run
import proofs.«428568_j19971597926436_3_alg».proof.Proof.Gen.ReferenceIdeal.Read
import proofs.«428568_j19971597926436_3_alg».proof.Proof.Gen.Pre_finite_inputs
import Idealize.ShloMosaic.Lib.ValueIdx

set_option maxRecDepth 16384

noncomputable section

open Idealize.ShloMosaic Idealize.ShloMosaic.TcCoe Idealize.SL.Sem

namespace Cert.Proof.Claims

/-! ## The labels' range, from the precondition -/

/-- The idealized kernel's precondition puts every label below ten. -/
theorem inRange_KI (m : (ℓ : Loc Cert.KernelIdeal.nD Cert.KernelIdeal.τ Cert.KernelIdeal.sig) → Buf (Elt Ideal) ℓ)
    (h : Cert.Pre_KernelIdeal m) : Cert.KernelIdeal.Hand.InRange m :=
  Cert.KernelIdeal.Hand.inRange_of_fn _ _ _ _ _ _ _ _ (h 0)

/-- The kernel's precondition puts every label below ten. -/
theorem inRange_K (m : (ℓ : Loc Cert.Kernel.nD Cert.Kernel.τ Cert.Kernel.sig) → Buf (Elt Bits) ℓ)
    (h : Cert.Pre_Kernel m) : Cert.Kernel.Hand.InRange m :=
  Cert.Kernel.Hand.inRange_of_fn _ _ _ _ _ _ _ _ (h 0)

/-- A reference memory that agrees with the kernel's on the label argument has every label below ten. -/
theorem inRange_RI (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal m) (c : Dev Cert.KernelIdeal.nD)
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6)) :
    ∀ x : Cert.ReferenceIdeal.S16.Idx,
      (m' ((c.tc : Thread Cert.ReferenceIdeal.nD Cert.ReferenceIdeal.τ).loc Cert.ReferenceIdeal.main_arg6) x).toNat < 10 := by
  obtain rfl : c = 0 := Subsingleton.elim _ _
  intro x
  rw [congrFun h6 x]
  exact inRange_KI m h x

/-! ## The arguments read off the last valuation -/

section ArgsKI
open Cert.KernelIdeal Cert.KernelIdeal.Gen
variable {F : FTy → Type} [FloatOps F]

/-- A memory that holds every unscoped buffer at the last valuation holds each argument as launched. -/
theorem args_KI (m : (ℓ : Loc nD τ sig) → Buf (Elt F) ℓ) (outs : Gen.Outs (F := F)) (μ : (ℓ : Loc nD τ sig) → Buf (Elt F) ℓ) (c : Dev nD)
    (h : ∀ b ∈ Pipeline.ucRefs τ sig, μ ((c : Thread nD τ).1, b) = Gen.V9 m outs c b) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7) :=
  ⟨(h (Proc.devRef .tc main_arg0) (Finset.mem_filter.mpr ⟨StableHlo.devRef_mem_tcRefs main_arg0, by decide⟩)).trans (V9_main_arg0 m outs c),
   (h (Proc.devRef .tc main_arg1) (Finset.mem_filter.mpr ⟨StableHlo.devRef_mem_tcRefs main_arg1, by decide⟩)).trans (V9_main_arg1 m outs c),
   (h (Proc.devRef .tc main_arg2) (Finset.mem_filter.mpr ⟨StableHlo.devRef_mem_tcRefs main_arg2, by decide⟩)).trans (V9_main_arg2 m outs c),
   (h (Proc.devRef .tc main_arg3) (Finset.mem_filter.mpr ⟨StableHlo.devRef_mem_tcRefs main_arg3, by decide⟩)).trans (V9_main_arg3 m outs c),
   (h (Proc.devRef .tc main_arg4) (Finset.mem_filter.mpr ⟨StableHlo.devRef_mem_tcRefs main_arg4, by decide⟩)).trans (V9_main_arg4 m outs c),
   (h (Proc.devRef .tc main_arg5) (Finset.mem_filter.mpr ⟨StableHlo.devRef_mem_tcRefs main_arg5, by decide⟩)).trans (V9_main_arg5 m outs c),
   (h (Proc.devRef .tc main_arg6) (Finset.mem_filter.mpr ⟨StableHlo.devRef_mem_tcRefs main_arg6, by decide⟩)).trans (V9_main_arg6 m outs c),
   (h (Proc.devRef .tc main_arg7) (Finset.mem_filter.mpr ⟨StableHlo.devRef_mem_tcRefs main_arg7, by decide⟩)).trans (V9_main_arg7 m outs c)⟩

end ArgsKI

section ArgsK
open Cert.Kernel Cert.Kernel.Gen
variable {F : FTy → Type} [FloatOps F]

/-- The same for the kernel as printed. -/
theorem args_K (m : (ℓ : Loc nD τ sig) → Buf (Elt F) ℓ) (outs : Gen.Outs (F := F)) (μ : (ℓ : Loc nD τ sig) → Buf (Elt F) ℓ) (c : Dev nD)
    (h : ∀ b ∈ Pipeline.ucRefs τ sig, μ ((c : Thread nD τ).1, b) = Gen.V9 m outs c b) :
    μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7) :=
  ⟨(h (Proc.devRef .tc main_arg0) (Finset.mem_filter.mpr ⟨StableHlo.devRef_mem_tcRefs main_arg0, by decide⟩)).trans (V9_main_arg0 m outs c),
   (h (Proc.devRef .tc main_arg1) (Finset.mem_filter.mpr ⟨StableHlo.devRef_mem_tcRefs main_arg1, by decide⟩)).trans (V9_main_arg1 m outs c),
   (h (Proc.devRef .tc main_arg2) (Finset.mem_filter.mpr ⟨StableHlo.devRef_mem_tcRefs main_arg2, by decide⟩)).trans (V9_main_arg2 m outs c),
   (h (Proc.devRef .tc main_arg3) (Finset.mem_filter.mpr ⟨StableHlo.devRef_mem_tcRefs main_arg3, by decide⟩)).trans (V9_main_arg3 m outs c),
   (h (Proc.devRef .tc main_arg4) (Finset.mem_filter.mpr ⟨StableHlo.devRef_mem_tcRefs main_arg4, by decide⟩)).trans (V9_main_arg4 m outs c),
   (h (Proc.devRef .tc main_arg5) (Finset.mem_filter.mpr ⟨StableHlo.devRef_mem_tcRefs main_arg5, by decide⟩)).trans (V9_main_arg5 m outs c),
   (h (Proc.devRef .tc main_arg6) (Finset.mem_filter.mpr ⟨StableHlo.devRef_mem_tcRefs main_arg6, by decide⟩)).trans (V9_main_arg6 m outs c),
   (h (Proc.devRef .tc main_arg7) (Finset.mem_filter.mpr ⟨StableHlo.devRef_mem_tcRefs main_arg7, by decide⟩)).trans (V9_main_arg7 m outs c)⟩

end ArgsK

/-! ## The frames -/

theorem frame_K : Cert.frame_Kernel := fun m ρ hpre =>
  (θ_run (Cert.Kernel.defs (F := Bits)) _ _).mono (fun r h c => args_K m _ r.2.mem c (h c))
    (Cert.Kernel.Hand.run_main m (inRange_K m hpre) ρ)

theorem frame_KI : Cert.frame_KernelIdeal := fun m ρ hpre =>
  (θ_run (Cert.KernelIdeal.defs (F := Ideal)) _ _).mono (fun r h c => args_KI m _ r.2.mem c (h c))
    (Cert.KernelIdeal.Hand.run_main m (inRange_KI m hpre) ρ)

theorem frame_RI : Cert.frame_ReferenceIdeal := fun m ρ _ =>
  (θ_run (Cert.ReferenceIdeal.defs (F := Ideal)) _ _).mono (fun _ h c => (h c).2) (Cert.ReferenceIdeal.Value.run (F := Ideal) m ρ)

/-! ## The idealization -/

theorem preserves : Cert.preserves_Kernel_KernelIdeal := trivial

/-! ## The value -/

section Algebraic
open Cert.KernelIdeal Cert.KernelIdeal.Gen Cert.KernelIdeal.Hand

variable (m : (ℓ : Loc nD τ sig) → Buf (Elt Ideal) ℓ) (hcl : InRange m)

/-- Region 0's output array after the run, as the reference's array of minimum distances: at (b, p) both are the
    smallest clipped distance from feature row (b, p) to the rows of the bank label b names. -/
theorem min_point (c : Dev nD) :
    Cert.ReferenceIdeal.Read.val_main_v46 (F := Ideal) (m ((c.tc : Thread nD τ).loc main_arg0)) (m ((c.tc : Thread nD τ).loc main_arg2))
        (m ((c.tc : Thread nD τ).loc main_arg6))
      = Cert.Tail.P_of (outsOf m hcl 2 main_v2 c) := by
  obtain rfl : c = 0 := Subsingleton.elim _ _
  have e0 : Gen.V1 m 0 main_arg0 = m (((0 : Dev nD).tc : Thread nD τ).loc main_arg0) := (Gen.V1_of m 0 main_arg0 (by decide)).trans rfl
  have e2 : Gen.V1 m 0 main_arg2 = m (((0 : Dev nD).tc : Thread nD τ).loc main_arg2) := (Gen.V1_of m 0 main_arg2 (by decide)).trans rfl
  funext j
  obtain ⟨b, p, rfl⟩ : ∃ (b : Fin 16) (p : Fin 784), j = ValueIdx.ix2 b p := ⟨j 0, j 1, ValueIdx.eq_ix2 j⟩
  rw [Cert.Tail.P_of_apply, outsOf_2,
    Cert.KernelIdeal.KVal.kval0 (adm m hcl 0) (fun c b => Gen.V1 m c b) 0 (fun x => hcl x),
    Cert.ReferenceIdeal.RefValue.minpt_eq _ _ _ (fun x => hcl x)]
  simp only [e0, e2]
  rfl

/-- Region 1's output array after the run, as the reference's array of minimum distances of the second branch. -/
theorem min_rgb (c : Dev nD) :
    Cert.ReferenceIdeal.Read.val_main_v66 (F := Ideal) (m ((c.tc : Thread nD τ).loc main_arg1)) (m ((c.tc : Thread nD τ).loc main_arg3))
        (m ((c.tc : Thread nD τ).loc main_arg6))
      = Cert.Tail.P_of (outsOf m hcl 4 main_v7 c) := by
  obtain rfl : c = 0 := Subsingleton.elim _ _
  have e1 : Gen.V3 m (outsOf m hcl) 0 main_arg1 = m (((0 : Dev nD).tc : Thread nD τ).loc main_arg1) :=
    (Gen.V3_of m _ 0 main_arg1 (by decide)).trans <| (Gen.V2_of m _ 0 main_arg1 (by decide)).trans <| (Gen.V1_of m 0 main_arg1 (by decide)).trans rfl
  have e3 : Gen.V3 m (outsOf m hcl) 0 main_arg3 = m (((0 : Dev nD).tc : Thread nD τ).loc main_arg3) :=
    (Gen.V3_of m _ 0 main_arg3 (by decide)).trans <| (Gen.V2_of m _ 0 main_arg3 (by decide)).trans <| (Gen.V1_of m 0 main_arg3 (by decide)).trans rfl
  funext j
  obtain ⟨b, p, rfl⟩ : ∃ (b : Fin 16) (p : Fin 784), j = ValueIdx.ix2 b p := ⟨j 0, j 1, ValueIdx.eq_ix2 j⟩
  rw [Cert.Tail.P_of_apply, outsOf_4,
    Cert.KernelIdeal.KVal1.kval1 (adm m hcl 1) (fun c b => Gen.V3 m (outsOf m hcl) c b) 0 (fun x => hcl x),
    Cert.ReferenceIdeal.RefValue.minrgb_eq _ _ _ (fun x => hcl x)]
  simp only [e1, e3]
  rfl

end Algebraic

/-- At the ideal instance the kernel's result and the reference's are one function of the arguments: the kernel's
    two output arrays and the reference's two arrays of minimum distances are the specification's G, and what
    follows them is the same term on both sides. -/
theorem algebraic : Cert.algebraic_KernelIdeal_ReferenceIdeal := by
  intro m ρ m' ρ' hpre hagree
  have hcl : Cert.KernelIdeal.Hand.InRange m := inRange_KI m hpre
  refine ⟨fun c => Cert.KernelIdeal.Gen.V9 m (Cert.KernelIdeal.Hand.outsOf m hcl) c Cert.KernelIdeal.main_v83, ?_, ?_⟩
  · refine (θ_run (Cert.KernelIdeal.defs (F := Ideal)) _ _).mono (fun r h c => ⟨?_, args_KI m _ r.2.mem c (h c)⟩)
      (Cert.KernelIdeal.Hand.run_main m hcl ρ)
    exact h c (Proc.devRef .tc Cert.KernelIdeal.main_v83)
      (Finset.mem_filter.mpr ⟨StableHlo.devRef_mem_tcRefs Cert.KernelIdeal.main_v83, by decide⟩)
  · refine (θ_run (Cert.ReferenceIdeal.defs (F := Ideal)) _ _).mono (fun _ h c => ⟨(h c).1.trans ?_, (h c).2⟩)
      (Cert.ReferenceIdeal.Value.run (F := Ideal) m' ρ')
    obtain ⟨h0, h1, h2, h3, h4, h5, h6, h7⟩ := hagree c
    show Cert.ReferenceIdeal.Value.res_main_v127 m' c
      = Cert.KernelIdeal.Gen.V9 m (Cert.KernelIdeal.Hand.outsOf m hcl) c Cert.KernelIdeal.main_v83
    rw [Cert.ReferenceIdeal.Read.val_main_v127_eq, Cert.Tail.ref_tail, Cert.Tail.ker_tail, h0, h1, h2, h3, h4, h5, h6, h7,
      min_point m hcl c, min_rgb m hcl c]

/-! ## The claim -/

/-- The five conjuncts, at the generated witnesses of the programs' stated facts. -/
theorem claim_body :
    Cert.frame_Kernel (hKernel := Cert.Kernel.Gen.facts) (hPre_finite_inputs := Cert.Pre_finite_inputs.Gen.facts)
    ∧ Cert.frame_KernelIdeal (hKernelIdeal := Cert.KernelIdeal.Gen.facts) (hPre_finite_inputs := Cert.Pre_finite_inputs.Gen.facts)
    ∧ Cert.frame_ReferenceIdeal (hReferenceIdeal := Cert.ReferenceIdeal.Gen.facts) (hPre_finite_inputs := Cert.Pre_finite_inputs.Gen.facts)
    ∧ Cert.preserves_Kernel_KernelIdeal
    ∧ Cert.algebraic_KernelIdeal_ReferenceIdeal (hKernelIdeal := Cert.KernelIdeal.Gen.facts) (hReferenceIdeal := Cert.ReferenceIdeal.Gen.facts)
        (hPre_finite_inputs := Cert.Pre_finite_inputs.Gen.facts) :=
  ⟨frame_K, frame_KI, frame_RI, preserves, algebraic⟩

end Cert.Proof.Claims

end
-- ==== Proof.lean ====
/-
  The certificate's claim: under the precondition (every float input finite, every label a class index in
  [0, 10)) the kernel, at the word level and at the ideal values, and the reference run to the end, fault
  nowhere and leave their arguments unchanged; the idealization rewrote nothing; and the idealized kernel and
  the idealized reference end with the same scalar.

  Why the two results agree: per sample b and patch p both programs compute the smallest clipped distance
  sqrt(clip(Σx² + Σy² − 2·Σxy, lo, hi)) from feature row (b, p) to the 4096 rows y of the bank that label b names
  (Spec.lean). The kernel reaches it tile by tile: four tiles of 1024 rows, a running minimum kept in a scratch
  row that is reset at the first tile and written out at the last, the bank's row chosen by the block index the
  label table gives; sums and products commute on the extended reals and the minimum is associative,
  commutative and idempotent, so the four tile minima are the minimum over the bank (KVal0.lean, KVal1.lean
  over KArr0.lean, KArr1.lean). The reference gathers the bank's row on the host and takes one minimum
  (RefVal.lean). Everything after the two arrays of minima is the same host computation in both programs,
  carried as one function (Tail.lean). The frames are the launch of @main's items in order, each kernel call
  a pipeline whose body is run once per control case (Body0.lean, Body1.lean, Run.lean and their word-level
  counterparts), the label table's range read off the precondition (Tbl.lean). Claims.lean assembles the
  five conjuncts.
-/
import proofs.«428568_j19971597926436_3_alg».proof.Defs
import proofs.«428568_j19971597926436_3_alg».proof.Proof.Gen.Kernel
import proofs.«428568_j19971597926436_3_alg».proof.Proof.Gen.KernelIdeal
import proofs.«428568_j19971597926436_3_alg».proof.Proof.Gen.ReferenceIdeal
import proofs.«428568_j19971597926436_3_alg».proof.Proof.Gen.Pre_finite_inputs
import proofs.«428568_j19971597926436_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.claim_body⟩

end Cert.Proof

end
